-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S500000x3 : Shape := ⟨2, ![500000, 3]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel

variable [Facts]

def fn {F : FTy → Type} [FloatOps F] (main_arg0 : FVec F S500000x16 .f32) (main_arg1 : IVec S500000x3 32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  main_v3
-- ==== Kernel.lean ====
abbrev S500000x16 : Shape := ⟨2, ![500000, 16]⟩
abbrev S500000x3 : Shape := ⟨2, ![500000, 3]⟩
abbrev S_ : Shape := ⟨0, ![]⟩
abbrev S500000x1 : Shape := ⟨2, ![500000, 1]⟩
abbrev S500000 : Shape := ⟨1, ![500000]⟩
abbrev S3x500000 : Shape := ⟨2, ![3, 500000]⟩
abbrev S1x500000 : Shape := ⟨2, ![1, 500000]⟩
abbrev S499999x3 : Shape := ⟨2, ![499999, 3]⟩
abbrev S499999 : Shape := ⟨1, ![499999]⟩
abbrev S1 : Shape := ⟨1, ![1]⟩
abbrev S4000000 : Shape := ⟨1, ![4000000]⟩
abbrev S500000x17 : Shape := ⟨2, ![500000, 17]⟩
abbrev S500000x128 : Shape := ⟨2, ![500000, 128]⟩
abbrev S5000x17 : Shape := ⟨2, ![5000, 17]⟩
abbrev S5000x128 : Shape := ⟨2, ![5000, 128]⟩
abbrev S5000x16 : Shape := ⟨2, ![5000, 16]⟩
abbrev S5000x1 : Shape := ⟨2, ![5000, 1]⟩

abbrev nBuf : Space → Nat
  | .hbm => 235
  | .vmem => 4
  | .smem => 0
  | _ => 0

abbrev hbmTy0_0 (i : Nat) : BufTy := match i % 128 with
  | 0 => ⟨S500000x16, .f32⟩
  | 1 => ⟨S500000x3, .i32⟩
  | 2 => ⟨S_, .i32⟩
  | 3 => ⟨S_, .i32⟩
  | 4 => ⟨S500000x3, .i32⟩
  | 5 => ⟨S500000x3, .i32⟩
  | 6 => ⟨S500000x3, .i32⟩
  | 7 => ⟨S_, .i32⟩
  | 8 => ⟨S500000x3, .i32⟩
  | 9 => ⟨S500000x3, .i1⟩
  | 10 => ⟨S500000x3, .i32⟩
  | 11 => ⟨S500000x3, .i32⟩
  | 12 => ⟨S_, .i32⟩
  | 13 => ⟨S500000x3, .i32⟩
  | 14 => ⟨S500000x3, .i1⟩
  | 15 => ⟨S500000x3, .i1⟩
  | 16 => ⟨S_, .i32⟩
  | 17 => ⟨S500000x3, .i32⟩
  | 18 => ⟨S500000x3, .i32⟩
  | 19 => ⟨S500000x3, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S500000x3, .i32⟩
  | 27 => ⟨S500000x3, .i32⟩
  | 28 => ⟨S_, .i32⟩
  | 29 => ⟨S500000x3, .i32⟩
  | 30 => ⟨S500000x3, .i1⟩
  | 31 => ⟨S_, .i32⟩
  | 32 => ⟨S500000x3, .i32⟩
  | 33 => ⟨S500000x3, .i1⟩
  | 34 => ⟨S_, .i32⟩
  | 35 => ⟨S_, .i1⟩
  | 36 => ⟨S500000x3, .i1⟩
  | 37 => ⟨S500000x3, .i1⟩
  | 38 => ⟨S500000x3, .i1⟩
  | 39 => ⟨S500000x3, .i32⟩
  | 40 => ⟨S500000x3, .i32⟩
  | 41 => ⟨S500000x3, .i32⟩
  | 42 => ⟨S500000x1, .i32⟩
  | 43 => ⟨S500000, .i32⟩
  | 44 => ⟨S_, .i32⟩
  | 45 => ⟨S500000, .i32⟩
  | 46 => ⟨S500000, .i32⟩
  | 47 => ⟨S500000x1, .i32⟩
  | 48 => ⟨S500000, .i32⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .i32⟩
  | 55 => ⟨S500000, .i32⟩
  | 56 => ⟨S3x500000, .i32⟩
  | 57 => ⟨S3x500000, .i32⟩
  | 58 => ⟨S1x500000, .i32⟩
  | 59 => ⟨S500000, .i32⟩
  | 60 => ⟨S1x500000, .i32⟩
  | 61 => ⟨S500000, .i32⟩
  | 62 => ⟨S1x500000, .i32⟩
  | 63 => ⟨S500000, .i32⟩
  | 64 => ⟨S500000, .i32⟩
  | 65 => ⟨S500000, .i32⟩
  | 66 => ⟨S500000, .i32⟩
  | 67 => ⟨S500000, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x3, .i32⟩
  | 78 => ⟨S_, .i1⟩
  | 79 => ⟨S500000, .i1⟩
  | 80 => ⟨S499999x3, .i32⟩
  | 81 => ⟨S499999x3, .i32⟩
  | 82 => ⟨S499999x3, .i1⟩
  | 83 => ⟨S_, .i1⟩
  | 84 => ⟨S499999, .i1⟩
  | 85 => ⟨S_, .i32⟩
  | 86 => ⟨S1, .i32⟩
  | 87 => ⟨S500000, .i1⟩
  | 88 => ⟨S500000, .i32⟩
  | 89 => ⟨S_, .i32⟩
  | 90 => ⟨S_, .i32⟩
  | 91 => ⟨S500000, .i32⟩
  | 92 => ⟨S_, .i32⟩
  | 93 => ⟨S500000, .i32⟩
  | 94 => ⟨S_, .i32⟩
  | 95 => ⟨S_, .i32⟩
  | 96 => ⟨S500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S_, .i32⟩
  | 107 => ⟨S500000, .i32⟩
  | 108 => ⟨S500000, .i32⟩
  | 109 => ⟨S_, .i32⟩
  | 110 => ⟨S_, .i32⟩
  | 111 => ⟨S500000, .i32⟩
  | 112 => ⟨S_, .i32⟩
  | 113 => ⟨S500000, .i32⟩
  | 114 => ⟨S500000, .i32⟩
  | 115 => ⟨S500000, .i32⟩
  | 116 => ⟨S_, .i32⟩
  | 117 => ⟨S500000, .i32⟩
  | 118 => ⟨S500000, .i1⟩
  | 119 => ⟨S500000, .i32⟩
  | 120 => ⟨S500000, .i32⟩
  | 121 => ⟨S_, .i32⟩
  | 122 => ⟨S500000, .i32⟩
  | 123 => ⟨S500000, .i1⟩
  | 124 => ⟨S500000, .i1⟩
  | 125 => ⟨S_, .i32⟩
  | 126 => ⟨S500000, .i32⟩
  | 127 => ⟨S500000, .i32⟩
  | _ => ⟨S500000x16, .f32⟩

abbrev hbmTy0_1 (i : Nat) : BufTy := match i % 128 with
  | 0 => ⟨S500000, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i1⟩
  | 15 => ⟨S_, .i32⟩
  | 16 => ⟨S_, .i1⟩
  | 17 => ⟨S500000, .i1⟩
  | 18 => ⟨S500000, .i1⟩
  | 19 => ⟨S500000, .i1⟩
  | 20 => ⟨S500000, .i32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x3, .i32⟩
  | 32 => ⟨S500000, .i32⟩
  | 33 => ⟨S500000, .i32⟩
  | 34 => ⟨S_, .i32⟩
  | 35 => ⟨S_, .i32⟩
  | 36 => ⟨S500000, .i32⟩
  | 37 => ⟨S500000, .i1⟩
  | 38 => ⟨S500000x1, .i1⟩
  | 39 => ⟨S_, .i32⟩
  | 40 => ⟨S500000x3, .i1⟩
  | 41 => ⟨S500000x3, .i32⟩
  | 42 => ⟨S500000x3, .i32⟩
  | 43 => ⟨S500000, .i32⟩
  | 44 => ⟨S_, .i32⟩
  | 45 => ⟨S_, .i32⟩
  | 46 => ⟨S500000, .i32⟩
  | 47 => ⟨S_, .i32⟩
  | 48 => ⟨S500000, .i32⟩
  | 49 => ⟨S500000, .i32⟩
  | 50 => ⟨S_, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000, .i32⟩
  | 61 => ⟨S_, .i32⟩
  | 62 => ⟨S500000, .i32⟩
  | 63 => ⟨S500000, .i32⟩
  | 64 => ⟨S500000, .i32⟩
  | 65 => ⟨S_, .i32⟩
  | 66 => ⟨S4000000, .i32⟩
  | 67 => ⟨S500000, .i32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S4000000, .i32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000, .i32⟩
  | 86 => ⟨S500000, .i32⟩
  | 87 => ⟨S500000, .i1⟩
  | 88 => ⟨S_, .i32⟩
  | 89 => ⟨S_, .i32⟩
  | 90 => ⟨S500000, .i32⟩
  | 91 => ⟨S500000, .i32⟩
  | 92 => ⟨S500000, .f32⟩
  | 93 => ⟨S500000x1, .f32⟩
  | 94 => ⟨S500000x17, .f32⟩
  | 95 => ⟨S500000x128, .f32⟩
  | 96 => ⟨S_, .f32⟩
  | 97 => ⟨S500000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | _ => ⟨S500000x16, .f32⟩

abbrev hbmTy (i : Nat) : BufTy := match i / 128 with
  | 0 => hbmTy0_0 i
  | 1 => hbmTy0_1 i
  | _ => ⟨S500000x16, .f32⟩

abbrev bufTy : (tb : Table) → Fin (tcTables nBuf tb) → BufTy
  | .hbm, ⟨i, _⟩ => hbmTy i
  | .local _ .vmem, ⟨0, _⟩ => ⟨S5000x17, .f32⟩
  | .local _ .vmem, ⟨1, _⟩ => ⟨S5000x17, .f32⟩
  | .local _ .vmem, ⟨2, _⟩ => ⟨S5000x128, .f32⟩
  | .local _ .vmem, ⟨3, _⟩ => ⟨S5000x128, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_c_1 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_c_2 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_call2_v0 : Ref sig .tc := ⟨.hbm, 56, rfl⟩
abbrev main_call2_v1 : Ref sig .tc := ⟨.hbm, 57, rfl⟩
abbrev main_call2_call0_v0 : Ref sig .tc := ⟨.hbm, 58, rfl⟩
abbrev main_call2_call0_v1 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_v4 : Ref sig .tc := ⟨.hbm, 62, rfl⟩
abbrev main_call2_call0_v5 : Ref sig .tc := ⟨.hbm, 63, rfl⟩
abbrev main_call2_call0_v6 : Ref sig .tc := ⟨.hbm, 64, rfl⟩
abbrev main_call2_call0_v7_0 : Ref sig .tc := ⟨.hbm, 65, rfl⟩
abbrev main_call2_call0_v7_1 : Ref sig .tc := ⟨.hbm, 66, rfl⟩
abbrev main_call2_call0_v7_2 : Ref sig .tc := ⟨.hbm, 67, rfl⟩
abbrev main_v14_2 : Ref sig .tc := ⟨.hbm, 68, rfl⟩
abbrev main_call2_c : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_v14_0 : Ref sig .tc := ⟨.hbm, 77, rfl⟩
abbrev main_call2_c_1 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_c_2 : Ref sig .tc := ⟨.hbm, 83, rfl⟩
abbrev main_call2_v14 : Ref sig .tc := ⟨.hbm, 84, rfl⟩
abbrev main_call2_c_3 : Ref sig .tc := ⟨.hbm, 85, rfl⟩
abbrev main_call2_v15 : Ref sig .tc := ⟨.hbm, 86, rfl⟩
abbrev main_v14_1 : Ref sig .tc := ⟨.hbm, 87, rfl⟩
abbrev main_call3_v0 : Ref sig .tc := ⟨.hbm, 88, rfl⟩
abbrev main_call3_call0_c : Ref sig .tc := ⟨.hbm, 89, rfl⟩
abbrev main_call3_call0_v0 : Ref sig .tc := ⟨.hbm, 90, rfl⟩
abbrev main_v15 : Ref sig .tc := ⟨.hbm, 91, rfl⟩
abbrev main_c_3 : Ref sig .tc := ⟨.hbm, 92, rfl⟩
abbrev main_v16 : Ref sig .tc := ⟨.hbm, 93, rfl⟩
abbrev main_c_4 : Ref sig .tc := ⟨.hbm, 94, rfl⟩
abbrev main_call4_v0 : Ref sig .tc := ⟨.hbm, 95, rfl⟩
abbrev main_call4_v1 : Ref sig .tc := ⟨.hbm, 96, rfl⟩
abbrev main_v17 : Ref sig .tc := ⟨.hbm, 97, rfl⟩
abbrev main_c_5 : Ref sig .tc := ⟨.hbm, 98, rfl⟩
abbrev main_v18 : Ref sig .tc := ⟨.hbm, 99, rfl⟩
abbrev main_v19 : Ref sig .tc := ⟨.hbm, 100, rfl⟩
abbrev main_c_6 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_c_7 : Ref sig .tc := ⟨.hbm, 106, rfl⟩
abbrev main_v24 : Ref sig .tc := ⟨.hbm, 107, rfl⟩
abbrev main_v25 : Ref sig .tc := ⟨.hbm, 108, rfl⟩
abbrev main_call5_call0_c : Ref sig .tc := ⟨.hbm, 109, rfl⟩
abbrev main_call5_call0_v0 : Ref sig .tc := ⟨.hbm, 110, rfl⟩
abbrev main_v26 : Ref sig .tc := ⟨.hbm, 111, rfl⟩
abbrev main_c_8 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_v6 : Ref sig .tc := ⟨.hbm, 119, rfl⟩
abbrev main_call6_v7 : Ref sig .tc := ⟨.hbm, 120, rfl⟩
abbrev main_call6_c : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_c_0 : Ref sig .tc := ⟨.hbm, 125, rfl⟩
abbrev main_call6_v11 : Ref sig .tc := ⟨.hbm, 126, rfl⟩
abbrev main_call6_v12 : Ref sig .tc := ⟨.hbm, 127, rfl⟩
abbrev main_v27 : Ref sig .tc := ⟨.hbm, 128, rfl⟩
abbrev main_c_9 : Ref sig .tc := ⟨.hbm, 129, rfl⟩
abbrev main_call7_v0 : Ref sig .tc := ⟨.hbm, 130, rfl⟩
abbrev main_call7_c : Ref sig .tc := ⟨.hbm, 131, rfl⟩
abbrev main_call7_v1 : Ref sig .tc := ⟨.hbm, 132, rfl⟩
abbrev main_call7_c_0 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_c_1 : Ref sig .tc := ⟨.hbm, 137, rfl⟩
abbrev main_call7_v5 : Ref sig .tc := ⟨.hbm, 138, rfl⟩
abbrev main_call7_v6 : Ref sig .tc := ⟨.hbm, 139, rfl⟩
abbrev main_call7_c_2 : Ref sig .tc := ⟨.hbm, 140, rfl⟩
abbrev main_call7_v7 : Ref sig .tc := ⟨.hbm, 141, rfl⟩
abbrev main_call7_v8 : Ref sig .tc := ⟨.hbm, 142, rfl⟩
abbrev main_call7_c_3 : Ref sig .tc := ⟨.hbm, 143, rfl⟩
abbrev main_call7_v9 : Ref sig .tc := ⟨.hbm, 144, rfl⟩
abbrev main_call7_v10 : Ref sig .tc := ⟨.hbm, 145, rfl⟩
abbrev main_call7_v11 : Ref sig .tc := ⟨.hbm, 146, rfl⟩
abbrev main_call7_v12 : Ref sig .tc := ⟨.hbm, 147, rfl⟩
abbrev main_call7_v13 : Ref sig .tc := ⟨.hbm, 148, rfl⟩
abbrev main_call7_v14 : Ref sig .tc := ⟨.hbm, 149, rfl⟩
abbrev main_v28 : Ref sig .tc := ⟨.hbm, 150, rfl⟩
abbrev main_c_10 : Ref sig .tc := ⟨.hbm, 151, rfl⟩
abbrev main_v29 : Ref sig .tc := ⟨.hbm, 152, rfl⟩
abbrev main_v30 : Ref sig .tc := ⟨.hbm, 153, rfl⟩
abbrev main_c_11 : Ref sig .tc := ⟨.hbm, 154, rfl⟩
abbrev main_v31 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_c_12 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_c_13 : Ref sig .tc := ⟨.hbm, 167, rfl⟩
abbrev main_call8_v0 : Ref sig .tc := ⟨.hbm, 168, rfl⟩
abbrev main_call8_v1 : Ref sig .tc := ⟨.hbm, 169, rfl⟩
abbrev main_v42 : Ref sig .tc := ⟨.hbm, 170, rfl⟩
abbrev main_call9_v0 : Ref sig .tc := ⟨.hbm, 171, rfl⟩
abbrev main_call9_call0_c : Ref sig .tc := ⟨.hbm, 172, rfl⟩
abbrev main_call9_call0_v0 : Ref sig .tc := ⟨.hbm, 173, rfl⟩
abbrev main_v43 : Ref sig .tc := ⟨.hbm, 174, rfl⟩
abbrev main_c_14 : Ref sig .tc := ⟨.hbm, 175, rfl⟩
abbrev main_v44 : Ref sig .tc := ⟨.hbm, 176, rfl⟩
abbrev main_v45 : Ref sig .tc := ⟨.hbm, 177, rfl⟩
abbrev main_c_15 : Ref sig .tc := ⟨.hbm, 178, rfl⟩
abbrev main_v46 : Ref sig .tc := ⟨.hbm, 179, rfl⟩
abbrev main_c_16 : Ref sig .tc := ⟨.hbm, 180, rfl⟩
abbrev main_v47 : Ref sig .tc := ⟨.hbm, 181, rfl⟩
abbrev main_v48 : Ref sig .tc := ⟨.hbm, 182, rfl⟩
abbrev main_c_17 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_c_18 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_c_19 : Ref sig .tc := ⟨.hbm, 193, rfl⟩
abbrev main_v57 : Ref sig .tc := ⟨.hbm, 194, rfl⟩
abbrev main_v58 : Ref sig .tc := ⟨.hbm, 195, rfl⟩
abbrev main_c_20 : Ref sig .tc := ⟨.hbm, 196, rfl⟩
abbrev main_v59 : Ref sig .tc := ⟨.hbm, 197, rfl⟩
abbrev main_v60 : Ref sig .tc := ⟨.hbm, 198, rfl⟩
abbrev main_c_21 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_c_22 : Ref sig .tc := ⟨.hbm, 205, rfl⟩
abbrev main_v66 : Ref sig .tc := ⟨.hbm, 206, rfl⟩
abbrev main_v67 : Ref sig .tc := ⟨.hbm, 207, rfl⟩
abbrev main_c_23 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩
abbrev main_v72 : Ref sig .tc := ⟨.hbm, 213, rfl⟩
abbrev main_v73 : Ref sig .tc := ⟨.hbm, 214, rfl⟩
abbrev main_v74 : Ref sig .tc := ⟨.hbm, 215, rfl⟩
abbrev main_c_24 : Ref sig .tc := ⟨.hbm, 216, rfl⟩
abbrev main_call10_v0 : Ref sig .tc := ⟨.hbm, 217, rfl⟩
abbrev main_call10_v1 : Ref sig .tc := ⟨.hbm, 218, rfl⟩
abbrev main_v75 : Ref sig .tc := ⟨.hbm, 219, rfl⟩
abbrev main_v76 : Ref sig .tc := ⟨.hbm, 220, rfl⟩
abbrev main_v77 : Ref sig .tc := ⟨.hbm, 221, rfl⟩
abbrev main_v78 : Ref sig .tc := ⟨.hbm, 222, rfl⟩
abbrev main_v79 : Ref sig .tc := ⟨.hbm, 223, rfl⟩
abbrev main_cst : Ref sig .tc := ⟨.hbm, 224, rfl⟩
abbrev main_v80 : Ref sig .tc := ⟨.hbm, 225, rfl⟩
abbrev main_c_25 : Ref sig .tc := ⟨.hbm, 226, rfl⟩
abbrev main_v81 : Ref sig .tc := ⟨.hbm, 227, rfl⟩
abbrev main_v82 : Ref sig .tc := ⟨.hbm, 228, rfl⟩
abbrev main_c_26 : Ref sig .tc := ⟨.hbm, 229, rfl⟩
abbrev main_v83 : Ref sig .tc := ⟨.hbm, 230, rfl⟩
abbrev main_v84 : Ref sig .tc := ⟨.hbm, 231, rfl⟩
abbrev main_v85 : Ref sig .tc := ⟨.hbm, 232, rfl⟩
abbrev main_v86 : Ref sig .tc := ⟨.hbm, 233, rfl⟩
abbrev main_v87 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S500000x3 : S_.BroadcastsInDim S500000x3 (![] : Fin 0 → Fin S500000x3.rank)
  slices_S500000x3_S500000x1_0_0 : S500000x3.Slices ![0, 0] S500000x1
  shapeCasts_S500000x1_S500000 : S500000x1.ShapeCasts S500000
  bcast_S_S500000 : S_.BroadcastsInDim S500000 (![] : Fin 0 → Fin S500000.rank)
  slices_S500000x3_S500000x1_0_1 : S500000x3.Slices ![0, 1] S500000x1
  slices_S500000x3_S500000x1_0_2 : S500000x3.Slices ![0, 2] S500000x1
  transposes_S500000x3_S3x500000_1_0 : S500000x3.Transposes [1, 0] S3x500000
  slices_S3x500000_S1x500000_0_0 : S3x500000.Slices ![0, 0] S1x500000
  shapeCasts_S1x500000_S500000 : S1x500000.ShapeCasts S500000
  slices_S3x500000_S1x500000_1_0 : S3x500000.Slices ![1, 0] S1x500000
  slices_S3x500000_S1x500000_2_0 : S3x500000.Slices ![2, 0] S1x500000
  bcast_S500000_S500000x1_0 : S500000.BroadcastsInDim S500000x1 (![0] : Fin 1 → Fin S500000x1.rank)
  slices_S500000x3_S499999x3_1_0 : S500000x3.Slices ![1, 0] S499999x3
  slices_S500000x3_S499999x3_0_0 : S500000x3.Slices ![0, 0] S499999x3
  reducesTo_S499999x3_S499999_d1 : S499999x3.ReducesTo [1] S499999
  h_S_ : 0 < S_.numel
  bcast_S_S1 : S_.BroadcastsInDim S1 (![] : Fin 0 → Fin S1.rank)
  natLt_1_32 : 1 < 32
  bcast_S_S_ : S_.BroadcastsInDim S_ (![] : Fin 0 → Fin S_.rank)
  reduceWindows_S500000_S500000_w500000s1p499999_0 : S500000.ReduceWindows (![500000] : Fin 1 → Nat) ![1] ![499999] ![0] S500000
  reducesTo_S500000_S_d0 : S500000.ReducesTo [0] S_
  bcast_S500000x1_S500000x3_0_1 : S500000x1.BroadcastsInDim S500000x3 (![0, 1] : Fin 2 → Fin S500000x3.rank)
  bcast_S_S4000000 : S_.BroadcastsInDim S4000000 (![] : Fin 0 → Fin S4000000.rank)
  concatenates_S500000x16_S500000x1_S500000x17_d1 : Shape.Concatenates [S500000x16, S500000x1] S500000x17 1
  inb_S5000x17_S5000x17_0_0 : ∀ a, (![0, 0] : Fin 2 → Nat) a + S5000x17.size a ≤ S5000x17.size a
  h_S5000x17 : 0 < S5000x17.numel
  shapeCasts_S5000x17_S5000x17 : S5000x17.ShapeCasts S5000x17
  slices_S5000x17_o0_0_S5000x16 : S5000x17.Slices ![0, 0] S5000x16
  slices_S5000x17_o0_16_S5000x1 : S5000x17.Slices ![0, 16] S5000x1
  concatenates_S5000x16_S5000x16_S5000x16_S5000x16_S5000x16_S5000x16_S5000x16_S5000x16_S5000x128_d1 : Shape.Concatenates [S5000x16, S5000x16, S5000x16, S5000x16, S5000x16, S5000x16, S5000x16, S5000x16] S5000x128 1
  iota_S5000x128_d1_w32 : S5000x128.Iotas .tc 32 [1]
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S500000x128 : S_.BroadcastsInDim S500000x128 (![] : Fin 0 → Fin S500000x128.rank)
  gather_S500000x3_S500000x1_S500000x3_1_0_n_n_0_1_13_wf : GatherDims.WF S500000x3 S500000x1 S500000x3 [1] [0] [] [0] [] 1 ![1, 3]
  scatter_S500000_S1_S499999_0_n_0_0_wf : ScatterDims.WF S500000 S1 S499999 [0] [] [0] 0
  scatter_S500000_S500000x1_S500000_n_0_0_1_wf : ScatterDims.WF S500000 S500000x1 S500000 [] [0] [0] 1
  scatter_S4000000_S500000x1_S500000_n_0_0_1_wf : ScatterDims.WF S4000000 S500000x1 S500000 [] [0] [0] 1
  gather_S4000000_S500000x1_S500000_n_0_n_n_0_1_1_wf : GatherDims.WF S4000000 S500000x1 S500000 [] [0] [] [0] [] 1 ![1]
  scatter_S500000x128_S500000x1_S500000x128_1_0_0_1_wf : ScatterDims.WF S500000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x17.size a ≤ S500000x17.size a
  hwx0_0 : ∀ i : grid0.Coords, EltTy.bits .f32 = 32 ∨ (Rect.block (s := S500000x17) S5000x17.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)

variable [Facts₀]

def comparator_i32_i32_i32_i32_d0 : BitVec 32 × BitVec 32 × BitVec 32 × BitVec 32 → BitVec 32 × BitVec 32 × BitVec 32 × BitVec 32 → BitVec 1 :=
  fun l r =>
    let v8 := IntOp.cmpi .slt l.2.2.1 r.2.2.1
    let v9 := IntOp.cmpi .slt l.2.1 r.2.1
    let v10 := IntOp.cmpi .eq l.2.1 r.2.1
    let v11 := IntOp.andi v10 v8
    let v12 := IntOp.ori v9 v11
    let v13 := IntOp.cmpi .slt l.1 r.1
    let v14 := IntOp.cmpi .eq l.1 r.1
    let v15 := IntOp.andi v14 v12
    let v16 := IntOp.ori v13 v15
    v16
def gather_S500000x3_S500000x1_S500000x3_1_0_n_n_0_1_13 : GatherDims S500000x3 S500000x1 S500000x3 where
  offsetDims := [1]
  collapsedSliceDims := [0]
  operandBatchingDims := []
  startIndicesBatchingDims := []
  startIndexMap := [0]
  indexVectorDim := 1
  sliceSizes := ![1, 3]
  wf := gather_S500000x3_S500000x1_S500000x3_1_0_n_n_0_1_13_wf
def scatter_S500000_S1_S499999_0_n_0_0 : ScatterDims S500000 S1 S499999 where
  updateWindowDims := [0]
  insertedWindowDims := []
  scatterDimsToOperandDims := [0]
  indexVectorDim := 0
  wf := scatter_S500000_S1_S499999_0_n_0_0_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def scatter_S4000000_S500000x1_S500000_n_0_0_1 : ScatterDims S4000000 S500000x1 S500000 where
  updateWindowDims := []
  insertedWindowDims := [0]
  scatterDimsToOperandDims := [0]
  indexVectorDim := 1
  wf := scatter_S4000000_S500000x1_S500000_n_0_0_1_wf
def gather_S4000000_S500000x1_S500000_n_0_n_n_0_1_1 : GatherDims S4000000 S500000x1 S500000 where
  offsetDims := []
  collapsedSliceDims := [0]
  operandBatchingDims := []
  startIndicesBatchingDims := []
  startIndexMap := [0]
  indexVectorDim := 1
  sliceSizes := ![1]
  wf := gather_S4000000_S500000x1_S500000_n_0_n_n_0_1_1_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf

abbrev win0_0 : Pipeline.Window sig grid0 :=
  Pipeline.Window.ofSpec (Memref.whole main_v78) S5000x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S500000x16 : Shape := ⟨2, ![500000, 16]⟩
abbrev S500000x3 : Shape := ⟨2, ![500000, 3]⟩
abbrev S_ : Shape := ⟨0, ![]⟩
abbrev S500000x1 : Shape := ⟨2, ![500000, 1]⟩
abbrev S500000 : Shape := ⟨1, ![500000]⟩
abbrev S3x500000 : Shape := ⟨2, ![3, 500000]⟩
abbrev S1x500000 : Shape := ⟨2, ![1, 500000]⟩
abbrev S499999x3 : Shape := ⟨2, ![499999, 3]⟩
abbrev S499999 : Shape := ⟨1, ![499999]⟩
abbrev S1 : Shape := ⟨1, ![1]⟩
abbrev S16 : Shape := ⟨1, ![16]⟩
abbrev S1x16 : Shape := ⟨2, ![1, 16]⟩
abbrev S500000x128 : Shape := ⟨2, ![500000, 128]⟩
abbrev S500000x16x1 : Shape := ⟨3, ![500000, 16, 1]⟩
abbrev S500000x16x2 : Shape := ⟨3, ![500000, 16, 2]⟩

abbrev nBuf : Space → Nat
  | .hbm => 220
  | .vmem => 0
  | .smem => 0
  | _ => 0

abbrev hbmTy0_0 (i : Nat) : BufTy := match i % 128 with
  | 0 => ⟨S500000x16, .f32⟩
  | 1 => ⟨S500000x3, .i32⟩
  | 2 => ⟨S_, .i32⟩
  | 3 => ⟨S_, .i32⟩
  | 4 => ⟨S500000x3, .i32⟩
  | 5 => ⟨S500000x3, .i32⟩
  | 6 => ⟨S500000x3, .i32⟩
  | 7 => ⟨S_, .i32⟩
  | 8 => ⟨S500000x3, .i32⟩
  | 9 => ⟨S500000x3, .i1⟩
  | 10 => ⟨S500000x3, .i32⟩
  | 11 => ⟨S500000x3, .i32⟩
  | 12 => ⟨S_, .i32⟩
  | 13 => ⟨S500000x3, .i32⟩
  | 14 => ⟨S500000x3, .i1⟩
  | 15 => ⟨S500000x3, .i1⟩
  | 16 => ⟨S_, .i32⟩
  | 17 => ⟨S500000x3, .i32⟩
  | 18 => ⟨S500000x3, .i32⟩
  | 19 => ⟨S500000x3, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S500000x3, .i32⟩
  | 27 => ⟨S500000x3, .i32⟩
  | 28 => ⟨S_, .i32⟩
  | 29 => ⟨S500000x3, .i32⟩
  | 30 => ⟨S500000x3, .i1⟩
  | 31 => ⟨S_, .i32⟩
  | 32 => ⟨S500000x3, .i32⟩
  | 33 => ⟨S500000x3, .i1⟩
  | 34 => ⟨S_, .i32⟩
  | 35 => ⟨S_, .i1⟩
  | 36 => ⟨S500000x3, .i1⟩
  | 37 => ⟨S500000x3, .i1⟩
  | 38 => ⟨S500000x3, .i1⟩
  | 39 => ⟨S500000x3, .i32⟩
  | 40 => ⟨S500000x3, .i32⟩
  | 41 => ⟨S500000x3, .i32⟩
  | 42 => ⟨S500000x1, .i32⟩
  | 43 => ⟨S500000, .i32⟩
  | 44 => ⟨S_, .i32⟩
  | 45 => ⟨S500000, .i32⟩
  | 46 => ⟨S500000, .i32⟩
  | 47 => ⟨S500000x1, .i32⟩
  | 48 => ⟨S500000, .i32⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .i32⟩
  | 55 => ⟨S500000, .i32⟩
  | 56 => ⟨S3x500000, .i32⟩
  | 57 => ⟨S3x500000, .i32⟩
  | 58 => ⟨S1x500000, .i32⟩
  | 59 => ⟨S500000, .i32⟩
  | 60 => ⟨S1x500000, .i32⟩
  | 61 => ⟨S500000, .i32⟩
  | 62 => ⟨S1x500000, .i32⟩
  | 63 => ⟨S500000, .i32⟩
  | 64 => ⟨S500000, .i32⟩
  | 65 => ⟨S500000, .i32⟩
  | 66 => ⟨S500000, .i32⟩
  | 67 => ⟨S500000, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x3, .i32⟩
  | 78 => ⟨S_, .i1⟩
  | 79 => ⟨S500000, .i1⟩
  | 80 => ⟨S499999x3, .i32⟩
  | 81 => ⟨S499999x3, .i32⟩
  | 82 => ⟨S499999x3, .i1⟩
  | 83 => ⟨S_, .i1⟩
  | 84 => ⟨S499999, .i1⟩
  | 85 => ⟨S_, .i32⟩
  | 86 => ⟨S1, .i32⟩
  | 87 => ⟨S500000, .i1⟩
  | 88 => ⟨S500000, .i32⟩
  | 89 => ⟨S_, .i32⟩
  | 90 => ⟨S_, .i32⟩
  | 91 => ⟨S500000, .i32⟩
  | 92 => ⟨S_, .i32⟩
  | 93 => ⟨S500000, .i32⟩
  | 94 => ⟨S_, .i32⟩
  | 95 => ⟨S_, .i32⟩
  | 96 => ⟨S500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S_, .i32⟩
  | 107 => ⟨S500000, .i32⟩
  | 108 => ⟨S500000, .i32⟩
  | 109 => ⟨S_, .i32⟩
  | 110 => ⟨S_, .i32⟩
  | 111 => ⟨S500000, .i32⟩
  | 112 => ⟨S_, .i32⟩
  | 113 => ⟨S500000, .i32⟩
  | 114 => ⟨S500000, .i32⟩
  | 115 => ⟨S500000, .i32⟩
  | 116 => ⟨S_, .i32⟩
  | 117 => ⟨S500000, .i32⟩
  | 118 => ⟨S500000, .i1⟩
  | 119 => ⟨S500000, .i32⟩
  | 120 => ⟨S500000, .i32⟩
  | 121 => ⟨S_, .i32⟩
  | 122 => ⟨S500000, .i32⟩
  | 123 => ⟨S500000, .i1⟩
  | 124 => ⟨S500000, .i1⟩
  | 125 => ⟨S_, .i32⟩
  | 126 => ⟨S500000, .i32⟩
  | 127 => ⟨S500000, .i32⟩
  | _ => ⟨S500000x16, .f32⟩

abbrev hbmTy0_1 (i : Nat) : BufTy := match i % 128 with
  | 0 => ⟨S500000, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i1⟩
  | 15 => ⟨S_, .i32⟩
  | 16 => ⟨S_, .i1⟩
  | 17 => ⟨S500000, .i1⟩
  | 18 => ⟨S500000, .i1⟩
  | 19 => ⟨S500000, .i1⟩
  | 20 => ⟨S500000, .i32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x3, .i32⟩
  | 32 => ⟨S500000, .i32⟩
  | 33 => ⟨S500000, .i32⟩
  | 34 => ⟨S_, .i32⟩
  | 35 => ⟨S_, .i32⟩
  | 36 => ⟨S500000, .i32⟩
  | 37 => ⟨S500000, .i1⟩
  | 38 => ⟨S500000x1, .i1⟩
  | 39 => ⟨S_, .i32⟩
  | 40 => ⟨S500000x3, .i1⟩
  | 41 => ⟨S500000x3, .i32⟩
  | 42 => ⟨S500000x3, .i32⟩
  | 43 => ⟨S500000, .i32⟩
  | 44 => ⟨S_, .i32⟩
  | 45 => ⟨S_, .i32⟩
  | 46 => ⟨S500000, .i32⟩
  | 47 => ⟨S_, .i32⟩
  | 48 => ⟨S500000, .i32⟩
  | 49 => ⟨S500000, .i32⟩
  | 50 => ⟨S_, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000, .i32⟩
  | 61 => ⟨S500000x1, .i32⟩
  | 62 => ⟨S_, .i32⟩
  | 63 => ⟨S500000x1, .i32⟩
  | 64 => ⟨S500000x1, .i32⟩
  | 65 => ⟨S16, .i32⟩
  | 66 => ⟨S1x16, .i32⟩
  | 67 => ⟨S500000x16, .i32⟩
  | 68 => ⟨S500000x16, .i32⟩
  | 69 => ⟨S500000x16, .i32⟩
  | 70 => ⟨S_, .f32⟩
  | 71 => ⟨S500000x128, .f32⟩
  | 72 => ⟨S500000x1, .i32⟩
  | 73 => ⟨S_, .i32⟩
  | 74 => ⟨S500000x1, .i32⟩
  | 75 => ⟨S500000x1, .i1⟩
  | 76 => ⟨S_, .i32⟩
  | 77 => ⟨S500000x1, .i32⟩
  | 78 => ⟨S500000x1, .i32⟩
  | 79 => ⟨S500000x1, .i32⟩
  | 80 => ⟨S_, .i32⟩
  | 81 => ⟨S500000x16, .i32⟩
  | 82 => ⟨S500000x16, .i1⟩
  | 83 => ⟨S_, .i32⟩
  | 84 => ⟨S500000x16, .i32⟩
  | 85 => ⟨S500000x16, .i32⟩
  | 86 => ⟨S500000x16, .i32⟩
  | 87 => ⟨S500000x16, .i32⟩
  | 88 => ⟨S500000x16x1, .i32⟩
  | 89 => ⟨S500000x16x1, .i32⟩
  | 90 => ⟨S500000x16x2, .i32⟩
  | 91 => ⟨S500000x128, .f32⟩
  | _ => ⟨S500000x16, .f32⟩

abbrev hbmTy (i : Nat) : BufTy := match i / 128 with
  | 0 => hbmTy0_0 i
  | 1 => hbmTy0_1 i
  | _ => ⟨S500000x16, .f32⟩

abbrev bufTy : (tb : Table) → Fin (tcTables nBuf tb) → BufTy
  | .hbm, ⟨i, _⟩ => hbmTy i
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_c_1 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_c_2 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_call2_v0 : Ref sig .tc := ⟨.hbm, 56, rfl⟩
abbrev main_call2_v1 : Ref sig .tc := ⟨.hbm, 57, rfl⟩
abbrev main_call2_call0_v0 : Ref sig .tc := ⟨.hbm, 58, rfl⟩
abbrev main_call2_call0_v1 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_v4 : Ref sig .tc := ⟨.hbm, 62, rfl⟩
abbrev main_call2_call0_v5 : Ref sig .tc := ⟨.hbm, 63, rfl⟩
abbrev main_call2_call0_v6 : Ref sig .tc := ⟨.hbm, 64, rfl⟩
abbrev main_call2_call0_v7_0 : Ref sig .tc := ⟨.hbm, 65, rfl⟩
abbrev main_call2_call0_v7_1 : Ref sig .tc := ⟨.hbm, 66, rfl⟩
abbrev main_call2_call0_v7_2 : Ref sig .tc := ⟨.hbm, 67, rfl⟩
abbrev main_v14_2 : Ref sig .tc := ⟨.hbm, 68, rfl⟩
abbrev main_call2_c : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_v14_0 : Ref sig .tc := ⟨.hbm, 77, rfl⟩
abbrev main_call2_c_1 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_c_2 : Ref sig .tc := ⟨.hbm, 83, rfl⟩
abbrev main_call2_v14 : Ref sig .tc := ⟨.hbm, 84, rfl⟩
abbrev main_call2_c_3 : Ref sig .tc := ⟨.hbm, 85, rfl⟩
abbrev main_call2_v15 : Ref sig .tc := ⟨.hbm, 86, rfl⟩
abbrev main_v14_1 : Ref sig .tc := ⟨.hbm, 87, rfl⟩
abbrev main_call3_v0 : Ref sig .tc := ⟨.hbm, 88, rfl⟩
abbrev main_call3_call0_c : Ref sig .tc := ⟨.hbm, 89, rfl⟩
abbrev main_call3_call0_v0 : Ref sig .tc := ⟨.hbm, 90, rfl⟩
abbrev main_v15 : Ref sig .tc := ⟨.hbm, 91, rfl⟩
abbrev main_c_3 : Ref sig .tc := ⟨.hbm, 92, rfl⟩
abbrev main_v16 : Ref sig .tc := ⟨.hbm, 93, rfl⟩
abbrev main_c_4 : Ref sig .tc := ⟨.hbm, 94, rfl⟩
abbrev main_call4_v0 : Ref sig .tc := ⟨.hbm, 95, rfl⟩
abbrev main_call4_v1 : Ref sig .tc := ⟨.hbm, 96, rfl⟩
abbrev main_v17 : Ref sig .tc := ⟨.hbm, 97, rfl⟩
abbrev main_c_5 : Ref sig .tc := ⟨.hbm, 98, rfl⟩
abbrev main_v18 : Ref sig .tc := ⟨.hbm, 99, rfl⟩
abbrev main_v19 : Ref sig .tc := ⟨.hbm, 100, rfl⟩
abbrev main_c_6 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_c_7 : Ref sig .tc := ⟨.hbm, 106, rfl⟩
abbrev main_v24 : Ref sig .tc := ⟨.hbm, 107, rfl⟩
abbrev main_v25 : Ref sig .tc := ⟨.hbm, 108, rfl⟩
abbrev main_call5_call0_c : Ref sig .tc := ⟨.hbm, 109, rfl⟩
abbrev main_call5_call0_v0 : Ref sig .tc := ⟨.hbm, 110, rfl⟩
abbrev main_v26 : Ref sig .tc := ⟨.hbm, 111, rfl⟩
abbrev main_c_8 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_v6 : Ref sig .tc := ⟨.hbm, 119, rfl⟩
abbrev main_call6_v7 : Ref sig .tc := ⟨.hbm, 120, rfl⟩
abbrev main_call6_c : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_c_0 : Ref sig .tc := ⟨.hbm, 125, rfl⟩
abbrev main_call6_v11 : Ref sig .tc := ⟨.hbm, 126, rfl⟩
abbrev main_call6_v12 : Ref sig .tc := ⟨.hbm, 127, rfl⟩
abbrev main_v27 : Ref sig .tc := ⟨.hbm, 128, rfl⟩
abbrev main_c_9 : Ref sig .tc := ⟨.hbm, 129, rfl⟩
abbrev main_call7_v0 : Ref sig .tc := ⟨.hbm, 130, rfl⟩
abbrev main_call7_c : Ref sig .tc := ⟨.hbm, 131, rfl⟩
abbrev main_call7_v1 : Ref sig .tc := ⟨.hbm, 132, rfl⟩
abbrev main_call7_c_0 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_c_1 : Ref sig .tc := ⟨.hbm, 137, rfl⟩
abbrev main_call7_v5 : Ref sig .tc := ⟨.hbm, 138, rfl⟩
abbrev main_call7_v6 : Ref sig .tc := ⟨.hbm, 139, rfl⟩
abbrev main_call7_c_2 : Ref sig .tc := ⟨.hbm, 140, rfl⟩
abbrev main_call7_v7 : Ref sig .tc := ⟨.hbm, 141, rfl⟩
abbrev main_call7_v8 : Ref sig .tc := ⟨.hbm, 142, rfl⟩
abbrev main_call7_c_3 : Ref sig .tc := ⟨.hbm, 143, rfl⟩
abbrev main_call7_v9 : Ref sig .tc := ⟨.hbm, 144, rfl⟩
abbrev main_call7_v10 : Ref sig .tc := ⟨.hbm, 145, rfl⟩
abbrev main_call7_v11 : Ref sig .tc := ⟨.hbm, 146, rfl⟩
abbrev main_call7_v12 : Ref sig .tc := ⟨.hbm, 147, rfl⟩
abbrev main_call7_v13 : Ref sig .tc := ⟨.hbm, 148, rfl⟩
abbrev main_call7_v14 : Ref sig .tc := ⟨.hbm, 149, rfl⟩
abbrev main_v28 : Ref sig .tc := ⟨.hbm, 150, rfl⟩
abbrev main_c_10 : Ref sig .tc := ⟨.hbm, 151, rfl⟩
abbrev main_v29 : Ref sig .tc := ⟨.hbm, 152, rfl⟩
abbrev main_v30 : Ref sig .tc := ⟨.hbm, 153, rfl⟩
abbrev main_c_11 : Ref sig .tc := ⟨.hbm, 154, rfl⟩
abbrev main_v31 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_c_12 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_c_13 : Ref sig .tc := ⟨.hbm, 167, rfl⟩
abbrev main_call8_v0 : Ref sig .tc := ⟨.hbm, 168, rfl⟩
abbrev main_call8_v1 : Ref sig .tc := ⟨.hbm, 169, rfl⟩
abbrev main_v42 : Ref sig .tc := ⟨.hbm, 170, rfl⟩
abbrev main_call9_v0 : Ref sig .tc := ⟨.hbm, 171, rfl⟩
abbrev main_call9_call0_c : Ref sig .tc := ⟨.hbm, 172, rfl⟩
abbrev main_call9_call0_v0 : Ref sig .tc := ⟨.hbm, 173, rfl⟩
abbrev main_v43 : Ref sig .tc := ⟨.hbm, 174, rfl⟩
abbrev main_c_14 : Ref sig .tc := ⟨.hbm, 175, rfl⟩
abbrev main_v44 : Ref sig .tc := ⟨.hbm, 176, rfl⟩
abbrev main_v45 : Ref sig .tc := ⟨.hbm, 177, rfl⟩
abbrev main_c_15 : Ref sig .tc := ⟨.hbm, 178, rfl⟩
abbrev main_v46 : Ref sig .tc := ⟨.hbm, 179, rfl⟩
abbrev main_c_16 : Ref sig .tc := ⟨.hbm, 180, rfl⟩
abbrev main_v47 : Ref sig .tc := ⟨.hbm, 181, rfl⟩
abbrev main_v48 : Ref sig .tc := ⟨.hbm, 182, rfl⟩
abbrev main_c_17 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_v54 : Ref sig .tc := ⟨.hbm, 189, rfl⟩
abbrev main_c_18 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩
abbrev main_cst : Ref sig .tc := ⟨.hbm, 198, rfl⟩
abbrev main_v62 : Ref sig .tc := ⟨.hbm, 199, rfl⟩
abbrev main_v63 : Ref sig .tc := ⟨.hbm, 200, rfl⟩
abbrev main_c_19 : Ref sig .tc := ⟨.hbm, 201, rfl⟩
abbrev main_v64 : Ref sig .tc := ⟨.hbm, 202, rfl⟩
abbrev main_v65 : Ref sig .tc := ⟨.hbm, 203, rfl⟩
abbrev main_c_20 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_c_21 : Ref sig .tc := ⟨.hbm, 208, rfl⟩
abbrev main_v69 : Ref sig .tc := ⟨.hbm, 209, rfl⟩
abbrev main_v70 : Ref sig .tc := ⟨.hbm, 210, rfl⟩
abbrev main_c_22 : Ref sig .tc := ⟨.hbm, 211, rfl⟩
abbrev main_v71 : Ref sig .tc := ⟨.hbm, 212, rfl⟩
abbrev main_v72 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩

abbrev nD : Nat := 1
abbrev τ : Topo := Topo.v7x

variable {F : FTy → Type} [FloatOps F]

class Facts₀ : Prop where
  bcast_S_S500000x3 : S_.BroadcastsInDim S500000x3 (![] : Fin 0 → Fin S500000x3.rank)
  slices_S500000x3_S500000x1_0_0 : S500000x3.Slices ![0, 0] S500000x1
  shapeCasts_S500000x1_S500000 : S500000x1.ShapeCasts S500000
  bcast_S_S500000 : S_.BroadcastsInDim S500000 (![] : Fin 0 → Fin S500000.rank)
  slices_S500000x3_S500000x1_0_1 : S500000x3.Slices ![0, 1] S500000x1
  slices_S500000x3_S500000x1_0_2 : S500000x3.Slices ![0, 2] S500000x1
  transposes_S500000x3_S3x500000_1_0 : S500000x3.Transposes [1, 0] S3x500000
  slices_S3x500000_S1x500000_0_0 : S3x500000.Slices ![0, 0] S1x500000
  shapeCasts_S1x500000_S500000 : S1x500000.ShapeCasts S500000
  slices_S3x500000_S1x500000_1_0 : S3x500000.Slices ![1, 0] S1x500000
  slices_S3x500000_S1x500000_2_0 : S3x500000.Slices ![2, 0] S1x500000
  bcast_S500000_S500000x1_0 : S500000.BroadcastsInDim S500000x1 (![0] : Fin 1 → Fin S500000x1.rank)
  slices_S500000x3_S499999x3_1_0 : S500000x3.Slices ![1, 0] S499999x3
  slices_S500000x3_S499999x3_0_0 : S500000x3.Slices ![0, 0] S499999x3
  reducesTo_S499999x3_S499999_d1 : S499999x3.ReducesTo [1] S499999
  h_S_ : 0 < S_.numel
  bcast_S_S1 : S_.BroadcastsInDim S1 (![] : Fin 0 → Fin S1.rank)
  natLt_1_32 : 1 < 32
  bcast_S_S_ : S_.BroadcastsInDim S_ (![] : Fin 0 → Fin S_.rank)
  reduceWindows_S500000_S500000_w500000s1p499999_0 : S500000.ReduceWindows (![500000] : Fin 1 → Nat) ![1] ![499999] ![0] S500000
  reducesTo_S500000_S_d0 : S500000.ReducesTo [0] S_
  bcast_S500000x1_S500000x3_0_1 : S500000x1.BroadcastsInDim S500000x3 (![0, 1] : Fin 2 → Fin S500000x3.rank)
  bcast_S_S500000x1 : S_.BroadcastsInDim S500000x1 (![] : Fin 0 → Fin S500000x1.rank)
  bcast_S16_S1x16_1 : S16.BroadcastsInDim S1x16 (![1] : Fin 1 → Fin S1x16.rank)
  bcast_S500000x1_S500000x16_0_1 : S500000x1.BroadcastsInDim S500000x16 (![0, 1] : Fin 2 → Fin S500000x16.rank)
  bcast_S1x16_S500000x16_0_1 : S1x16.BroadcastsInDim S500000x16 (![0, 1] : Fin 2 → Fin S500000x16.rank)
  bcast_S_S500000x128 : S_.BroadcastsInDim S500000x128 (![] : Fin 0 → Fin S500000x128.rank)
  bcast_S_S500000x16 : S_.BroadcastsInDim S500000x16 (![] : Fin 0 → Fin S500000x16.rank)
  bcast_S500000x16_S500000x16x1_0_1 : S500000x16.BroadcastsInDim S500000x16x1 (![0, 1] : Fin 2 → Fin S500000x16x1.rank)
  concatenates_S500000x16x1_S500000x16x1_S500000x16x2_d2 : Shape.Concatenates [S500000x16x1, S500000x16x1] S500000x16x2 2
  gather_S500000x3_S500000x1_S500000x3_1_0_n_n_0_1_13_wf : GatherDims.WF S500000x3 S500000x1 S500000x3 [1] [0] [] [0] [] 1 ![1, 3]
  scatter_S500000_S1_S499999_0_n_0_0_wf : ScatterDims.WF S500000 S1 S499999 [0] [] [0] 0
  scatter_S500000_S500000x1_S500000_n_0_0_1_wf : ScatterDims.WF S500000 S500000x1 S500000 [] [0] [0] 1
  scatter_S500000x128_S500000x16x2_S500000x16_n_01_01_2_wf : ScatterDims.WF S500000x128 S500000x16x2 S500000x16 [] [0, 1] [0, 1] 2

variable [Facts₀]

def comparator_i32_i32_i32_i32_d0 : BitVec 32 × BitVec 32 × BitVec 32 × BitVec 32 → BitVec 32 × BitVec 32 × BitVec 32 × BitVec 32 → BitVec 1 :=
  fun l r =>
    let v8 := IntOp.cmpi .slt l.2.2.1 r.2.2.1
    let v9 := IntOp.cmpi .slt l.2.1 r.2.1
    let v10 := IntOp.cmpi .eq l.2.1 r.2.1
    let v11 := IntOp.andi v10 v8
    let v12 := IntOp.ori v9 v11
    let v13 := IntOp.cmpi .slt l.1 r.1
    let v14 := IntOp.cmpi .eq l.1 r.1
    let v15 := IntOp.andi v14 v12
    let v16 := IntOp.ori v13 v15
    v16
def gather_S500000x3_S500000x1_S500000x3_1_0_n_n_0_1_13 : GatherDims S500000x3 S500000x1 S500000x3 where
  offsetDims := [1]
  collapsedSliceDims := [0]
  operandBatchingDims := []
  startIndicesBatchingDims := []
  startIndexMap := [0]
  indexVectorDim := 1
  sliceSizes := ![1, 3]
  wf := gather_S500000x3_S500000x1_S500000x3_1_0_n_n_0_1_13_wf
def scatter_S500000_S1_S499999_0_n_0_0 : ScatterDims S500000 S1 S499999 where
  updateWindowDims := [0]
  insertedWindowDims := []
  scatterDimsToOperandDims := [0]
  indexVectorDim := 0
  wf := scatter_S500000_S1_S499999_0_n_0_0_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def scatter_S500000x128_S500000x16x2_S500000x16_n_01_01_2 : ScatterDims S500000x128 S500000x16x2 S500000x16 where
  updateWindowDims := []
  insertedWindowDims := [0, 1]
  scatterDimsToOperandDims := [0, 1]
  indexVectorDim := 2
  wf := scatter_S500000x128_S500000x16x2_S500000x16_n_01_01_2_wf

class Facts : Prop extends Facts₀ where

variable [Facts]
-- ==== Proof.KTail.lean ====
/-
  The part of the kernel's program that the reference does not share, as pure functions of the three values the
  shared opening of both programs computes: the feature rows, the group number of every point (`inv`: the row of
  the output the point's coarse voxel owns) and its slot (`o`: which of the eight fine positions inside the voxel).

  `packed`: among the points with one group and one slot the one with the largest index is kept (a scatter of the
  point numbers under `max`, read back through a gather, compared with the point's own number); a point that is
  kept carries its slot, every other point the slot -1; the slot, as a float, is put beside the sixteen features.
  `pad`: what the grid of kernel launches writes, as ONE function of the whole packed array: row `i`, lane `l`
  holds feature `l mod 16` of the row when `l / 16` is the row's slot, and zero otherwise.
  `out`: the rows added up by group.
-/
import proofs.«420124_j8804682957047_3_alg».proof.Proof.Gen.KernelIdeal
import Idealize.ShloMosaic.Lib.ValueIdx

noncomputable section

namespace Cert.KernelIdeal.Tail

open Idealize.ShloMosaic Idealize.ShloMosaic.ValueIdx Cert.KernelIdeal Cert.KernelIdeal.Facts₀

variable {F : FTy → Type} [FloatOps F]

/-- An index that may be negative, counted from the end when it is (what `x[i]` does to `i`): `i + N` when
    `i < 0`, else `i`; here for the 500000 rows. -/
def wrapRows (inv : IVec S500000 32) : IVec S500000 32 :=
  select (cmpi .slt inv (broadcastInDim S500000 ![] bcast_S_S500000 (constantI S_ 32 0#32)))
    (addi inv (broadcastInDim S500000 ![] bcast_S_S500000 (constantI S_ 32 500000#32))) inv

/-- The flat key `inv * 8 + o` of a point: its group and slot as one number. -/
def key (inv o : IVec S500000 32) : IVec S500000 32 :=
  addi (muli inv (broadcastInDim S500000 ![] bcast_S_S500000 (constantI S_ 32 8#32))) o

/-- The key, counted from the end of the 4000000 cells when negative. -/
def wrapKey (k : IVec S500000 32) : IVec S500000 32 :=
  select (cmpi .slt k (broadcastInDim S500000 ![] bcast_S_S500000 (constantI S_ 32 0#32)))
    (addi k (broadcastInDim S500000 ![] bcast_S_S500000 (constantI S_ 32 4000000#32))) k

/-- Per cell, the largest point number with that key (-1 where there is none). -/
def winnerTable (inv o : IVec S500000 32) : IVec S4000000 32 :=
  Host.scatter scatter_S4000000_S500000x1_S500000_n_0_0_1 IntOp.maxsi
    (broadcastInDim S4000000 ![] bcast_S_S4000000 (constantI S_ 32 4294967295#32))
    (broadcastInDim S500000x1 ![0] bcast_S500000_S500000x1_0 (wrapKey (key inv o)))
    (iotaInDim S500000 32 0)

/-- Per point, the winner of its own cell. -/
def winnerOf (inv o : IVec S500000 32) : IVec S500000 32 :=
  Host.gather gather_S4000000_S500000x1_S500000_n_0_n_n_0_1_1 (winnerTable inv o)
    (broadcastInDim S500000x1 ![0] bcast_S500000_S500000x1_0 (wrapKey (key inv o)))

/-- The slot a point carries into the kernel: its own when it is its cell's winner, else -1. -/
def slotOrNeg (inv o : IVec S500000 32) : IVec S500000 32 :=
  select (cmpi .eq (winnerOf inv o) (iotaInDim S500000 32 0)) o
    (broadcastInDim S500000 ![] bcast_S_S500000 (id (constantI S_ 32 4294967295#32)))

/-- The kernel's operand: the sixteen features of every point and, as a seventeenth column, its slot as a float. -/
def packed (feats : FVec F S500000x16 .f32) (inv o : IVec S500000 32) : FVec F S500000x17 .f32 :=
  concatenate S500000x17 1
    [⟨S500000x16, feats⟩,
     ⟨S500000x1, broadcastInDim S500000x1 ![0] bcast_S500000_S500000x1_0 (sitofp .f32 (slotOrNeg inv o) : FVec F S500000 .f32)⟩]
    concatenates_S500000x16_S500000x1_S500000x17_d1

/-- What the hundred launches of the kernel leave in its result array, as one function of the whole operand: at
    row `i`, lane `l`, the row's feature `l mod 16` when `l / 16` equals the row's slot (its seventeenth column
    converted back to an integer), and zero otherwise. -/
def pad (x : FVec F S500000x17 .f32) : FVec F S500000x128 .f32 := fun j =>
  Scalar.select
    (IntOp.cmpi .eq (BitVec.ofNat 32 ((j 1).val / 16)) (FloatOps.fptosi 32 (x (ix2 ⟨(j 0).val, idx2_lt0 j⟩ (⟨16, by decide⟩ : Fin 17)))))
    (x (ix2 ⟨(j 0).val, idx2_lt0 j⟩ (⟨(j 1).val % 16, by omega⟩ : Fin 17)))
    (FloatOps.ofBits .f32 0x00000000#32)

/-- The result: zeros, and every row of `padded` added to the row its point's group names. -/
def out (inv : IVec S500000 32) (padded : FVec F S500000x128 .f32) : FVec F S500000x128 .f32 :=
  Host.scatterAdd scatter_S500000x128_S500000x1_S500000x128_1_0_0_1
    (broadcastInDim S500000x128 ![] bcast_S_S500000x128 (constant S_ .f32 0x00000000#32))
    (broadcastInDim S500000x1 ![0] bcast_S500000_S500000x1_0 (wrapRows inv))
    padded

end Cert.KernelIdeal.Tail

end
-- ==== Proof.KPad.lean ====
/-
  What the hundred launches of the kernel leave in its result array. Launch `t` stages rows 5000 t … 5000 t + 4999
  of the packed operand (all 17 columns) and of the result (all 128 lanes); its body reads the block, and writes
  at row `y`, lane `q`: the block's column `q mod 16` when `q / 16` (as the body computes it: a signed division
  with the floor correction, which never fires on a lane number 0 … 127) equals the block's column 16 converted
  to an integer, and zero otherwise. That is the restriction to the block of the one whole-array function
  `Tail.pad`; the blocks cover the array, so the array ends at `Tail.pad` of the operand.

  In order: where the two windows' blocks sit at a launch; the lane's group as one word fact over the 128 lanes;
  the body's result at one row and lane (the lane number, the slot column spread over the lanes, the eight copies
  of the feature columns, each read at an index); the operand block as rows of the operand array; what a launch
  writes back as a block of `pad`; row `r` is written by launch `r / 5000`; the array.
-/
import proofs.«420124_j8804682957047_3_alg».proof.Proof.Gen.KernelIdeal.Frame
import proofs.«420124_j8804682957047_3_alg».proof.Proof.KTail
import Idealize.ShloMosaic.Lib.Pipeline.Value
import Idealize.ShloMosaic.Lib.ValueLayout

noncomputable section

namespace Cert.KernelIdeal.Tail

open Cert.KernelIdeal Cert.KernelIdeal.Gen Idealize.ShloMosaic Idealize.ShloMosaic.TcCoe Idealize.SL.Sem
open Idealize.ShloMosaic.ValueIdx

variable {F : FTy → Type} [FloatOps F]

/-! ## Where the blocks sit -/

/-- The body loads and stores its whole buffers: the offsets of both rectangles are zero. -/
private theorem zeroOffsets : (![0, 0] : Fin 2 → Nat) = fun _ => 0 := funext fun a => by fin_cases a <;> rfl

/-- At launch `t` both windows sit at row block `t`, column block 0. -/
private theorem blockIndex : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-! ## The lane's group -/

/-- The group of a lane as the body computes it from the lane number `x`: the quotient by 16 rounded toward zero,
    less one when the signs of `x` and 16 differ and the remainder is not zero. -/
private def laneGroup (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- On a lane number 0 … 127 the correction never fires and the division meets no corner: the group is `q / 16`. -/
private theorem laneGroup_lane : ∀ q : Fin 128, laneGroup (BitVec.ofNat 32 q.val) = BitVec.ofNat 32 (q.val / 16) := by
  decide

/-! ## The body's result at a row and a lane -/

/-- A column [a,1] spread along the lanes reads, at (p, c), the column's entry in row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane number at (p, q) is q. -/
private theorem lane_apply (p : Fin 5000) (q : Fin 128) :
    iota .tc S5000x128 32 [1] iota_S5000x128_d1_w32 (ix2 p q) = BitVec.ofNat 32 q.val :=
  iota_single_apply .tc S5000x128 32 1 iota_S5000x128_d1_w32 (ix2 p q)

/-- The slot column, converted to integers and spread over the lanes, reads at (p, q) the block's column 16 in
    row p, converted. -/
private theorem slot_apply (x0 : FVec F S5000x17 .f32) (p : Fin 5000) (q : Fin 128) :
    broadcastTo S5000x128
        (shapeCast S5000x1
          (fptosi 32 (extractStridedSlice S5000x1 ![0, 16] (shapeCast S5000x17 x0 shapeCasts_S5000x17_S5000x17)
            slices_S5000x17_o0_16_S5000x1))
          shapeCasts_S5000x1_S5000x1)
        broadcasts_S5000x1_S5000x128 (ix2 p q)
      = FloatOps.fptosi 32 (x0 (ix2 p (⟨16, by decide⟩ : Fin 17))) := by
  rw [broadcastTo_a1_ab_apply, shapeCast_self, shapeCast_self]
  exact congrArg (FloatOps.fptosi 32)
    (slice2_axis1_apply 16 x0 slices_S5000x17_o0_16_S5000x1 p (0 : Fin 1) ⟨16, by decide⟩ rfl)

/-- Eight copies of the sixteen feature columns side by side read, at (p, q), feature q mod 16 of row p. -/
private theorem copies_apply (x0 : FVec F S5000x17 .f32) (p : Fin 5000) (q : Fin 128) :
    concatenate S5000x128 1
        [⟨S5000x16, extractStridedSlice S5000x16 ![0, 0] (shapeCast S5000x17 x0 shapeCasts_S5000x17_S5000x17) slices_S5000x17_o0_0_S5000x16⟩,
         ⟨S5000x16, extractStridedSlice S5000x16 ![0, 0] (shapeCast S5000x17 x0 shapeCasts_S5000x17_S5000x17) slices_S5000x17_o0_0_S5000x16⟩,
         ⟨S5000x16, extractStridedSlice S5000x16 ![0, 0] (shapeCast S5000x17 x0 shapeCasts_S5000x17_S5000x17) slices_S5000x17_o0_0_S5000x16⟩,
         ⟨S5000x16, extractStridedSlice S5000x16 ![0, 0] (shapeCast S5000x17 x0 shapeCasts_S5000x17_S5000x17) slices_S5000x17_o0_0_S5000x16⟩,
         ⟨S5000x16, extractStridedSlice S5000x16 ![0, 0] (shapeCast S5000x17 x0 shapeCasts_S5000x17_S5000x17) slices_S5000x17_o0_0_S5000x16⟩,
         ⟨S5000x16, extractStridedSlice S5000x16 ![0, 0] (shapeCast S5000x17 x0 shapeCasts_S5000x17_S5000x17) slices_S5000x17_o0_0_S5000x16⟩,
         ⟨S5000x16, extractStridedSlice S5000x16 ![0, 0] (shapeCast S5000x17 x0 shapeCasts_S5000x17_S5000x17) slices_S5000x17_o0_0_S5000x16⟩,
         ⟨S5000x16, extractStridedSlice S5000x16 ![0, 0] (shapeCast S5000x17 x0 shapeCasts_S5000x17_S5000x17) slices_S5000x17_o0_0_S5000x16⟩]
        concatenates_S5000x16_S5000x16_S5000x16_S5000x16_S5000x16_S5000x16_S5000x16_S5000x16_S5000x128_d1 (ix2 p q)
      = x0 (ix2 p (⟨q.val % 16, by omega⟩ : Fin 17)) := by
  have hq : q.val % 16 < 16 := Nat.mod_lt _ (by decide)
  refine (concatenate_replicate_apply (t := S5000x128) (s₁ := S5000x16) (1 : Fin 2) 8
    (extractStridedSlice S5000x16 ![0, 0] (shapeCast S5000x17 x0 shapeCasts_S5000x17_S5000x17) slices_S5000x17_o0_0_S5000x16)
    concatenates_S5000x16_S5000x16_S5000x16_S5000x16_S5000x16_S5000x16_S5000x16_S5000x16_S5000x128_d1 rfl (ix2 p q)
    (ix2 p (⟨q.val % 16, hq⟩ : Fin 16)) rfl (fun b hb => ?_)).trans ?_
  · match b with
    | ⟨0, _⟩ => rfl
    | ⟨1, _⟩ => exact absurd rfl hb
  · rw [shapeCast_self]
    exact slice2_axis1_apply 0 x0 slices_S5000x17_o0_0_S5000x16 p ⟨q.val % 16, hq⟩ ⟨q.val % 16, by omega⟩ (Nat.zero_add _).symm

/-- THE BODY'S RESULT AT ROW p, LANE q of a block: feature q mod 16 of the row when q / 16 is the row's slot,
    and zero otherwise. -/
private theorem payload_apply (x0 : FVec F S5000x17 .f32) (p : Fin 5000) (q : Fin 128) :
    k0_pay1 x0 (ix2 p q)
      = Scalar.select
          (IntOp.cmpi .eq (BitVec.ofNat 32 (q.val / 16)) (FloatOps.fptosi 32 (x0 (ix2 p (⟨16, by decide⟩ : Fin 17)))))
          (x0 (ix2 p (⟨q.val % 16, by omega⟩ : Fin 17)))
          (FloatOps.ofBits .f32 0x00000000#32) := by
  unfold k0_pay1
  show Scalar.select (IntOp.cmpi .eq (laneGroup (iota .tc S5000x128 32 [1] iota_S5000x128_d1_w32 (ix2 p q))) _) _
    (FloatOps.ofBits .f32 0x00000000#32) = _
  rw [lane_apply, laneGroup_lane q, slot_apply, copies_apply]

/-- So on a block `x0` whose rows are rows of an array `X` (row `y 0` of the block is row `i 0` of `X`), the body's
    result at `y` is `pad X` at `i`, the lanes being the same. -/
private theorem payload_pad (x0 : FVec F S5000x17 .f32) (X : FVec F S500000x17 .f32) (y : S5000x128.Idx) (i : S500000x128.Idx)
    (hlane : (i 1).val = (y 1).val)
    (hx : ∀ k : Fin 17, x0 (ix2 (⟨(y 0).val, idx2_lt0 y⟩ : Fin 5000) k) = X (ix2 (⟨(i 0).val, idx2_lt0 i⟩ : Fin 500000) k)) :
    k0_pay1 x0 y = pad X i := by
  obtain ⟨p, q, rfl⟩ : ∃ (p : Fin 5000) (q : Fin 128), y = ix2 p q := ⟨y 0, y 1, eq_ix2 y⟩
  have hl : (i 1).val = q.val := hlane
  have hx' : ∀ k : Fin 17, x0 (ix2 p k) = X (ix2 (⟨(i 0).val, idx2_lt0 i⟩ : Fin 500000) k) := hx
  have e1 : q.val / 16 = (i 1).val / 16 := by rw [hl]
  have e2 : (⟨q.val % 16, by omega⟩ : Fin 17) = ⟨(i 1).val % 16, by omega⟩ :=
    Fin.ext (show q.val % 16 = (i 1).val % 16 by rw [hl])
  rw [payload_apply, hx', hx', e1, e2]
  rfl

/-! ## From the blocks to the array -/

/-- Launch `t`'s operand block is rows 5000 t … 5000 t + 4999 of the operand array, all 17 columns. -/
private theorem operandBlock_apply (m : (ℓ : Loc nD τ sig) → Buf (Elt F) ℓ) (c : Dev nD) (t : Fin cfg0.N)
    (p : Fin 5000) (k : Fin 17) (r : Fin 500000) (hr : r.val = t.val * 5000 + p.val) :
    (iblk m c 0 t : FVec F S5000x17 .f32) (ix2 p k) = (V m c main_v78 : FVec F S500000x17 .f32) (ix2 r k) := by
  obtain ⟨e0, e1, -, -⟩ := blockIndex t
  unfold iblk
  rw [View.read_apply]
  refine congrArg (V m c main_v78) (funext fun a => Fin.ext ?_)
  match a with
  | ⟨0, _⟩ => show win0_0.index t (0 : Fin 2) * 5000 + 1 * p.val = r.val; omega
  | ⟨1, _⟩ => show win0_0.index t (1 : Fin 2) * 17 + 1 * k.val = k.val; omega

/-- WHAT LAUNCH `t` WRITES BACK is block `t` of `pad` of the operand array: the result block's row `y` is row
    5000 t + y of the array, and so is the operand block's. -/
private theorem writeBack_eq_pad (m : (ℓ : Loc nD τ sig) → Buf (Elt F) ℓ) (c : Dev nD) (t : Fin cfg0.N) :
    (dats m 0 c).flushed 1 t = ((cfg0.win 1).blk t).view.read (Elt F) (pad (V m c main_v78)) := by
  show (cfg0.win 1).cut (grid0.coords t) ((dats m 0 c).after 1 t) = _
  rw [after0_1]
  unfold out0_1
  rw [View.canon_unit_zero zeroOffsets]
  simp only [View.ld_unit_zero (S := S5000x17) zeroOffsets]
  obtain ⟨-, -, e0, e1⟩ := blockIndex t
  funext j
  show k0_pay1 (iblk m c 0 t) j = pad (V m c main_v78) (((cfg0.win 1).blk t).view.emb j)
  have h0 : ((((cfg0.win 1).blk t).view.emb j : S500000x128.Idx) 0).val = t.val * 5000 + ((j : S5000x128.Idx) 0).val := by
    show win0_1.index t (0 : Fin 2) * 5000 + 1 * ((j : S5000x128.Idx) 0).val = _; omega
  have h1 : ((((cfg0.win 1).blk t).view.emb j : S500000x128.Idx) 1).val = ((j : S5000x128.Idx) 1).val := by
    show win0_1.index t (1 : Fin 2) * 128 + 1 * ((j : S5000x128.Idx) 1).val = _; omega
  refine payload_pad (iblk m c 0 t) (V m c main_v78) j (((cfg0.win 1).blk t).view.emb j) h1 (fun k => ?_)
  exact operandBlock_apply m c t _ k _ h0

/-- An index of the result array is in launch `t`'s block iff each coordinate is in the block's range on its axis. -/
private theorem mem_rowBlock_iff (t : Fin cfg0.N) (i : S500000x128.Idx) :
    i ∈ ((cfg0.win 1).blk t).view.set ↔ ∀ a : Fin 2, win0_1.index t a * S5000x128.size a ≤ (i a).val
      ∧ (i a).val < win0_1.index t a * S5000x128.size a + S5000x128.size a := by
  show i ∈ ((View.whole main_v79).slice (win0_1.rect t)).set ↔ _
  rw [View.set_slice_whole, Rect.mem_set_unit]
  exact Iff.rfl

/-- Row `r` of the result array is written by launch `r / 5000` (every launch writes back). -/
private theorem rows_covered (i : S500000x128.Idx) :
    ∃ t : Fin cfg0.N, (cfg0.win 1).flush t = true ∧ i ∈ ((cfg0.win 1).blk t).view.set := by
  have hi0 : (i 0).val < 500000 := idx2_lt0 i
  have hi1 : (i 1).val < 128 := idx2_lt1 i
  have hN : cfg0.N = 100 := N_0
  obtain ⟨t, ht⟩ : ∃ t : Fin cfg0.N, t.val = (i 0).val / 5000 := ⟨⟨(i 0).val / 5000, by rw [hN]; omega⟩, rfl⟩
  obtain ⟨-, -, e0, e1⟩ := blockIndex t
  refine ⟨t, flush0_1 t, ?_⟩
  rw [mem_rowBlock_iff]
  intro a
  match a with
  | ⟨0, _⟩ =>
    show win0_1.index t (0 : Fin 2) * 5000 ≤ (i 0).val ∧ (i 0).val < win0_1.index t (0 : Fin 2) * 5000 + 5000
    omega
  | ⟨1, _⟩ =>
    show win0_1.index t (1 : Fin 2) * 128 ≤ (i 1).val ∧ (i 1).val < win0_1.index t (1 : Fin 2) * 128 + 128
    omega

/-- The result window's array after the run is `pad` of the operand array as the region finds it. -/
theorem final (m : (ℓ : Loc nD τ sig) → Buf (Elt F) ℓ) (c : Dev nD) :
    (Gen.dats m 0 c).arrAt 1 cfg0.N = pad (Gen.V m c main_v78) := by
  exact (dats m 0 c).arrAt_eq_of_cover 1 (pad (V m c main_v78)) (fun t _ => writeBack_eq_pad m c t) rows_covered

end Cert.KernelIdeal.Tail

end
-- ==== Proof.KVal.lean ====
/-
  The kernel program's two results, read off its generated frame run. The grid of kernel launches leaves in the
  result array, block by block, the one whole-array function `Tail.pad` of the packed operand; the host lines
  before the region build that operand (`Tail.packed`) from the features, the groups (`main_v53`) and the slots
  (`main_v13`) as the region finds them; the host lines after it add the rows up by group (`Tail.out`). The first
  result, `main_v42`, is written before the region and not touched after.
-/
import proofs.«420124_j8804682957047_3_alg».proof.Proof.Gen.KernelIdeal.Frame
import proofs.«420124_j8804682957047_3_alg».proof.Proof.KTail
import proofs.«420124_j8804682957047_3_alg».proof.Proof.KPad
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.SL.Sem

variable {F : FTy → Type} [FloatOps F]

/-- Running two lines one after the other is running their concatenation. -/
private theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The host lines after the region, from any contents: `main_v87` ends at `out` of what `main_v53` and `main_v79` held. -/
private theorem tail_v87 (W : Valuation τ sig (Elt F)) :
    StableHlo.after hostOps1 W (Proc.devRef .tc main_v87)
      = out (W (Proc.devRef .tc main_v53)) (W (Proc.devRef .tc main_v79)) := by
  after_results_simp
  rfl

/-- The host lines before the region, but for the last three stretches. -/
private def preOps : List (HloOp τ sig (Elt F)) :=
  List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]

/-- All the host lines before the region are those and then the last three stretches. -/
private theorem flatten_split :
    (List.flatten [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17,
      hostOps0_18, hostOps0_19, hostOps0_20] : List (HloOp τ sig (Elt F)))
      = preOps ++ (hostOps0_18 ++ (hostOps0_19 ++ hostOps0_20)) := by
  simp only [preOps, List.flatten_cons, List.flatten_nil, List.append_nil, List.append_assoc]

/-- The operand array from its two parts: the features, and the column of slots as floats. -/
private theorem packed_congr {a a' : FVec F S500000x16 .f32} {b : FVec F S500000x1 .f32} {inv o : IVec S500000 32}
    (ha : a = a')
    (hb : b = broadcastInDim S500000x1 ![0] bcast_S500000_S500000x1_0 (sitofp .f32 (slotOrNeg inv o) : FVec F S500000 .f32)) :
    concatenate S500000x17 1 [⟨S500000x16, a⟩, ⟨S500000x1, b⟩] concatenates_S500000x16_S500000x1_S500000x17_d1
      = packed a' inv o := by
  subst ha hb; rfl

/-- The three lines of the inlined selection, written over the buffers themselves. -/
private theorem ops19_eq : (hostOps0_19 : List (HloOp τ sig (Elt F))) =
    [ StableHlo.unary main_c_24 main_call10_v0 (id : (⟨S_, .i32⟩ : BufTy).Contents (Elt F) → (⟨S_, .i32⟩ : BufTy).Contents (Elt F)),
      StableHlo.unary main_call10_v0 main_call10_v1 (broadcastInDim S500000 ![] bcast_S_S500000 : (⟨S_, .i32⟩ : BufTy).Contents (Elt F) → (⟨S500000, .i32⟩ : BufTy).Contents (Elt F)),
      StableHlo.ternary main_v74 main_v13 main_call10_v1 main_v75 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ] :=
  rfl

set_option maxHeartbeats 1000000 in
/-- The last three stretches before the region, from any contents `A`: the operand array `main_v78` ends at `packed` of the
    features, of the groups as these lines leave them, and of the slots. -/
private theorem last_v78 (A : Valuation τ sig (Elt F)) :
    StableHlo.after (hostOps0_18 ++ (hostOps0_19 ++ hostOps0_20)) A (Proc.devRef .tc main_v78)
      = packed (StableHlo.after (hostOps0_18 ++ (hostOps0_19 ++ hostOps0_20)) A (Proc.devRef .tc main_arg0))
          (StableHlo.after (hostOps0_18 ++ (hostOps0_19 ++ hostOps0_20)) A (Proc.devRef .tc main_v53))
          (StableHlo.after (hostOps0_18 ++ (hostOps0_19 ++ hostOps0_20)) A (Proc.devRef .tc main_v13)) := by
  rw [ops19_eq]
  simp only [hostOps0_18, hostOps0_20, List.cons_append, List.nil_append, StableHlo.after_cons, StableHlo.after_nil]
  rw [StableHlo.binary_result]
  refine packed_congr ?_ ?_
  · after_results_simp
  · after_results_simp
    unfold slotOrNeg winnerOf winnerTable wrapKey key
    with_reducible rfl

/-- The operand array as the region finds it is `packed` of the features, the groups and the slots as the region finds them. -/
theorem V_main_v78 (m : (ℓ : Loc nD τ sig) → Buf (Elt F) ℓ) (c : Dev nD) :
    Gen.V m c main_v78
      = packed (m ((c.tc : Thread nD τ).loc main_arg0)) (Gen.V m c main_v53) (Gen.V m c main_v13) := by
  rw [← Gen.V_main_arg0 m c]
  dsimp only [Gen.V, Gen.V0]
  rw [flatten_split, after_append]
  exact last_v78 _

/-- No host line after the region writes `main_v42`, and it is no array of the pipeline: it ends as the region found it. -/
theorem W_main_v42 (m : (ℓ : Loc nD τ sig) → Buf (Elt F) ℓ) (c : Dev nD) :
    Pipeline.afterTail₀ cfgs (Gen.dats m) 0 (Gen.V0 m) [hostOps1] c main_v42 = Gen.V m c main_v42 := by
  unfold Pipeline.afterTail₀
  rw [StableHlo.after_of_forall_not_mem (b := Proc.devRef .tc main_v42) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (Gen.V0 m c) _ main_v42 (by exact (by decide : ∀ w, Pipeline.arrRef spec0 w ≠ main_v42))]

/-- The second result: the host lines after the region read the groups, which the region does not touch, and the result
    array, which the region leaves at `pad` of the operand array. -/
theorem W_main_v87 (m : (ℓ : Loc nD τ sig) → Buf (Elt F) ℓ) (c : Dev nD) :
    Pipeline.afterTail₀ cfgs (Gen.dats m) 0 (Gen.V0 m) [hostOps1] c main_v87
      = out (Gen.V m c main_v53) (pad (Gen.V m c main_v78)) := by
  unfold Pipeline.afterTail₀
  simp only [List.flatten_cons, List.flatten_nil, List.append_nil]
  rw [tail_v87, Pipeline.withArrays_of_ne _ c (Gen.V0 m c) _ main_v53 (by exact (by decide : ∀ w, Pipeline.arrRef spec0 w ≠ main_v53))]
  exact congrArg (out _) ((Pipeline.withArrays_arr spec0 launch0.win.arr_inj c _ _ 1).trans (final m c))

/-- Every weakly fair execution of the kernel program's @main terminates; its first result is what the host lines
    before the region leave in `main_v42`, its second `out` of the groups and of `pad` of the packed operand; the
    arguments end unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v42) = Gen.V m c main_v42
      ∧ r.2.mem ((c.tc : Thread nD τ).loc main_v87)
          = out (Gen.V m c main_v53)
              (pad (packed (m ((c.tc : Thread nD τ).loc main_arg0)) (Gen.V m c main_v53) (Gen.V m c main_v13)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v42 (Pipeline.mem_restRefs_of main_v42 (by decide) (by decide))).trans (W_main_v42 m c),
     (((h c).2 main_v87 (Pipeline.mem_restRefs_of main_v87 (by decide) (by decide))).trans (W_main_v87 m c)).trans
       (congrArg (fun x => out (Gen.V m c main_v53) (pad x)) (V_main_v78 m c)),
     ((h c).2 main_arg0 (Pipeline.mem_restRefs_of main_arg0 (by decide) (by decide))).trans (Gen.W_main_arg0 m (Gen.dats m) c),
     ((h c).2 main_arg1 (Pipeline.mem_restRefs_of main_arg1 (by decide) (by decide))).trans (Gen.W_main_arg1 m (Gen.dats m) c)⟩)
    (Gen.run_main m ρ)

end Cert.KernelIdeal.Tail

end
-- ==== Proof.ROps.lean ====
/- The reference program's @main as lists of host operations, in order: the first window's nineteen stretches (a
   function jax outlined is a stretch of its own, its operations listed at the call over the call's buffers), then the
   second window in two: through the scatter that gives every point its group (`main_v53`), and from there to the end. -/
import proofs.«420124_j8804682957047_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- 1 host operation of @main, window 0 (statements 1 … 60), in order. -/
abbrev main_part0_ops0 : List (HloOp τ sig (Elt F)) :=
  [ StableHlo.nullary main_c (constantI S_ 32 2#32) ]
theorem main_part0_ops0_sub : (main_part0_ops0 : List (HloOp τ sig (Elt F))).Forall fun op => op.bufs ⊆ StableHlo.tcRefs τ sig :=
  StableHlo.nullary_bufs_sub ..
/-- 17 host operations of @floor_divide (main_call0), window 0 (statements 1 … 60), in order. -/
abbrev main_part0_ops1 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S500000x3, .i32⟩) (broadcastInDim S500000x3 ![] bcast_S_S500000x3),
    StableHlo.TRef.binary (.of main_arg1 : StableHlo.TRef sig ⟨S500000x3, .i32⟩) (.of main_call0_v1 : StableHlo.TRef sig ⟨S500000x3, .i32⟩) (.of main_call0_v2 : StableHlo.TRef sig ⟨S500000x3, .i32⟩) Host.divsi,
    StableHlo.TRef.unary (.of main_arg1 : StableHlo.TRef sig ⟨S500000x3, .i32⟩) (.of main_call0_v3 : StableHlo.TRef sig ⟨S500000x3, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S500000x3, .i32⟩) (broadcastInDim S500000x3 ![] bcast_S_S500000x3),
    StableHlo.TRef.binary (.of main_call0_v3 : StableHlo.TRef sig ⟨S500000x3, .i32⟩) (.of main_call0_v5 : StableHlo.TRef sig ⟨S500000x3, .i32⟩) (.of main_call0_v6 : StableHlo.TRef sig ⟨S500000x3, .i1⟩) (cmpi .ne),
    StableHlo.TRef.unary (.of main_call0_v0 : StableHlo.TRef sig ⟨S_, .i32⟩) (.of main_call0_v7 : StableHlo.TRef sig ⟨S500000x3, .i32⟩) (broadcastInDim S500000x3 ![] bcast_S_S500000x3),
    StableHlo.TRef.binary (.of main_arg1 : StableHlo.TRef sig ⟨S500000x3, .i32⟩) (.of main_call0_v7 : StableHlo.TRef sig ⟨S500000x3, .i32⟩) (.of main_call0_v8 : StableHlo.TRef sig ⟨S500000x3, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S500000x3, .i32⟩) (broadcastInDim S500000x3 ![] bcast_S_S500000x3),
    StableHlo.TRef.binary (.of main_call0_v8 : StableHlo.TRef sig ⟨S500000x3, .i32⟩) (.of main_call0_v9 : StableHlo.TRef sig ⟨S500000x3, .i32⟩) (.of main_call0_v10 : StableHlo.TRef sig ⟨S500000x3, .i1⟩) (cmpi .ne),
    StableHlo.TRef.binary (.of main_call0_v6 : StableHlo.TRef sig ⟨S500000x3, .i1⟩) (.of main_call0_v10 : StableHlo.TRef sig ⟨S500000x3, .i1⟩) (.of main_call0_v11 : StableHlo.TRef sig ⟨S500000x3, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S500000x3, .i32⟩) (broadcastInDim S500000x3 ![] bcast_S_S500000x3),
    StableHlo.TRef.binary (.of main_call0_v2 : StableHlo.TRef sig ⟨S500000x3, .i32⟩) (.of main_call0_v12 : StableHlo.TRef sig ⟨S500000x3, .i32⟩) (.of main_call0_v13 : StableHlo.TRef sig ⟨S500000x3, .i32⟩) subi,
    StableHlo.TRef.ternary (.of main_call0_v11 : StableHlo.TRef sig ⟨S500000x3, .i1⟩) (.of main_call0_v13 : StableHlo.TRef sig ⟨S500000x3, .i32⟩) (.of main_call0_v2 : StableHlo.TRef sig ⟨S500000x3, .i32⟩) (.of main_v0 : StableHlo.TRef sig ⟨S500000x3, .i32⟩) select ]
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 host operation of @main, window 0 (statements 1 … 60), in order. -/
abbrev main_part0_ops2 : List (HloOp τ sig (Elt F)) :=
  [ StableHlo.nullary main_c_0 (constantI S_ 32 2#32) ]
theorem main_part0_ops2_sub : (main_part0_ops2 : List (HloOp τ sig (Elt F))).Forall fun op => op.bufs ⊆ StableHlo.tcRefs τ sig :=
  StableHlo.nullary_bufs_sub ..
/-- 21 host operations of @remainder (main_call1), window 0 (statements 1 … 60), in order. -/
abbrev main_part0_ops3 : List (HloOp τ sig (Elt F)) :=
  [ StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S500000x3, .i32⟩) (broadcastInDim S500000x3 ![] bcast_S_S500000x3),
    StableHlo.TRef.binary (.of main_arg1 : StableHlo.TRef sig ⟨S500000x3, .i32⟩) (.of main_call1_v3 : StableHlo.TRef sig ⟨S500000x3, .i32⟩) (.of main_call1_v4 : StableHlo.TRef sig ⟨S500000x3, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S500000x3, .i32⟩) (broadcastInDim S500000x3 ![] bcast_S_S500000x3),
    StableHlo.TRef.binary (.of main_call1_v4 : StableHlo.TRef sig ⟨S500000x3, .i32⟩) (.of main_call1_v5 : StableHlo.TRef sig ⟨S500000x3, .i32⟩) (.of main_call1_v6 : StableHlo.TRef sig ⟨S500000x3, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S500000x3, .i32⟩) (broadcastInDim S500000x3 ![] bcast_S_S500000x3),
    StableHlo.TRef.binary (.of main_call1_v4 : StableHlo.TRef sig ⟨S500000x3, .i32⟩) (.of main_call1_v7 : StableHlo.TRef sig ⟨S500000x3, .i32⟩) (.of main_call1_v8 : StableHlo.TRef sig ⟨S500000x3, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S500000x3, .i1⟩) (broadcastInDim S500000x3 ![] bcast_S_S500000x3),
    StableHlo.TRef.binary (.of main_call1_v8 : StableHlo.TRef sig ⟨S500000x3, .i1⟩) (.of main_call1_v10 : StableHlo.TRef sig ⟨S500000x3, .i1⟩) (.of main_call1_v11 : StableHlo.TRef sig ⟨S500000x3, .i1⟩) (cmpi .ne),
    StableHlo.TRef.binary (.of main_call1_v11 : StableHlo.TRef sig ⟨S500000x3, .i1⟩) (.of main_call1_v6 : StableHlo.TRef sig ⟨S500000x3, .i1⟩) (.of main_call1_v12 : StableHlo.TRef sig ⟨S500000x3, .i1⟩) andi,
    StableHlo.TRef.unary main_call1_call0.v0 (.of main_call1_v13 : StableHlo.TRef sig ⟨S500000x3, .i32⟩) (broadcastInDim S500000x3 ![] bcast_S_S500000x3),
    StableHlo.TRef.binary (.of main_call1_v4 : StableHlo.TRef sig ⟨S500000x3, .i32⟩) (.of main_call1_v13 : StableHlo.TRef sig ⟨S500000x3, .i32⟩) (.of main_call1_v14 : StableHlo.TRef sig ⟨S500000x3, .i32⟩) addi,
    StableHlo.TRef.ternary (.of main_call1_v12 : StableHlo.TRef sig ⟨S500000x3, .i1⟩) (.of main_call1_v14 : StableHlo.TRef sig ⟨S500000x3, .i32⟩) (.of main_call1_v4 : StableHlo.TRef sig ⟨S500000x3, .i32⟩) (.of main_v1 : StableHlo.TRef sig ⟨S500000x3, .i32⟩) select ]
theorem main_part0_ops3_sub : (main_part0_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 14 host operations of @main, window 0 (statements 1 … 60), in order. -/
abbrev main_part0_ops4 : List (HloOp τ sig (Elt F)) :=
  [ StableHlo.unary main_v1 main_v2 ((extractStridedSlice S500000x1 ![0, 0] · slices_S500000x3_S500000x1_0_0) : (⟨S500000x3, .i32⟩ : BufTy).Contents (Elt F) → (⟨S500000x1, .i32⟩ : BufTy).Contents (Elt F)),
    StableHlo.reshape main_v2 main_v3 rfl shapeCasts_S500000x1_S500000,
    StableHlo.nullary main_c_1 (constantI S_ 32 4#32),
    StableHlo.unary main_c_1 main_v4 (broadcastInDim S500000 ![] bcast_S_S500000 : (⟨S_, .i32⟩ : BufTy).Contents (Elt F) → (⟨S500000, .i32⟩ : BufTy).Contents (Elt F)),
    StableHlo.binary main_v3 main_v4 main_v5 (muli : (⟨S500000, .i32⟩ : BufTy).Contents (Elt F) → (⟨S500000, .i32⟩ : BufTy).Contents (Elt F) → (⟨S500000, .i32⟩ : BufTy).Contents (Elt F)),
    StableHlo.unary main_v1 main_v6 ((extractStridedSlice S500000x1 ![0, 1] · slices_S500000x3_S500000x1_0_1) : (⟨S500000x3, .i32⟩ : BufTy).Contents (Elt F) → (⟨S500000x1, .i32⟩ : BufTy).Contents (Elt F)),
    StableHlo.reshape main_v6 main_v7 rfl shapeCasts_S500000x1_S500000,
    StableHlo.nullary main_c_2 (constantI S_ 32 2#32),
    StableHlo.unary main_c_2 main_v8 (broadcastInDim S500000 ![] bcast_S_S500000 : (⟨S_, .i32⟩ : BufTy).Contents (Elt F) → (⟨S500000, .i32⟩ : BufTy).Contents (Elt F)),
    StableHlo.binary main_v7 main_v8 main_v9 (muli : (⟨S500000, .i32⟩ : BufTy).Contents (Elt F) → (⟨S500000, .i32⟩ : BufTy).Contents (Elt F) → (⟨S500000, .i32⟩ : BufTy).Contents (Elt F)),
    StableHlo.binary main_v5 main_v9 main_v10 (addi : (⟨S500000, .i32⟩ : BufTy).Contents (Elt F) → (⟨S500000, .i32⟩ : BufTy).Contents (Elt F) → (⟨S500000, .i32⟩ : BufTy).Contents (Elt F)),
    StableHlo.unary main_v1 main_v11 ((extractStridedSlice S500000x1 ![0, 2] · slices_S500000x3_S500000x1_0_2) : (⟨S500000x3, .i32⟩ : BufTy).Contents (Elt F) → (⟨S500000x1, .i32⟩ : BufTy).Contents (Elt F)),
    StableHlo.reshape main_v11 main_v12 rfl shapeCasts_S500000x1_S500000,
    StableHlo.binary main_v10 main_v12 main_v13 (addi : (⟨S500000, .i32⟩ : BufTy).Contents (Elt F) → (⟨S500000, .i32⟩ : BufTy).Contents (Elt F) → (⟨S500000, .i32⟩ : BufTy).Contents (Elt F)) ]
theorem main_part0_ops4_sub : (main_part0_ops4 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub ..⟩
/-- 32 host operations of @_unique_sorted_mask (main_call2), window 0 (statements 1 … 60), in order. -/
abbrev main_part0_ops5 : List (HloOp τ sig (Elt F)) :=
  [ StableHlo.TRef.unary (.of main_v0 : StableHlo.TRef sig ⟨S500000x3, .i32⟩) (.of main_call2_v0 : StableHlo.TRef sig ⟨S3x500000, .i32⟩) (transpose S3x500000 [1, 0] · transposes_S500000x3_S3x500000_1_0),
    StableHlo.TRef.unary (.of main_call2_v0 : StableHlo.TRef sig ⟨S3x500000, .i32⟩) (.of main_call2_v1 : StableHlo.TRef sig ⟨S3x500000, .i32⟩) (Host.reverse [0]),
    StableHlo.TRef.unary (.of main_call2_v1 : StableHlo.TRef sig ⟨S3x500000, .i32⟩) (.of main_call2_call0_v0 : StableHlo.TRef sig ⟨S1x500000, .i32⟩) (extractStridedSlice S1x500000 ![0, 0] · slices_S3x500000_S1x500000_0_0),
    StableHlo.TRef.reshape (.of main_call2_call0_v0 : StableHlo.TRef sig ⟨S1x500000, .i32⟩) (.of main_call2_call0_v1 : StableHlo.TRef sig ⟨S500000, .i32⟩) rfl shapeCasts_S1x500000_S500000,
    StableHlo.TRef.unary (.of main_call2_v1 : StableHlo.TRef sig ⟨S3x500000, .i32⟩) (.of main_call2_call0_v2 : StableHlo.TRef sig ⟨S1x500000, .i32⟩) (extractStridedSlice S1x500000 ![1, 0] · slices_S3x500000_S1x500000_1_0),
    StableHlo.TRef.reshape (.of main_call2_call0_v2 : StableHlo.TRef sig ⟨S1x500000, .i32⟩) (.of main_call2_call0_v3 : StableHlo.TRef sig ⟨S500000, .i32⟩) rfl shapeCasts_S1x500000_S500000,
    StableHlo.TRef.unary (.of main_call2_v1 : StableHlo.TRef sig ⟨S3x500000, .i32⟩) (.of main_call2_call0_v4 : StableHlo.TRef sig ⟨S1x500000, .i32⟩) (extractStridedSlice S1x500000 ![2, 0] · slices_S3x500000_S1x500000_2_0),
    StableHlo.TRef.reshape (.of main_call2_call0_v4 : StableHlo.TRef sig ⟨S1x500000, .i32⟩) (.of main_call2_call0_v5 : StableHlo.TRef sig ⟨S500000, .i32⟩) rfl shapeCasts_S1x500000_S500000,
    StableHlo.TRef.nullary (.of main_call2_call0_v6 : StableHlo.TRef sig ⟨S500000, .i32⟩) (iotaInDim S500000 32 0),
    StableHlo.TRef.quaternary (.of main_call2_call0_v5 : StableHlo.TRef sig ⟨S500000, .i32⟩) (.of main_call2_call0_v3 : StableHlo.TRef sig ⟨S500000, .i32⟩) (.of main_call2_call0_v1 : StableHlo.TRef sig ⟨S500000, .i32⟩) (.of main_call2_call0_v6 : StableHlo.TRef sig ⟨S500000, .i32⟩) (.of main_call2_call0_v7_0 : StableHlo.TRef sig ⟨S500000, .i32⟩) (fun x y z w => (Host.sort4 S500000 0 comparator_i32_i32_i32_i32_d0 x y z w).1),
    StableHlo.TRef.quaternary (.of main_call2_call0_v5 : StableHlo.TRef sig ⟨S500000, .i32⟩) (.of main_call2_call0_v3 : StableHlo.TRef sig ⟨S500000, .i32⟩) (.of main_call2_call0_v1 : StableHlo.TRef sig ⟨S500000, .i32⟩) (.of main_call2_call0_v6 : StableHlo.TRef sig ⟨S500000, .i32⟩) (.of main_call2_call0_v7_1 : StableHlo.TRef sig ⟨S500000, .i32⟩) (fun x y z w => (Host.sort4 S500000 0 comparator_i32_i32_i32_i32_d0 x y z w).2.1),
    StableHlo.TRef.quaternary (.of main_call2_call0_v5 : StableHlo.TRef sig ⟨S500000, .i32⟩) (.of main_call2_call0_v3 : StableHlo.TRef sig ⟨S500000, .i32⟩) (.of main_call2_call0_v1 : StableHlo.TRef sig ⟨S500000, .i32⟩) (.of main_call2_call0_v6 : StableHlo.TRef sig ⟨S500000, .i32⟩) (.of main_call2_call0_v7_2 : StableHlo.TRef sig ⟨S500000, .i32⟩) (fun x y z w => (Host.sort4 S500000 0 comparator_i32_i32_i32_i32_d0 x y z w).2.2.1),
    StableHlo.TRef.quaternary (.of main_call2_call0_v5 : StableHlo.TRef sig ⟨S500000, .i32⟩) (.of main_call2_call0_v3 : StableHlo.TRef sig ⟨S500000, .i32⟩) (.of main_call2_call0_v1 : StableHlo.TRef sig ⟨S500000, .i32⟩) (.of main_call2_call0_v6 : StableHlo.TRef sig ⟨S500000, .i32⟩) (.of main_v14_2 : StableHlo.TRef sig ⟨S500000, .i32⟩) (fun x y z w => (Host.sort4 S500000 0 comparator_i32_i32_i32_i32_d0 x y z w).2.2.2),
    StableHlo.TRef.nullary (.of main_call2_c : StableHlo.TRef sig ⟨S_, .i32⟩) (constantI S_ 32 0#32),
    StableHlo.TRef.unary (.of main_call2_c : StableHlo.TRef sig ⟨S_, .i32⟩) (.of main_call2_v3 : StableHlo.TRef sig ⟨S500000, .i32⟩) (broadcastInDim S500000 ![] bcast_S_S500000),
    StableHlo.TRef.binary main_call2_call0.v7_3 (.of main_call2_v3 : StableHlo.TRef sig ⟨S500000, .i32⟩) (.of main_call2_v4 : StableHlo.TRef sig ⟨S500000, .i1⟩) (cmpi .slt),
    StableHlo.TRef.nullary (.of main_call2_c_0 : StableHlo.TRef sig ⟨S_, .i32⟩) (constantI S_ 32 500000#32),
    StableHlo.TRef.unary (.of main_call2_c_0 : StableHlo.TRef sig ⟨S_, .i32⟩) (.of main_call2_v5 : StableHlo.TRef sig ⟨S500000, .i32⟩) (broadcastInDim S500000 ![] bcast_S_S500000),
    StableHlo.TRef.binary main_call2_call0.v7_3 (.of main_call2_v5 : StableHlo.TRef sig ⟨S500000, .i32⟩) (.of main_call2_v6 : StableHlo.TRef sig ⟨S500000, .i32⟩) addi,
    StableHlo.TRef.ternary (.of main_call2_v4 : StableHlo.TRef sig ⟨S500000, .i1⟩) (.of main_call2_v6 : StableHlo.TRef sig ⟨S500000, .i32⟩) main_call2_call0.v7_3 (.of main_call2_v7 : StableHlo.TRef sig ⟨S500000, .i32⟩) select,
    StableHlo.TRef.unary (.of main_call2_v7 : StableHlo.TRef sig ⟨S500000, .i32⟩) (.of main_call2_v8 : StableHlo.TRef sig ⟨S500000x1, .i32⟩) (broadcastInDim S500000x1 ![0] bcast_S500000_S500000x1_0),
    StableHlo.TRef.binary (.of main_v0 : StableHlo.TRef sig ⟨S500000x3, .i32⟩) (.of main_call2_v8 : StableHlo.TRef sig ⟨S500000x1, .i32⟩) (.of main_v14_0 : StableHlo.TRef sig ⟨S500000x3, .i32⟩) (fun x i => Host.gather gather_S500000x3_S500000x1_S500000x3_1_0_n_n_0_1_13 x i),
    StableHlo.TRef.nullary (.of main_call2_c_1 : StableHlo.TRef sig ⟨S_, .i1⟩) (constantI S_ 1 1#1),
    StableHlo.TRef.unary (.of main_call2_c_1 : StableHlo.TRef sig ⟨S_, .i1⟩) (.of main_call2_v10 : StableHlo.TRef sig ⟨S500000, .i1⟩) (broadcastInDim S500000 ![] bcast_S_S500000),
    StableHlo.TRef.unary (.of main_v14_0 : StableHlo.TRef sig ⟨S500000x3, .i32⟩) (.of main_call2_v11 : StableHlo.TRef sig ⟨S499999x3, .i32⟩) (extractStridedSlice S499999x3 ![1, 0] · slices_S500000x3_S499999x3_1_0),
    StableHlo.TRef.unary (.of main_v14_0 : StableHlo.TRef sig ⟨S500000x3, .i32⟩) (.of main_call2_v12 : StableHlo.TRef sig ⟨S499999x3, .i32⟩) (extractStridedSlice S499999x3 ![0, 0] · slices_S500000x3_S499999x3_0_0),
    StableHlo.TRef.binary (.of main_call2_v11 : StableHlo.TRef sig ⟨S499999x3, .i32⟩) (.of main_call2_v12 : StableHlo.TRef sig ⟨S499999x3, .i32⟩) (.of main_call2_v13 : StableHlo.TRef sig ⟨S499999x3, .i1⟩) (cmpi .ne),
    StableHlo.TRef.nullary (.of main_call2_c_2 : StableHlo.TRef sig ⟨S_, .i1⟩) (constantI S_ 1 0#1),
    StableHlo.TRef.binary (.of main_call2_v13 : StableHlo.TRef sig ⟨S499999x3, .i1⟩) (.of main_call2_c_2 : StableHlo.TRef sig ⟨S_, .i1⟩) (.of main_call2_v14 : StableHlo.TRef sig ⟨S499999, .i1⟩) (fun x v => Host.reduce IntOp.ori x v reducesTo_S499999x3_S499999_d1 h_S_),
    StableHlo.TRef.nullary (.of main_call2_c_3 : StableHlo.TRef sig ⟨S_, .i32⟩) (constantI S_ 32 1#32),
    StableHlo.TRef.unary (.of main_call2_c_3 : StableHlo.TRef sig ⟨S_, .i32⟩) (.of main_call2_v15 : StableHlo.TRef sig ⟨S1, .i32⟩) (broadcastInDim S1 ![] bcast_S_S1),
    StableHlo.TRef.ternary (.of main_call2_v10 : StableHlo.TRef sig ⟨S500000, .i1⟩) (.of main_call2_v15 : StableHlo.TRef sig ⟨S1, .i32⟩) (.of main_call2_v14 : StableHlo.TRef sig ⟨S499999, .i1⟩) (.of main_v14_1 : StableHlo.TRef sig ⟨S500000, .i1⟩) (fun x i u => Host.scatter scatter_S500000_S1_S499999_0_n_0_0 (fun _ b => b) x i u) ]
theorem main_part0_ops5_sub : (main_part0_ops5 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.quaternary_bufs_sub .., StableHlo.quaternary_bufs_sub .., StableHlo.quaternary_bufs_sub .., StableHlo.quaternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
/-- 4 host operations of @cumsum (main_call3), window 0 (statements 1 … 60), in order. -/
abbrev main_part0_ops6 : List (HloOp τ sig (Elt F)) :=
  [ StableHlo.TRef.unary (.of main_v14_1 : StableHlo.TRef sig ⟨S500000, .i1⟩) (.of main_call3_v0 : StableHlo.TRef sig ⟨S500000, .i32⟩) (extui 32 · natLt_1_32),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_call3_v0 : StableHlo.TRef sig ⟨S500000, .i32⟩) (.of main_call3_call0_v0 : StableHlo.TRef sig ⟨S_, .i32⟩) (.of main_v15 : StableHlo.TRef sig ⟨S500000, .i32⟩) (fun x v => Host.reduceWindow IntOp.addi ![500000] ![1] ![499999] ![0] x v reduceWindows_S500000_S500000_w500000s1p499999_0 h_S_) ]
theorem main_part0_ops6_sub : (main_part0_ops6 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- 3 host operations of @main, window 0 (statements 1 … 60), in order. -/
abbrev main_part0_ops7 : List (HloOp τ sig (Elt F)) :=
  [ StableHlo.nullary main_c_3 (constantI S_ 32 0#32),
    StableHlo.unary main_c_3 main_v16 (broadcastInDim S500000 ![] bcast_S_S500000 : (⟨S_, .i32⟩ : BufTy).Contents (Elt F) → (⟨S500000, .i32⟩ : BufTy).Contents (Elt F)),
    StableHlo.nullary main_c_4 (constantI S_ 32 0#32) ]
theorem main_part0_ops7_sub : (main_part0_ops7 : List (HloOp τ sig (Elt F))).Forall fun op => op.bufs ⊆ StableHlo.tcRefs τ sig :=
  ⟨StableHlo.nullary_bufs_sub .., StableHlo.unary_bufs_sub .., StableHlo.nullary_bufs_sub ..⟩
/-- 3 host operations of @clip (main_call4), window 0 (statements 1 … 60), in order. -/
abbrev main_part0_ops8 : List (HloOp τ sig (Elt F)) :=
  [ StableHlo.TRef.unary (.of main_c_4 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S500000, .i32⟩) (broadcastInDim S500000 ![] bcast_S_S500000),
    StableHlo.TRef.binary (.of main_call4_v1 : StableHlo.TRef sig ⟨S500000, .i32⟩) (.of main_v15 : StableHlo.TRef sig ⟨S500000, .i32⟩) (.of main_v17 : StableHlo.TRef sig ⟨S500000, .i32⟩) maxsi ]
theorem main_part0_ops8_sub : (main_part0_ops8 : List (HloOp τ sig (Elt F))).Forall fun op => op.bufs ⊆ StableHlo.tcRefs τ sig :=
  ⟨StableHlo.unary_bufs_sub .., StableHlo.unary_bufs_sub .., StableHlo.binary_bufs_sub ..⟩
/-- 11 host operations of @main, window 0 (statements 1 … 60), in order. -/
abbrev main_part0_ops9 : List (HloOp τ sig (Elt F)) :=
  [ StableHlo.nullary main_c_5 (constantI S_ 32 0#32),
    StableHlo.unary main_c_5 main_v18 (broadcastInDim S500000 ![] bcast_S_S500000 : (⟨S_, .i32⟩ : BufTy).Contents (Elt F) → (⟨S500000, .i32⟩ : BufTy).Contents (Elt F)),
    StableHlo.binary main_v17 main_v18 main_v19 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 500000#32),
    StableHlo.unary main_c_6 main_v20 (broadcastInDim S500000 ![] bcast_S_S500000 : (⟨S_, .i32⟩ : BufTy).Contents (Elt F) → (⟨S500000, .i32⟩ : BufTy).Contents (Elt F)),
    StableHlo.binary main_v17 main_v20 main_v21 (addi : (⟨S500000, .i32⟩ : BufTy).Contents (Elt F) → (⟨S500000, .i32⟩ : BufTy).Contents (Elt F) → (⟨S500000, .i32⟩ : BufTy).Contents (Elt F)),
    StableHlo.ternary main_v19 main_v21 main_v17 main_v22 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v22 main_v23 (broadcastInDim S500000x1 ![0] bcast_S500000_S500000x1_0 : (⟨S500000, .i32⟩ : BufTy).Contents (Elt F) → (⟨S500000x1, .i32⟩ : BufTy).Contents (Elt F)),
    StableHlo.nullary main_c_7 (constantI S_ 32 1#32),
    StableHlo.unary main_c_7 main_v24 (broadcastInDim S500000 ![] bcast_S_S500000 : (⟨S_, .i32⟩ : BufTy).Contents (Elt F) → (⟨S500000, .i32⟩ : BufTy).Contents (Elt F)),
    StableHlo.ternary main_v16 main_v23 main_v24 main_v25 ((fun x i u => Host.scatter scatter_S500000_S500000x1_S500000_n_0_0_1 IntOp.addi x i u) : (⟨S500000, .i32⟩ : BufTy).Contents (Elt F) → (⟨S500000x1, .i32⟩ : BufTy).Contents (Elt F) → (⟨S500000, .i32⟩ : BufTy).Contents (Elt F) → (⟨S500000, .i32⟩ : BufTy).Contents (Elt F)) ]
theorem main_part0_ops9_sub : (main_part0_ops9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
/-- 3 host operations of @cumsum_2 (main_call5), window 0 (statements 1 … 60), in order. -/
abbrev main_part0_ops10 : List (HloOp τ sig (Elt F)) :=
  [ StableHlo.TRef.nullary (.of main_call5_call0_c : StableHlo.TRef sig ⟨S_, .i32⟩) (constantI S_ 32 0#32),
    StableHlo.TRef.unary (.of main_call5_call0_c : StableHlo.TRef sig ⟨S_, .i32⟩) (.of main_call5_call0_v0 : StableHlo.TRef sig ⟨S_, .i32⟩) (broadcastInDim S_ ![] bcast_S_S_),
    StableHlo.TRef.binary (.of main_v25 : StableHlo.TRef sig ⟨S500000, .i32⟩) (.of main_call5_call0_v0 : StableHlo.TRef sig ⟨S_, .i32⟩) (.of main_v26 : StableHlo.TRef sig ⟨S500000, .i32⟩) (fun x v => Host.reduceWindow IntOp.addi ![500000] ![1] ![499999] ![0] x v reduceWindows_S500000_S500000_w500000s1p499999_0 h_S_) ]
theorem main_part0_ops10_sub : (main_part0_ops10 : List (HloOp τ sig (Elt F))).Forall fun op => op.bufs ⊆ StableHlo.tcRefs τ sig :=
  ⟨StableHlo.nullary_bufs_sub .., StableHlo.unary_bufs_sub .., StableHlo.binary_bufs_sub ..⟩
/-- 1 host operation of @main, window 0 (statements 1 … 60), in order. -/
abbrev main_part0_ops11 : List (HloOp τ sig (Elt F)) :=
  [ StableHlo.nullary main_c_8 (constantI S_ 32 1#32) ]
theorem main_part0_ops11_sub : (main_part0_ops11 : List (HloOp τ sig (Elt F))).Forall fun op => op.bufs ⊆ StableHlo.tcRefs τ sig :=
  StableHlo.nullary_bufs_sub ..
/-- 16 host operations of @floor_divide_3 (main_call6), window 0 (statements 1 … 60), in order. -/
abbrev main_part0_ops12 : List (HloOp τ sig (Elt F)) :=
  [ StableHlo.TRef.unary (.of main_c_8 : StableHlo.TRef sig ⟨S_, .i32⟩) (.of main_call6_v0 : StableHlo.TRef sig ⟨S500000, .i32⟩) (broadcastInDim S500000 ![] bcast_S_S500000),
    StableHlo.TRef.binary (.of main_v26 : StableHlo.TRef sig ⟨S500000, .i32⟩) (.of main_call6_v0 : StableHlo.TRef sig ⟨S500000, .i32⟩) (.of main_call6_v1 : StableHlo.TRef sig ⟨S500000, .i32⟩) Host.divsi,
    StableHlo.TRef.unary (.of main_v26 : StableHlo.TRef sig ⟨S500000, .i32⟩) (.of main_call6_v2 : StableHlo.TRef sig ⟨S500000, .i32⟩) signi,
    StableHlo.TRef.unary (.of main_c_8 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S500000, .i32⟩) (broadcastInDim S500000 ![] bcast_S_S500000),
    StableHlo.TRef.binary (.of main_call6_v2 : StableHlo.TRef sig ⟨S500000, .i32⟩) (.of main_call6_v4 : StableHlo.TRef sig ⟨S500000, .i32⟩) (.of main_call6_v5 : StableHlo.TRef sig ⟨S500000, .i1⟩) (cmpi .ne),
    StableHlo.TRef.unary (.of main_c_8 : StableHlo.TRef sig ⟨S_, .i32⟩) (.of main_call6_v6 : StableHlo.TRef sig ⟨S500000, .i32⟩) (broadcastInDim S500000 ![] bcast_S_S500000),
    StableHlo.TRef.binary (.of main_v26 : StableHlo.TRef sig ⟨S500000, .i32⟩) (.of main_call6_v6 : StableHlo.TRef sig ⟨S500000, .i32⟩) (.of main_call6_v7 : StableHlo.TRef sig ⟨S500000, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S500000, .i32⟩) (broadcastInDim S500000 ![] bcast_S_S500000),
    StableHlo.TRef.binary (.of main_call6_v7 : StableHlo.TRef sig ⟨S500000, .i32⟩) (.of main_call6_v8 : StableHlo.TRef sig ⟨S500000, .i32⟩) (.of main_call6_v9 : StableHlo.TRef sig ⟨S500000, .i1⟩) (cmpi .ne),
    StableHlo.TRef.binary (.of main_call6_v5 : StableHlo.TRef sig ⟨S500000, .i1⟩) (.of main_call6_v9 : StableHlo.TRef sig ⟨S500000, .i1⟩) (.of main_call6_v10 : StableHlo.TRef sig ⟨S500000, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S500000, .i32⟩) (broadcastInDim S500000 ![] bcast_S_S500000),
    StableHlo.TRef.binary (.of main_call6_v1 : StableHlo.TRef sig ⟨S500000, .i32⟩) (.of main_call6_v11 : StableHlo.TRef sig ⟨S500000, .i32⟩) (.of main_call6_v12 : StableHlo.TRef sig ⟨S500000, .i32⟩) subi,
    StableHlo.TRef.ternary (.of main_call6_v10 : StableHlo.TRef sig ⟨S500000, .i1⟩) (.of main_call6_v12 : StableHlo.TRef sig ⟨S500000, .i32⟩) (.of main_call6_v1 : StableHlo.TRef sig ⟨S500000, .i32⟩) (.of main_v27 : StableHlo.TRef sig ⟨S500000, .i32⟩) select ]
theorem main_part0_ops12_sub : (main_part0_ops12 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 host operation of @main, window 0 (statements 1 … 60), in order. -/
abbrev main_part0_ops13 : List (HloOp τ sig (Elt F)) :=
  [ StableHlo.nullary main_c_9 (constantI S_ 32 500000#32) ]
theorem main_part0_ops13_sub : (main_part0_ops13 : List (HloOp τ sig (Elt F))).Forall fun op => op.bufs ⊆ StableHlo.tcRefs τ sig :=
  StableHlo.nullary_bufs_sub ..
/-- 21 host operations of @remainder_5 (main_call7), window 0 (statements 1 … 60), in order. -/
abbrev main_part0_ops14 : List (HloOp τ sig (Elt F)) :=
  [ StableHlo.TRef.unary (.of main_c_9 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S500000, .i32⟩) (broadcastInDim S500000 ![] bcast_S_S500000),
    StableHlo.TRef.binary (.of main_v27 : StableHlo.TRef sig ⟨S500000, .i32⟩) (.of main_call7_v3 : StableHlo.TRef sig ⟨S500000, .i32⟩) (.of main_call7_v4 : StableHlo.TRef sig ⟨S500000, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S500000, .i32⟩) (broadcastInDim S500000 ![] bcast_S_S500000),
    StableHlo.TRef.binary (.of main_call7_v4 : StableHlo.TRef sig ⟨S500000, .i32⟩) (.of main_call7_v5 : StableHlo.TRef sig ⟨S500000, .i32⟩) (.of main_call7_v6 : StableHlo.TRef sig ⟨S500000, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S500000, .i32⟩) (broadcastInDim S500000 ![] bcast_S_S500000),
    StableHlo.TRef.binary (.of main_call7_v4 : StableHlo.TRef sig ⟨S500000, .i32⟩) (.of main_call7_v7 : StableHlo.TRef sig ⟨S500000, .i32⟩) (.of main_call7_v8 : StableHlo.TRef sig ⟨S500000, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S500000, .i1⟩) (broadcastInDim S500000 ![] bcast_S_S500000),
    StableHlo.TRef.binary (.of main_call7_v8 : StableHlo.TRef sig ⟨S500000, .i1⟩) (.of main_call7_v10 : StableHlo.TRef sig ⟨S500000, .i1⟩) (.of main_call7_v11 : StableHlo.TRef sig ⟨S500000, .i1⟩) (cmpi .ne),
    StableHlo.TRef.binary (.of main_call7_v11 : StableHlo.TRef sig ⟨S500000, .i1⟩) (.of main_call7_v6 : StableHlo.TRef sig ⟨S500000, .i1⟩) (.of main_call7_v12 : StableHlo.TRef sig ⟨S500000, .i1⟩) andi,
    StableHlo.TRef.unary main_call7_call0.v0 (.of main_call7_v13 : StableHlo.TRef sig ⟨S500000, .i32⟩) (broadcastInDim S500000 ![] bcast_S_S500000),
    StableHlo.TRef.binary (.of main_call7_v4 : StableHlo.TRef sig ⟨S500000, .i32⟩) (.of main_call7_v13 : StableHlo.TRef sig ⟨S500000, .i32⟩) (.of main_call7_v14 : StableHlo.TRef sig ⟨S500000, .i32⟩) addi,
    StableHlo.TRef.ternary (.of main_call7_v12 : StableHlo.TRef sig ⟨S500000, .i1⟩) (.of main_call7_v14 : StableHlo.TRef sig ⟨S500000, .i32⟩) (.of main_call7_v4 : StableHlo.TRef sig ⟨S500000, .i32⟩) (.of main_v28 : StableHlo.TRef sig ⟨S500000, .i32⟩) select ]
theorem main_part0_ops14_sub : (main_part0_ops14 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 17 host operations of @main, window 0 (statements 1 … 60), in order. -/
abbrev main_part0_ops15 : List (HloOp τ sig (Elt F)) :=
  [ StableHlo.nullary main_c_10 (constantI S_ 32 0#32),
    StableHlo.unary main_c_10 main_v29 (broadcastInDim S500000 ![] bcast_S_S500000 : (⟨S_, .i32⟩ : BufTy).Contents (Elt F) → (⟨S500000, .i32⟩ : BufTy).Contents (Elt F)),
    StableHlo.binary main_v28 main_v29 main_v30 (cmpi .slt : (⟨S500000, .i32⟩ : BufTy).Contents (Elt F) → (⟨S500000, .i32⟩ : BufTy).Contents (Elt F) → (⟨S500000, .i1⟩ : BufTy).Contents (Elt F)),
    StableHlo.nullary main_c_11 (constantI S_ 32 500000#32),
    StableHlo.unary main_c_11 main_v31 (broadcastInDim S500000 ![] bcast_S_S500000 : (⟨S_, .i32⟩ : BufTy).Contents (Elt F) → (⟨S500000, .i32⟩ : BufTy).Contents (Elt F)),
    StableHlo.binary main_v28 main_v31 main_v32 (addi : (⟨S500000, .i32⟩ : BufTy).Contents (Elt F) → (⟨S500000, .i32⟩ : BufTy).Contents (Elt F) → (⟨S500000, .i32⟩ : BufTy).Contents (Elt F)),
    StableHlo.ternary main_v30 main_v32 main_v28 main_v33 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v33 main_v34 (broadcastInDim S500000x1 ![0] bcast_S500000_S500000x1_0 : (⟨S500000, .i32⟩ : BufTy).Contents (Elt F) → (⟨S500000x1, .i32⟩ : BufTy).Contents (Elt F)),
    StableHlo.binary main_v14_0 main_v34 main_v35 ((fun x i => Host.gather gather_S500000x3_S500000x1_S500000x3_1_0_n_n_0_1_13 x i) : (⟨S500000x3, .i32⟩ : BufTy).Contents (Elt F) → (⟨S500000x1, .i32⟩ : BufTy).Contents (Elt F) → (⟨S500000x3, .i32⟩ : BufTy).Contents (Elt F)),
    StableHlo.nullary main_v36 (iotaInDim S500000 32 0),
    StableHlo.unary main_v14_1 main_v37 ((extui 32 · natLt_1_32) : (⟨S500000, .i1⟩ : BufTy).Contents (Elt F) → (⟨S500000, .i32⟩ : BufTy).Contents (Elt F)),
    StableHlo.nullary main_c_12 (constantI S_ 32 0#32),
    StableHlo.binary main_v37 main_c_12 main_v38 ((fun x v => Host.reduce IntOp.addi x v reducesTo_S500000_S_d0 h_S_) : (⟨S500000, .i32⟩ : BufTy).Contents (Elt F) → (⟨S_, .i32⟩ : BufTy).Contents (Elt F) → (⟨S_, .i32⟩ : BufTy).Contents (Elt F)),
    StableHlo.unary main_v38 main_v39 (broadcastInDim S500000 ![] bcast_S_S500000 : (⟨S_, .i32⟩ : BufTy).Contents (Elt F) → (⟨S500000, .i32⟩ : BufTy).Contents (Elt F)),
    StableHlo.binary main_v36 main_v39 main_v40 (cmpi .slt : (⟨S500000, .i32⟩ : BufTy).Contents (Elt F) → (⟨S500000, .i32⟩ : BufTy).Contents (Elt F) → (⟨S500000, .i1⟩ : BufTy).Contents (Elt F)),
    StableHlo.unary main_v40 main_v41 (broadcastInDim S500000x1 ![0] bcast_S500000_S500000x1_0 : (⟨S500000, .i1⟩ : BufTy).Contents (Elt F) → (⟨S500000x1, .i1⟩ : BufTy).Contents (Elt F)),
    StableHlo.nullary main_c_13 (constantI S_ 32 4294967295#32) ]
theorem main_part0_ops15_sub : (main_part0_ops15 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.binary_bufs_sub .., StableHlo.unary_bufs_sub .., StableHlo.binary_bufs_sub .., StableHlo.unary_bufs_sub .., StableHlo.nullary_bufs_sub ..⟩
/-- 3 host operations of @_where_6 (main_call8), window 0 (statements 1 … 60), in order. -/
abbrev main_part0_ops16 : List (HloOp τ sig (Elt F)) :=
  [ StableHlo.TRef.unary (.of main_v41 : StableHlo.TRef sig ⟨S500000x1, .i1⟩) (.of main_call8_v0 : StableHlo.TRef sig ⟨S500000x3, .i1⟩) (broadcastInDim S500000x3 ![0, 1] bcast_S500000x1_S500000x3_0_1),
    StableHlo.TRef.unary (.of main_c_13 : StableHlo.TRef sig ⟨S_, .i32⟩) (.of main_call8_v1 : StableHlo.TRef sig ⟨S500000x3, .i32⟩) (broadcastInDim S500000x3 ![] bcast_S_S500000x3),
    StableHlo.TRef.ternary (.of main_call8_v0 : StableHlo.TRef sig ⟨S500000x3, .i1⟩) (.of main_v35 : StableHlo.TRef sig ⟨S500000x3, .i32⟩) (.of main_call8_v1 : StableHlo.TRef sig ⟨S500000x3, .i32⟩) (.of main_v42 : StableHlo.TRef sig ⟨S500000x3, .i32⟩) select ]
theorem main_part0_ops16_sub : (main_part0_ops16 : List (HloOp τ sig (Elt F))).Forall fun op => op.bufs ⊆ StableHlo.tcRefs τ sig :=
  ⟨StableHlo.unary_bufs_sub .., StableHlo.unary_bufs_sub .., StableHlo.ternary_bufs_sub ..⟩
/-- 4 host operations of @cumsum (main_call9), window 0 (statements 1 … 60), in order. -/
abbrev main_part0_ops17 : List (HloOp τ sig (Elt F)) :=
  [ StableHlo.TRef.unary (.of main_v14_1 : StableHlo.TRef sig ⟨S500000, .i1⟩) (.of main_call9_v0 : StableHlo.TRef sig ⟨S500000, .i32⟩) (extui 32 · natLt_1_32),
    StableHlo.TRef.nullary (.of main_call9_call0_c : StableHlo.TRef sig ⟨S_, .i32⟩) (constantI S_ 32 0#32),
    StableHlo.TRef.unary (.of main_call9_call0_c : StableHlo.TRef sig ⟨S_, .i32⟩) (.of main_call9_call0_v0 : StableHlo.TRef sig ⟨S_, .i32⟩) (broadcastInDim S_ ![] bcast_S_S_),
    StableHlo.TRef.binary (.of main_call9_v0 : StableHlo.TRef sig ⟨S500000, .i32⟩) (.of main_call9_call0_v0 : StableHlo.TRef sig ⟨S_, .i32⟩) (.of main_v43 : StableHlo.TRef sig ⟨S500000, .i32⟩) (fun x v => Host.reduceWindow IntOp.addi ![500000] ![1] ![499999] ![0] x v reduceWindows_S500000_S500000_w500000s1p499999_0 h_S_) ]
theorem main_part0_ops17_sub : (main_part0_ops17 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- 1 host operation of @main, window 0 (statements 1 … 60), in order. -/
abbrev main_part0_ops18 : List (HloOp τ sig (Elt F)) :=
  [ StableHlo.nullary main_c_14 (constantI S_ 32 1#32) ]
theorem main_part0_ops18_sub : (main_part0_ops18 : List (HloOp τ sig (Elt F))).Forall fun op => op.bufs ⊆ StableHlo.tcRefs τ sig :=
  StableHlo.nullary_bufs_sub ..
/-- 13 host operations of @main, window 1 (statements 61 … 73), in order: through the groups. -/
abbrev main_part1_pre : List (HloOp τ sig (Elt F)) :=
  [ StableHlo.unary main_c_14 main_v44 (broadcastInDim S500000 ![] bcast_S_S500000 : (⟨S_, .i32⟩ : BufTy).Contents (Elt F) → (⟨S500000, .i32⟩ : BufTy).Contents (Elt F)),
    StableHlo.binary main_v43 main_v44 main_v45 (subi : (⟨S500000, .i32⟩ : BufTy).Contents (Elt F) → (⟨S500000, .i32⟩ : BufTy).Contents (Elt F) → (⟨S500000, .i32⟩ : BufTy).Contents (Elt F)),
    StableHlo.nullary main_c_15 (constantI S_ 32 0#32),
    StableHlo.unary main_c_15 main_v46 (broadcastInDim S500000 ![] bcast_S_S500000 : (⟨S_, .i32⟩ : BufTy).Contents (Elt F) → (⟨S500000, .i32⟩ : BufTy).Contents (Elt F)),
    StableHlo.nullary main_c_16 (constantI S_ 32 0#32),
    StableHlo.unary main_c_16 main_v47 (broadcastInDim S500000 ![] bcast_S_S500000 : (⟨S_, .i32⟩ : BufTy).Contents (Elt F) → (⟨S500000, .i32⟩ : BufTy).Contents (Elt F)),
    StableHlo.binary main_v14_2 main_v47 main_v48 (cmpi .slt : (⟨S500000, .i32⟩ : BufTy).Contents (Elt F) → (⟨S500000, .i32⟩ : BufTy).Contents (Elt F) → (⟨S500000, .i1⟩ : BufTy).Contents (Elt F)),
    StableHlo.nullary main_c_17 (constantI S_ 32 500000#32),
    StableHlo.unary main_c_17 main_v49 (broadcastInDim S500000 ![] bcast_S_S500000 : (⟨S_, .i32⟩ : BufTy).Contents (Elt F) → (⟨S500000, .i32⟩ : BufTy).Contents (Elt F)),
    StableHlo.binary main_v14_2 main_v49 main_v50 (addi : (⟨S500000, .i32⟩ : BufTy).Contents (Elt F) → (⟨S500000, .i32⟩ : BufTy).Contents (Elt F) → (⟨S500000, .i32⟩ : BufTy).Contents (Elt F)),
    StableHlo.ternary main_v48 main_v50 main_v14_2 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v51 main_v52 (broadcastInDim S500000x1 ![0] bcast_S500000_S500000x1_0 : (⟨S500000, .i32⟩ : BufTy).Contents (Elt F) → (⟨S500000x1, .i32⟩ : BufTy).Contents (Elt F)),
    StableHlo.ternary main_v46 main_v52 main_v45 main_v53 ((fun x i u => Host.scatter scatter_S500000_S500000x1_S500000_n_0_0_1 (fun _ b => b) x i u) : (⟨S500000, .i32⟩ : BufTy).Contents (Elt F) → (⟨S500000x1, .i32⟩ : BufTy).Contents (Elt F) → (⟨S500000, .i32⟩ : BufTy).Contents (Elt F) → (⟨S500000, .i32⟩ : BufTy).Contents (Elt F)) ]
theorem main_part1_pre_sub : (main_part1_pre : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

/-- 31 host operations of @main, window 1 (statements 74 … 104), in order: the columns, the index pairs, the scatter. -/
abbrev main_part1_tail : List (HloOp τ sig (Elt F)) :=
  [ StableHlo.unary main_v13 main_v54 (broadcastInDim S500000x1 ![0] bcast_S500000_S500000x1_0 : (⟨S500000, .i32⟩ : BufTy).Contents (Elt F) → (⟨S500000x1, .i32⟩ : BufTy).Contents (Elt F)),
    StableHlo.nullary main_c_18 (constantI S_ 32 16#32),
    StableHlo.unary main_c_18 main_v55 (broadcastInDim S500000x1 ![] bcast_S_S500000x1 : (⟨S_, .i32⟩ : BufTy).Contents (Elt F) → (⟨S500000x1, .i32⟩ : BufTy).Contents (Elt F)),
    StableHlo.binary main_v54 main_v55 main_v56 (muli : (⟨S500000x1, .i32⟩ : BufTy).Contents (Elt F) → (⟨S500000x1, .i32⟩ : BufTy).Contents (Elt F) → (⟨S500000x1, .i32⟩ : BufTy).Contents (Elt F)),
    StableHlo.nullary main_v57 (iotaInDim S16 32 0),
    StableHlo.unary main_v57 main_v58 (broadcastInDim S1x16 ![1] bcast_S16_S1x16_1 : (⟨S16, .i32⟩ : BufTy).Contents (Elt F) → (⟨S1x16, .i32⟩ : BufTy).Contents (Elt F)),
    StableHlo.unary main_v56 main_v59 (broadcastInDim S500000x16 ![0, 1] bcast_S500000x1_S500000x16_0_1 : (⟨S500000x1, .i32⟩ : BufTy).Contents (Elt F) → (⟨S500000x16, .i32⟩ : BufTy).Contents (Elt F)),
    StableHlo.unary main_v58 main_v60 (broadcastInDim S500000x16 ![0, 1] bcast_S1x16_S500000x16_0_1 : (⟨S1x16, .i32⟩ : BufTy).Contents (Elt F) → (⟨S500000x16, .i32⟩ : BufTy).Contents (Elt F)),
    StableHlo.binary main_v59 main_v60 main_v61 (addi : (⟨S500000x16, .i32⟩ : BufTy).Contents (Elt F) → (⟨S500000x16, .i32⟩ : BufTy).Contents (Elt F) → (⟨S500000x16, .i32⟩ : BufTy).Contents (Elt F)),
    StableHlo.nullary main_cst (constant S_ .f32 0x00000000#32),
    StableHlo.unary main_cst main_v62 (broadcastInDim S500000x128 ![] bcast_S_S500000x128 : (⟨S_, .f32⟩ : BufTy).Contents (Elt F) → (⟨S500000x128, .f32⟩ : BufTy).Contents (Elt F)),
    StableHlo.unary main_v53 main_v63 (broadcastInDim S500000x1 ![0] bcast_S500000_S500000x1_0 : (⟨S500000, .i32⟩ : BufTy).Contents (Elt F) → (⟨S500000x1, .i32⟩ : BufTy).Contents (Elt F)),
    StableHlo.nullary main_c_19 (constantI S_ 32 0#32),
    StableHlo.unary main_c_19 main_v64 (broadcastInDim S500000x1 ![] bcast_S_S500000x1 : (⟨S_, .i32⟩ : BufTy).Contents (Elt F) → (⟨S500000x1, .i32⟩ : BufTy).Contents (Elt F)),
    StableHlo.binary main_v63 main_v64 main_v65 (cmpi .slt : (⟨S500000x1, .i32⟩ : BufTy).Contents (Elt F) → (⟨S500000x1, .i32⟩ : BufTy).Contents (Elt F) → (⟨S500000x1, .i1⟩ : BufTy).Contents (Elt F)),
    StableHlo.nullary main_c_20 (constantI S_ 32 500000#32),
    StableHlo.unary main_c_20 main_v66 (broadcastInDim S500000x1 ![] bcast_S_S500000x1 : (⟨S_, .i32⟩ : BufTy).Contents (Elt F) → (⟨S500000x1, .i32⟩ : BufTy).Contents (Elt F)),
    StableHlo.binary main_v63 main_v66 main_v67 (addi : (⟨S500000x1, .i32⟩ : BufTy).Contents (Elt F) → (⟨S500000x1, .i32⟩ : BufTy).Contents (Elt F) → (⟨S500000x1, .i32⟩ : BufTy).Contents (Elt F)),
    StableHlo.ternary main_v65 main_v67 main_v63 main_v68 (select : (⟨S500000x1, .i1⟩ : BufTy).Contents (Elt F) → (⟨S500000x1, .i32⟩ : BufTy).Contents (Elt F) → (⟨S500000x1, .i32⟩ : BufTy).Contents (Elt F) → (⟨S500000x1, .i32⟩ : BufTy).Contents (Elt F)),
    StableHlo.nullary main_c_21 (constantI S_ 32 0#32),
    StableHlo.unary main_c_21 main_v69 (broadcastInDim S500000x16 ![] bcast_S_S500000x16 : (⟨S_, .i32⟩ : BufTy).Contents (Elt F) → (⟨S500000x16, .i32⟩ : BufTy).Contents (Elt F)),
    StableHlo.binary main_v61 main_v69 main_v70 (cmpi .slt : (⟨S500000x16, .i32⟩ : BufTy).Contents (Elt F) → (⟨S500000x16, .i32⟩ : BufTy).Contents (Elt F) → (⟨S500000x16, .i1⟩ : BufTy).Contents (Elt F)),
    StableHlo.nullary main_c_22 (constantI S_ 32 128#32),
    StableHlo.unary main_c_22 main_v71 (broadcastInDim S500000x16 ![] bcast_S_S500000x16 : (⟨S_, .i32⟩ : BufTy).Contents (Elt F) → (⟨S500000x16, .i32⟩ : BufTy).Contents (Elt F)),
    StableHlo.binary main_v61 main_v71 main_v72 (addi : (⟨S500000x16, .i32⟩ : BufTy).Contents (Elt F) → (⟨S500000x16, .i32⟩ : BufTy).Contents (Elt F) → (⟨S500000x16, .i32⟩ : BufTy).Contents (Elt F)),
    StableHlo.ternary main_v70 main_v72 main_v61 main_v73 (select : (⟨S500000x16, .i1⟩ : BufTy).Contents (Elt F) → (⟨S500000x16, .i32⟩ : BufTy).Contents (Elt F) → (⟨S500000x16, .i32⟩ : BufTy).Contents (Elt F) → (⟨S500000x16, .i32⟩ : BufTy).Contents (Elt F)),
    StableHlo.unary main_v68 main_v74 (broadcastInDim S500000x16 ![0, 1] bcast_S500000x1_S500000x16_0_1 : (⟨S500000x1, .i32⟩ : BufTy).Contents (Elt F) → (⟨S500000x16, .i32⟩ : BufTy).Contents (Elt F)),
    StableHlo.unary main_v74 main_v75 (broadcastInDim S500000x16x1 ![0, 1] bcast_S500000x16_S500000x16x1_0_1 : (⟨S500000x16, .i32⟩ : BufTy).Contents (Elt F) → (⟨S500000x16x1, .i32⟩ : BufTy).Contents (Elt F)),
    StableHlo.unary main_v73 main_v76 (broadcastInDim S500000x16x1 ![0, 1] bcast_S500000x16_S500000x16x1_0_1 : (⟨S500000x16, .i32⟩ : BufTy).Contents (Elt F) → (⟨S500000x16x1, .i32⟩ : BufTy).Contents (Elt F)),
    StableHlo.binary main_v75 main_v76 main_v77 ((fun a b => concatenate S500000x16x2 2 [⟨S500000x16x1, a⟩, ⟨S500000x16x1, b⟩] concatenates_S500000x16x1_S500000x16x1_S500000x16x2_d2) : (⟨S500000x16x1, .i32⟩ : BufTy).Contents (Elt F) → (⟨S500000x16x1, .i32⟩ : BufTy).Contents (Elt F) → (⟨S500000x16x2, .i32⟩ : BufTy).Contents (Elt F)),
    StableHlo.ternary main_v62 main_v77 main_arg0 main_v78 ((fun x i u => Host.scatter scatter_S500000x128_S500000x16x2_S500000x16_n_01_01_2 (fun _ b => b) x i u) : (⟨S500000x128, .f32⟩ : BufTy).Contents (Elt F) → (⟨S500000x16x2, .i32⟩ : BufTy).Contents (Elt F) → (⟨S500000x16, .f32⟩ : BufTy).Contents (Elt F) → (⟨S500000x128, .f32⟩ : BufTy).Contents (Elt F)) ]
theorem main_part1_tail_sub : (main_part1_tail : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub ..⟩

end Cert.ReferenceIdeal.Ops

end
-- ==== Proof.RTail.lean ====
/-
  The part of the reference's program that the kernel's does not share, as a pure function of the three values the
  shared opening of both programs computes (the feature rows, every point's group `inv` and its slot `o`): the
  column `o * 16 + channel` of every feature, the pair (row, column) as the scatter's index, and the features
  written there in order into an array of zeros (a later write to a cell replaces an earlier one).
-/
import proofs.«420124_j8804682957047_3_alg».proof.Proof.Gen.ReferenceIdeal

noncomputable section

namespace Cert.ReferenceIdeal.Tail

open Idealize.ShloMosaic Cert.ReferenceIdeal Cert.ReferenceIdeal.Facts₀

variable {F : FTy → Type} [FloatOps F]

/-- The target column of feature `ch` of point `i`: `o i * 16 + ch`. -/
def col (o : IVec S500000 32) : IVec S500000x16 32 :=
  addi
    (broadcastInDim S500000x16 ![0, 1] bcast_S500000x1_S500000x16_0_1
      (muli (broadcastInDim S500000x1 ![0] bcast_S500000_S500000x1_0 o)
        (broadcastInDim S500000x1 ![] bcast_S_S500000x1 (constantI S_ 32 16#32))))
    (broadcastInDim S500000x16 ![0, 1] bcast_S1x16_S500000x16_0_1
      (broadcastInDim S1x16 ![1] bcast_S16_S1x16_1 (iotaInDim S16 32 0)))

/-- The target row of a point, as a column vector: its group, counted from the end when negative. -/
def wrapRows (inv : IVec S500000 32) : IVec S500000x1 32 :=
  select
    (cmpi .slt (broadcastInDim S500000x1 ![0] bcast_S500000_S500000x1_0 inv)
      (broadcastInDim S500000x1 ![] bcast_S_S500000x1 (constantI S_ 32 0#32)))
    (addi (broadcastInDim S500000x1 ![0] bcast_S500000_S500000x1_0 inv)
      (broadcastInDim S500000x1 ![] bcast_S_S500000x1 (constantI S_ 32 500000#32)))
    (broadcastInDim S500000x1 ![0] bcast_S500000_S500000x1_0 inv)

/-- The target column, counted from the end of the 128 lanes when negative. -/
def wrapCols (c : IVec S500000x16 32) : IVec S500000x16 32 :=
  select (cmpi .slt c (broadcastInDim S500000x16 ![] bcast_S_S500000x16 (constantI S_ 32 0#32)))
    (addi c (broadcastInDim S500000x16 ![] bcast_S_S500000x16 (constantI S_ 32 128#32))) c

/-- The scatter's indices: for feature `(i, ch)` the pair (row, column). -/
def index (inv o : IVec S500000 32) : IVec S500000x16x2 32 :=
  concatenate S500000x16x2 2
    [⟨S500000x16x1, broadcastInDim S500000x16x1 ![0, 1] bcast_S500000x16_S500000x16x1_0_1
        (broadcastInDim S500000x16 ![0, 1] bcast_S500000x1_S500000x16_0_1 (wrapRows inv))⟩,
     ⟨S500000x16x1, broadcastInDim S500000x16x1 ![0, 1] bcast_S500000x16_S500000x16x1_0_1 (wrapCols (col o))⟩]
    concatenates_S500000x16x1_S500000x16x1_S500000x16x2_d2

/-- The result: zeros, and every feature written at its (row, column), in row-major order of the features. -/
def out (feats : FVec F S500000x16 .f32) (inv o : IVec S500000 32) : FVec F S500000x128 .f32 :=
  Host.scatter scatter_S500000x128_S500000x16x2_S500000x16_n_01_01_2 (fun _ b => b)
    (broadcastInDim S500000x128 ![] bcast_S_S500000x128 (constant S_ .f32 0x00000000#32))
    (index inv o) feats

end Cert.ReferenceIdeal.Tail

end
-- ==== Proof.RRun.lean ====
/-
  The reference program run: @main is the straight line of its host operations (the functions jax outlined
  unfolded at their calls), so every weakly fair execution terminates with each buffer at the fold of the
  operations over the launch contents. Read at the two results: the first is what the shared opening leaves in
  `main_v42`; the second is `Tail.out` of the features and of what the shared opening leaves in `main_v53` (every
  point's group) and `main_v13` (its slot).
-/
import proofs.«420124_j8804682957047_3_alg».proof.Proof.ROps
import proofs.«420124_j8804682957047_3_alg».proof.Proof.RTail
import Idealize.ShloMosaic.Lib.StableHlo.Run
import Idealize.ShloMosaic.Lib.Pipeline.Regions

noncomputable section

namespace Cert.ReferenceIdeal.Tail

open Cert.ReferenceIdeal Cert.ReferenceIdeal.Gen Cert.ReferenceIdeal.Ops Idealize.ShloMosaic Idealize.ShloMosaic.TcCoe Idealize.SL.Sem

variable {F : FTy → Type} [FloatOps F]

/-- @main's operations through the scatter that gives every point its group, in order. -/
abbrev preOps : List (HloOp τ sig (Elt F)) :=
  List.flatten [main_part0_ops0, main_part0_ops1, main_part0_ops2, main_part0_ops3, main_part0_ops4, main_part0_ops5,
    main_part0_ops6, main_part0_ops7, main_part0_ops8, main_part0_ops9, main_part0_ops10, main_part0_ops11,
    main_part0_ops12, main_part0_ops13, main_part0_ops14, main_part0_ops15, main_part0_ops16, main_part0_ops17,
    main_part0_ops18, main_part1_pre]

/-- Core `c`'s buffer contents after them, read at a TensorCore reference. -/
abbrev W (m : (ℓ : Loc nD τ sig) → Buf (Elt F) ℓ) (c : Dev nD) (b : Ref sig .tc) : Buf (Elt F) ((c : Thread nD τ).loc b) :=
  StableHlo.after preOps (StableHlo.launchContents m c) (Proc.devRef .tc b)

/-- The first window of @main is its nineteen stretches in order, the last in tail position. -/
theorem main_part0_chain (c : Dev nD) : main_part0 (F := F) c = (Pipeline.chainK
  [ StableHlo.seq main_part0_ops0, StableHlo.seq main_part0_ops1, StableHlo.seq main_part0_ops2, StableHlo.seq main_part0_ops3,
    StableHlo.seq main_part0_ops4, StableHlo.seq main_part0_ops5, StableHlo.seq main_part0_ops6, StableHlo.seq main_part0_ops7,
    StableHlo.seq main_part0_ops8, StableHlo.seq main_part0_ops9, StableHlo.seq main_part0_ops10, StableHlo.seq main_part0_ops11,
    StableHlo.seq main_part0_ops12, StableHlo.seq main_part0_ops13, StableHlo.seq main_part0_ops14, StableHlo.seq main_part0_ops15,
    StableHlo.seq main_part0_ops16, StableHlo.seq main_part0_ops17 ]
  (StableHlo.seq main_part0_ops18) : Prog (TpuEff nD τ sig (Elt F) (Pipeline.Sig Λ₀ (Fin 0) fun p => (pcfgs (F := F) p).Adm) .tc) PUnit) := by
  chain_rfl

/-- The second window is its two stretches in order. -/
theorem main_part1_chain (c : Dev nD) : main_part1 (F := F) c = (Pipeline.chain
  [ StableHlo.seq main_part1_pre, StableHlo.seq main_part1_tail ] : Prog (TpuEff nD τ sig (Elt F) (Pipeline.Sig Λ₀ (Fin 0) fun p => (pcfgs (F := F) p).Adm) .tc) PUnit) := by
  chain_rfl

/-- Stretches run one after the other are their concatenation run as one line. -/
theorem chain_map_seq (L : List (List (HloOp τ sig (Elt F)))) :
    (Pipeline.chain (L.map StableHlo.seq) : Prog (TpuEff nD τ sig (Elt F) (Pipeline.Sig Λ₀ (Fin 0) fun p => (pcfgs (F := F) p).Adm) .tc) PUnit) = StableHlo.seq L.flatten := by
  induction L with
  | nil => rfl
  | cons l L ih => rw [List.map_cons, Pipeline.chain_cons, ih, List.flatten_cons, StableHlo.seq_append]

/-- @main is the straight line of the shared opening's operations followed by the tail's. -/
theorem main_eq (c : Dev nD) : main (F := F) c = StableHlo.seq (preOps ++ main_part1_tail) := by
  show (main_part0 (F := F) c >>= fun _ => main_part1 (F := F) c) = _
  rw [main_part1_chain, main_part0_chain, Pipeline.chainK_bind_chain]
  have h := chain_map_seq (F := F) ([main_part0_ops0, main_part0_ops1, main_part0_ops2, main_part0_ops3, main_part0_ops4, main_part0_ops5,
    main_part0_ops6, main_part0_ops7, main_part0_ops8, main_part0_ops9, main_part0_ops10, main_part0_ops11,
    main_part0_ops12, main_part0_ops13, main_part0_ops14, main_part0_ops15, main_part0_ops16, main_part0_ops17,
    main_part0_ops18, main_part1_pre] ++ [main_part1_tail])
  rw [List.flatten_append, List.flatten_cons (l := main_part1_tail), List.flatten_nil, List.append_nil] at h
  exact h

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- What holds of every operation of every stretch holds of every operation of their concatenation. -/
theorem forall_flatten {α : Type} {p : α → Prop} : ∀ (L : List (List α)), (L.Forall fun l => l.Forall p) → L.flatten.Forall p
  | [], _ => trivial
  | l :: L, h => by
    rw [List.flatten_cons, List.forall_append]
    exact ⟨((List.forall_cons _ _ _).1 h).1, forall_flatten L ((List.forall_cons _ _ _).1 h).2⟩

/-- No operation allocates: each determines its results. -/
theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part0_ops5_fresh : (main_part0_ops5 : List (HloOp τ sig (Elt F))).Forall fun op => op.fresh = ∅ := by
  simp only [List.Forall]; repeat' constructor
theorem main_part0_ops6_fresh : (main_part0_ops6 : List (HloOp τ sig (Elt F))).Forall fun op => op.fresh = ∅ := by
  simp only [List.Forall]; repeat' constructor
theorem main_part0_ops7_fresh : (main_part0_ops7 : List (HloOp τ sig (Elt F))).Forall fun op => op.fresh = ∅ := by
  simp only [List.Forall]; repeat' constructor
theorem main_part0_ops8_fresh : (main_part0_ops8 : List (HloOp τ sig (Elt F))).Forall fun op => op.fresh = ∅ := by
  simp only [List.Forall]; repeat' constructor
theorem main_part0_ops9_fresh : (main_part0_ops9 : List (HloOp τ sig (Elt F))).Forall fun op => op.fresh = ∅ := by
  simp only [List.Forall]; repeat' constructor
theorem main_part0_ops10_fresh : (main_part0_ops10 : List (HloOp τ sig (Elt F))).Forall fun op => op.fresh = ∅ := by
  simp only [List.Forall]; repeat' constructor
theorem main_part0_ops11_fresh : (main_part0_ops11 : List (HloOp τ sig (Elt F))).Forall fun op => op.fresh = ∅ := by
  simp only [List.Forall]; repeat' constructor
theorem main_part0_ops12_fresh : (main_part0_ops12 : List (HloOp τ sig (Elt F))).Forall fun op => op.fresh = ∅ := by
  simp only [List.Forall]; repeat' constructor
theorem main_part0_ops13_fresh : (main_part0_ops13 : List (HloOp τ sig (Elt F))).Forall fun op => op.fresh = ∅ := by
  simp only [List.Forall]; repeat' constructor
theorem main_part0_ops14_fresh : (main_part0_ops14 : List (HloOp τ sig (Elt F))).Forall fun op => op.fresh = ∅ := by
  simp only [List.Forall]; repeat' constructor
theorem main_part0_ops15_fresh : (main_part0_ops15 : List (HloOp τ sig (Elt F))).Forall fun op => op.fresh = ∅ := by
  simp only [List.Forall]; repeat' constructor
theorem main_part0_ops16_fresh : (main_part0_ops16 : List (HloOp τ sig (Elt F))).Forall fun op => op.fresh = ∅ := by
  simp only [List.Forall]; repeat' constructor
theorem main_part0_ops17_fresh : (main_part0_ops17 : List (HloOp τ sig (Elt F))).Forall fun op => op.fresh = ∅ := by
  simp only [List.Forall]; repeat' constructor
theorem main_part0_ops18_fresh : (main_part0_ops18 : List (HloOp τ sig (Elt F))).Forall fun op => op.fresh = ∅ := by
  simp only [List.Forall]; repeat' constructor
theorem main_part1_pre_fresh : (main_part1_pre : List (HloOp τ sig (Elt F))).Forall fun op => op.fresh = ∅ := by
  simp only [List.Forall]; repeat' constructor
theorem main_part1_tail_fresh : (main_part1_tail : List (HloOp τ sig (Elt F))).Forall fun op => op.fresh = ∅ := by
  simp only [List.Forall]; repeat' constructor

/-- Every operation of the shared opening touches TensorCore references only. -/
theorem preOps_sub : (preOps : List (HloOp τ sig (Elt F))).Forall fun op => op.bufs ⊆ StableHlo.tcRefs τ sig :=
  forall_flatten _ ⟨main_part0_ops0_sub, main_part0_ops1_sub, main_part0_ops2_sub, main_part0_ops3_sub, main_part0_ops4_sub, main_part0_ops5_sub, main_part0_ops6_sub, main_part0_ops7_sub, main_part0_ops8_sub, main_part0_ops9_sub, main_part0_ops10_sub, main_part0_ops11_sub, main_part0_ops12_sub, main_part0_ops13_sub, main_part0_ops14_sub, main_part0_ops15_sub, main_part0_ops16_sub, main_part0_ops17_sub, main_part0_ops18_sub, main_part1_pre_sub⟩
theorem preOps_fresh : (preOps : List (HloOp τ sig (Elt F))).Forall fun op => op.fresh = ∅ :=
  forall_flatten _ ⟨main_part0_ops0_fresh, main_part0_ops1_fresh, main_part0_ops2_fresh, main_part0_ops3_fresh, main_part0_ops4_fresh, main_part0_ops5_fresh, main_part0_ops6_fresh, main_part0_ops7_fresh, main_part0_ops8_fresh, main_part0_ops9_fresh, main_part0_ops10_fresh, main_part0_ops11_fresh, main_part0_ops12_fresh, main_part0_ops13_fresh, main_part0_ops14_fresh, main_part0_ops15_fresh, main_part0_ops16_fresh, main_part0_ops17_fresh, main_part0_ops18_fresh, main_part1_pre_fresh⟩

theorem ops_sub : (preOps ++ main_part1_tail : List (HloOp τ sig (Elt F))).Forall fun op => op.bufs ⊆ StableHlo.tcRefs τ sig :=
  List.forall_append.2 ⟨preOps_sub, main_part1_tail_sub⟩
theorem ops_fresh : ∀ op ∈ (preOps ++ main_part1_tail : List (HloOp τ sig (Elt F))), op.fresh = ∅ :=
  List.forall_iff_forall_mem.1 (List.forall_append.2 ⟨preOps_fresh, main_part1_tail_fresh⟩)

/-- Every weakly fair execution of @main terminates with every buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (preOps ++ main_part1_tail) (StableHlo.launchContents m c) (Proc.devRef .tc b) :=
  StableHlo.run_seq scopedRefs_eq scopedSems_eq defs main (fun _ => preOps ++ main_part1_tail) main_eq (fun _ => ops_sub) m ρ
    (fun _ => ops_fresh)

/-- Two lines' fold is the second's over the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, StableHlo.after_cons, StableHlo.after_cons, ih]

/-- No operation of the shared opening writes an argument. -/
theorem main_part0_ops0_keeps : (main_part0_ops0 : List (HloOp τ sig (Elt F))).Forall fun op =>
    Proc.devRef .tc main_arg0 ∉ op.writes ∧ Proc.devRef .tc main_arg1 ∉ op.writes := by
  simp only [main_part0_ops0, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops1_keeps : (main_part0_ops1 : List (HloOp τ sig (Elt F))).Forall fun op =>
    Proc.devRef .tc main_arg0 ∉ op.writes ∧ Proc.devRef .tc main_arg1 ∉ op.writes := by
  simp only [main_part0_ops1, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops2_keeps : (main_part0_ops2 : List (HloOp τ sig (Elt F))).Forall fun op =>
    Proc.devRef .tc main_arg0 ∉ op.writes ∧ Proc.devRef .tc main_arg1 ∉ op.writes := by
  simp only [main_part0_ops2, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops3_keeps : (main_part0_ops3 : List (HloOp τ sig (Elt F))).Forall fun op =>
    Proc.devRef .tc main_arg0 ∉ op.writes ∧ Proc.devRef .tc main_arg1 ∉ op.writes := by
  simp only [main_part0_ops3, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops4_keeps : (main_part0_ops4 : List (HloOp τ sig (Elt F))).Forall fun op =>
    Proc.devRef .tc main_arg0 ∉ op.writes ∧ Proc.devRef .tc main_arg1 ∉ op.writes := by
  simp only [main_part0_ops4, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops5_keeps : (main_part0_ops5 : List (HloOp τ sig (Elt F))).Forall fun op =>
    Proc.devRef .tc main_arg0 ∉ op.writes ∧ Proc.devRef .tc main_arg1 ∉ op.writes := by
  simp only [main_part0_ops5, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops6_keeps : (main_part0_ops6 : List (HloOp τ sig (Elt F))).Forall fun op =>
    Proc.devRef .tc main_arg0 ∉ op.writes ∧ Proc.devRef .tc main_arg1 ∉ op.writes := by
  simp only [main_part0_ops6, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops7_keeps : (main_part0_ops7 : List (HloOp τ sig (Elt F))).Forall fun op =>
    Proc.devRef .tc main_arg0 ∉ op.writes ∧ Proc.devRef .tc main_arg1 ∉ op.writes := by
  simp only [main_part0_ops7, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops8_keeps : (main_part0_ops8 : List (HloOp τ sig (Elt F))).Forall fun op =>
    Proc.devRef .tc main_arg0 ∉ op.writes ∧ Proc.devRef .tc main_arg1 ∉ op.writes := by
  simp only [main_part0_ops8, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops9_keeps : (main_part0_ops9 : List (HloOp τ sig (Elt F))).Forall fun op =>
    Proc.devRef .tc main_arg0 ∉ op.writes ∧ Proc.devRef .tc main_arg1 ∉ op.writes := by
  simp only [main_part0_ops9, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops10_keeps : (main_part0_ops10 : List (HloOp τ sig (Elt F))).Forall fun op =>
    Proc.devRef .tc main_arg0 ∉ op.writes ∧ Proc.devRef .tc main_arg1 ∉ op.writes := by
  simp only [main_part0_ops10, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops11_keeps : (main_part0_ops11 : List (HloOp τ sig (Elt F))).Forall fun op =>
    Proc.devRef .tc main_arg0 ∉ op.writes ∧ Proc.devRef .tc main_arg1 ∉ op.writes := by
  simp only [main_part0_ops11, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops12_keeps : (main_part0_ops12 : List (HloOp τ sig (Elt F))).Forall fun op =>
    Proc.devRef .tc main_arg0 ∉ op.writes ∧ Proc.devRef .tc main_arg1 ∉ op.writes := by
  simp only [main_part0_ops12, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops13_keeps : (main_part0_ops13 : List (HloOp τ sig (Elt F))).Forall fun op =>
    Proc.devRef .tc main_arg0 ∉ op.writes ∧ Proc.devRef .tc main_arg1 ∉ op.writes := by
  simp only [main_part0_ops13, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops14_keeps : (main_part0_ops14 : List (HloOp τ sig (Elt F))).Forall fun op =>
    Proc.devRef .tc main_arg0 ∉ op.writes ∧ Proc.devRef .tc main_arg1 ∉ op.writes := by
  simp only [main_part0_ops14, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops15_keeps : (main_part0_ops15 : List (HloOp τ sig (Elt F))).Forall fun op =>
    Proc.devRef .tc main_arg0 ∉ op.writes ∧ Proc.devRef .tc main_arg1 ∉ op.writes := by
  simp only [main_part0_ops15, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops16_keeps : (main_part0_ops16 : List (HloOp τ sig (Elt F))).Forall fun op =>
    Proc.devRef .tc main_arg0 ∉ op.writes ∧ Proc.devRef .tc main_arg1 ∉ op.writes := by
  simp only [main_part0_ops16, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops17_keeps : (main_part0_ops17 : List (HloOp τ sig (Elt F))).Forall fun op =>
    Proc.devRef .tc main_arg0 ∉ op.writes ∧ Proc.devRef .tc main_arg1 ∉ op.writes := by
  simp only [main_part0_ops17, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part0_ops18_keeps : (main_part0_ops18 : List (HloOp τ sig (Elt F))).Forall fun op =>
    Proc.devRef .tc main_arg0 ∉ op.writes ∧ Proc.devRef .tc main_arg1 ∉ op.writes := by
  simp only [main_part0_ops18, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem main_part1_pre_keeps : (main_part1_pre : List (HloOp τ sig (Elt F))).Forall fun op =>
    Proc.devRef .tc main_arg0 ∉ op.writes ∧ Proc.devRef .tc main_arg1 ∉ op.writes := by
  simp only [main_part1_pre, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)
theorem preOps_keeps : (preOps : List (HloOp τ sig (Elt F))).Forall fun op =>
    Proc.devRef .tc main_arg0 ∉ op.writes ∧ Proc.devRef .tc main_arg1 ∉ op.writes :=
  forall_flatten _ ⟨main_part0_ops0_keeps, main_part0_ops1_keeps, main_part0_ops2_keeps, main_part0_ops3_keeps, main_part0_ops4_keeps, main_part0_ops5_keeps, main_part0_ops6_keeps, main_part0_ops7_keeps, main_part0_ops8_keeps, main_part0_ops9_keeps, main_part0_ops10_keeps, main_part0_ops11_keeps, main_part0_ops12_keeps, main_part0_ops13_keeps, main_part0_ops14_keeps, main_part0_ops15_keeps, main_part0_ops16_keeps, main_part0_ops17_keeps, main_part0_ops18_keeps, main_part1_pre_keeps⟩

/-- No operation of the tail writes the first result or an argument. -/
theorem main_part1_tail_keeps : (main_part1_tail : List (HloOp τ sig (Elt F))).Forall fun op =>
    Proc.devRef .tc main_v42 ∉ op.writes ∧ Proc.devRef .tc main_arg0 ∉ op.writes ∧ Proc.devRef .tc main_arg1 ∉ op.writes := by
  simp only [main_part1_tail, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)

/-- The shared opening leaves the features as launched. -/
theorem pre_arg0 (V : Valuation τ sig (Elt F)) :
    StableHlo.after preOps V (Proc.devRef .tc main_arg0) = V (Proc.devRef .tc main_arg0) :=
  StableHlo.after_of_forall_not_mem _ _ fun op hop => ((List.forall_iff_forall_mem.1 preOps_keeps) op hop).1
theorem pre_arg1 (V : Valuation τ sig (Elt F)) :
    StableHlo.after preOps V (Proc.devRef .tc main_arg1) = V (Proc.devRef .tc main_arg1) :=
  StableHlo.after_of_forall_not_mem _ _ fun op hop => ((List.forall_iff_forall_mem.1 preOps_keeps) op hop).2

/-- The tail leaves the first result and the arguments as it finds them. -/
theorem tail_v42 (A : Valuation τ sig (Elt F)) :
    StableHlo.after main_part1_tail A (Proc.devRef .tc main_v42) = A (Proc.devRef .tc main_v42) :=
  StableHlo.after_of_forall_not_mem _ _ fun op hop => ((List.forall_iff_forall_mem.1 main_part1_tail_keeps) op hop).1
theorem tail_arg0 (A : Valuation τ sig (Elt F)) :
    StableHlo.after main_part1_tail A (Proc.devRef .tc main_arg0) = A (Proc.devRef .tc main_arg0) :=
  StableHlo.after_of_forall_not_mem _ _ fun op hop => ((List.forall_iff_forall_mem.1 main_part1_tail_keeps) op hop).2.1
theorem tail_arg1 (A : Valuation τ sig (Elt F)) :
    StableHlo.after main_part1_tail A (Proc.devRef .tc main_arg1) = A (Proc.devRef .tc main_arg1) :=
  StableHlo.after_of_forall_not_mem _ _ fun op hop => ((List.forall_iff_forall_mem.1 main_part1_tail_keeps) op hop).2.2

/-- The tail's fold at the second result is `out` of the features, the groups and the slots as it finds them. -/
theorem tail_v78 (A : Valuation τ sig (Elt F)) :
    StableHlo.after main_part1_tail A (Proc.devRef .tc main_v78)
      = out (A (Proc.devRef .tc main_arg0)) (A (Proc.devRef .tc main_v53)) (A (Proc.devRef .tc main_v13)) := by
  after_results_simp
  rfl

/-- Every weakly fair execution of the reference's @main terminates; its first result is what the shared opening
    leaves in `main_v42`, its second `out` of the features, the groups and the slots; the arguments end unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v42) = W m c main_v42
      ∧ r.2.mem ((c.tc : Thread nD τ).loc main_v78)
          = out (m ((c.tc : Thread nD τ).loc main_arg0)) (W m c main_v53) (W m c main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v42).trans (by rw [after_append, tail_v42]),
       (h c main_v78).trans (by rw [after_append, tail_v78, pre_arg0]),
       (h c main_arg0).trans (by rw [after_append, tail_arg0, pre_arg0]),
       (h c main_arg1).trans (by rw [after_append, tail_arg1, pre_arg1])⟩)
    (run_all m ρ)

end Cert.ReferenceIdeal.Tail

end
-- ==== Proof.PrefixAgree.lean ====
/-
  The two programs open with the same host operations on the same argument (the coarse voxel of every point, its
  slot inside the voxel, the sort and the marks that number the distinct voxels): from memories that agree on the
  coordinates they leave the same three values — the distinct voxels (`main_v42`), every point's group
  (`main_v53`) and its slot (`main_v13`).
-/
import proofs.«420124_j8804682957047_3_alg».proof.Proof.Gen.KernelIdeal.Frame
import Idealize.ShloMosaic.PureOps.Ideal
import proofs.«420124_j8804682957047_3_alg».proof.Proof.RRun

noncomputable section

namespace Cert.Prefix

open Idealize.ShloMosaic Idealize.ShloMosaic.TcCoe Idealize.SL.Sem

attribute [local irreducible] Host.sort4 Host.gather Host.scatter Host.reduce Host.reduceWindow in
set_option maxHeartbeats 4000000 in
set_option maxRecDepth 8192 in
/-- The agreement at any float values: each side's fold over its literal list of operations, read at a buffer, is a
    composition of the operations' functions applied to the coordinates (every other buffer read on the way was
    written earlier in the list; the kernel program's own later lines write none of the three buffers). The two
    compositions are the same term once the coordinates are one variable: the records of the gathers, the scatters and
    the comparator have equal bodies in the two programs, the shapes are the same literals, and the side conditions are
    proofs. The sort, the gathers, the scatters, the reductions and the windowed sums are compared at their arguments
    only. -/
theorem agree_at {F : FTy → Type} [FloatOps F]
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h : m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)) :
    Cert.ReferenceIdeal.Tail.W m' c Cert.ReferenceIdeal.main_v42 = Cert.KernelIdeal.Gen.V m c Cert.KernelIdeal.main_v42
    ∧ Cert.ReferenceIdeal.Tail.W m' c Cert.ReferenceIdeal.main_v53 = Cert.KernelIdeal.Gen.V m c Cert.KernelIdeal.main_v53
    ∧ Cert.ReferenceIdeal.Tail.W m' c Cert.ReferenceIdeal.main_v13 = Cert.KernelIdeal.Gen.V m c Cert.KernelIdeal.main_v13 := by
  dsimp only [Cert.ReferenceIdeal.Tail.W, Cert.ReferenceIdeal.Tail.preOps, Cert.KernelIdeal.Gen.V, Cert.KernelIdeal.Gen.V0]
  simp only [Cert.ReferenceIdeal.Ops.main_part0_ops0, Cert.ReferenceIdeal.Ops.main_part0_ops1, Cert.ReferenceIdeal.Ops.main_part0_ops2, Cert.ReferenceIdeal.Ops.main_part0_ops3, Cert.ReferenceIdeal.Ops.main_part0_ops4, Cert.ReferenceIdeal.Ops.main_part0_ops5, Cert.ReferenceIdeal.Ops.main_part0_ops6, Cert.ReferenceIdeal.Ops.main_part0_ops7, Cert.ReferenceIdeal.Ops.main_part0_ops8, Cert.ReferenceIdeal.Ops.main_part0_ops9, Cert.ReferenceIdeal.Ops.main_part0_ops10, Cert.ReferenceIdeal.Ops.main_part0_ops11, Cert.ReferenceIdeal.Ops.main_part0_ops12, Cert.ReferenceIdeal.Ops.main_part0_ops13, Cert.ReferenceIdeal.Ops.main_part0_ops14, Cert.ReferenceIdeal.Ops.main_part0_ops15, Cert.ReferenceIdeal.Ops.main_part0_ops16, Cert.ReferenceIdeal.Ops.main_part0_ops17, Cert.ReferenceIdeal.Ops.main_part0_ops18, Cert.ReferenceIdeal.Ops.main_part1_pre,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20,
    List.flatten_cons, List.flatten_nil, List.append_nil, List.cons_append, List.nil_append]
  after_results_simp
  have h' : StableHlo.launchContents m' c (Proc.devRef .tc Cert.ReferenceIdeal.main_arg1)
      = m (c, Proc.devRef .tc Cert.KernelIdeal.main_arg1) := h
  rw [h']
  generalize m (c, Proc.devRef .tc Cert.KernelIdeal.main_arg1) = x
  exact ⟨rfl, rfl, rfl⟩

/-- From memories that agree on the coordinates, the shared opening leaves the same distinct voxels, groups and
    slots in both programs. -/
theorem agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)) :
    Cert.ReferenceIdeal.Tail.W m' c Cert.ReferenceIdeal.main_v42 = Cert.KernelIdeal.Gen.V m c Cert.KernelIdeal.main_v42
    ∧ Cert.ReferenceIdeal.Tail.W m' c Cert.ReferenceIdeal.main_v53 = Cert.KernelIdeal.Gen.V m c Cert.KernelIdeal.main_v53
    ∧ Cert.ReferenceIdeal.Tail.W m' c Cert.ReferenceIdeal.main_v13 = Cert.KernelIdeal.Gen.V m c Cert.KernelIdeal.main_v13 :=
  agree_at m m' c h

end Cert.Prefix

end
-- ==== Proof.ScatterFold.lean ====
/-
  A host scatter is a left fold over the update positions in row-major order. What the fold leaves in ONE cell:
  nothing new where no update lands; under "write" the last update that lands there; under a signed maximum
  the largest of the cell's first content and the updates that land there.
-/
import Idealize.ShloMosaic.PureOps.ShapeOps
import Mathlib.Data.List.Sort

namespace Cert.ScatterFold

open Idealize.ShloMosaic

variable {α : Type} {s si u : Shape} {w : Nat}

/-! ### The fold over an arbitrary list of positions

  Position `n` lands on the cell `g n` (if any) and carries the update `v n`. -/

section Fold
variable {ι : Type} [DecidableEq ι] {N : Nat}

/-- One step of the fold: position `n` combines its update into the cell it lands on, if it lands on one. -/
private def step (f : α → α → α) (g : Fin N → Option ι) (v : Fin N → α) (r : ι → α) (n : Fin N) : ι → α :=
  match g n with
  | some i => fun i' => if i' = i then f (r i) (v n) else r i'
  | none => r

/-- A step that does not land on the cell leaves it. -/
private theorem step_miss (f : α → α → α) (g : Fin N → Option ι) (v : Fin N → α) (r : ι → α) (n : Fin N) (i : ι)
    (h : g n ≠ some i) : step f g v r n i = r i := by
  unfold step
  cases hg : g n with
  | none => rfl
  | some k =>
    have hik : i ≠ k := fun e => h (by rw [hg, e])
    simp [hik]

/-- A step that lands on the cell combines its update into it. -/
private theorem step_hit (f : α → α → α) (g : Fin N → Option ι) (v : Fin N → α) (r : ι → α) (n : Fin N) (i : ι)
    (h : g n = some i) : step f g v r n i = f (r i) (v n) := by
  unfold step
  rw [h]
  simp

/-- Steps none of which lands on the cell leave it. -/
private theorem fold_miss (f : α → α → α) (g : Fin N → Option ι) (v : Fin N → α) (i : ι) (L : List (Fin N))
    (h : ∀ n ∈ L, g n ≠ some i) (r : ι → α) : L.foldl (step f g v) r i = r i := by
  induction L generalizing r with
  | nil => rfl
  | cons a L ih =>
    rw [List.foldl_cons, ih (fun n hn => h n (List.mem_cons_of_mem _ hn)),
      step_miss f g v r a i (h a (by simp))]

/-- Under "write": after the step at a position that lands on the cell, followed only by steps that do not,
    the cell holds that position's update. -/
private theorem fold_set_last (g : Fin N → Option ι) (v : Fin N → α) (i : ι) (l₁ l₂ : List (Fin N)) (n₀ : Fin N)
    (h₀ : g n₀ = some i) (h₂ : ∀ n ∈ l₂, g n ≠ some i) (r : ι → α) :
    (l₁ ++ n₀ :: l₂).foldl (step (fun _ b => b) g v) r i = v n₀ := by
  rw [List.foldl_append, List.foldl_cons, fold_miss _ g v i l₂ h₂, step_hit _ g v _ n₀ i h₀]

/-- Under "write": a property of every first content and every update holds of every cell after the fold. -/
private theorem fold_set_all (g : Fin N → Option ι) (v : Fin N → α) (P : α → Prop) (hv : ∀ n, P (v n))
    (L : List (Fin N)) (r : ι → α) (hr : ∀ i, P (r i)) (i : ι) :
    P (L.foldl (step (fun _ b => b) g v) r i) := by
  induction L generalizing r with
  | nil => exact hr i
  | cons a L ih =>
    rw [List.foldl_cons]
    apply ih
    intro k
    by_cases hk : g a = some k
    · rw [step_hit _ g v r a k hk]; exact hv a
    · rw [step_miss _ g v r a k hk]; exact hr k

end Fold

/-! ### The signed maximum -/

private theorem le_maxsi_left (a b : BitVec 32) : a.toInt ≤ (IntOp.maxsi a b).toInt := by
  unfold IntOp.maxsi
  split
  · exact Int.le_refl _
  · next h => rw [BitVec.slt_iff_toInt_lt] at h; omega

private theorem le_maxsi_right (a b : BitVec 32) : b.toInt ≤ (IntOp.maxsi a b).toInt := by
  unfold IntOp.maxsi
  split
  · next h => rw [BitVec.slt_iff_toInt_lt] at h; omega
  · exact Int.le_refl _

private theorem maxsi_eq_or (a b : BitVec 32) : IntOp.maxsi a b = a ∨ IntOp.maxsi a b = b := by
  unfold IntOp.maxsi
  split
  · exact Or.inl rfl
  · exact Or.inr rfl

section FoldMax
variable {ι : Type} [DecidableEq ι] {N : Nat}

/-- Under the signed maximum a cell never decreases along the fold. -/
private theorem fold_maxsi_init_le (g : Fin N → Option ι) (v : Fin N → BitVec 32) (i : ι) (L : List (Fin N))
    (r : ι → BitVec 32) : (r i).toInt ≤ (L.foldl (step IntOp.maxsi g v) r i).toInt := by
  induction L generalizing r with
  | nil => exact Int.le_refl _
  | cons a L ih =>
    rw [List.foldl_cons]
    refine Int.le_trans ?_ (ih _)
    by_cases hk : g a = some i
    · rw [step_hit _ g v r a i hk]; exact le_maxsi_left _ _
    · rw [step_miss _ g v r a i hk]

/-- Under the signed maximum a cell ends at least as large as every update that lands on it. -/
private theorem fold_maxsi_ge (g : Fin N → Option ι) (v : Fin N → BitVec 32) (i : ι) (L : List (Fin N)) (n : Fin N)
    (hn : n ∈ L) (h : g n = some i) (r : ι → BitVec 32) :
    (v n).toInt ≤ (L.foldl (step IntOp.maxsi g v) r i).toInt := by
  induction L generalizing r with
  | nil => cases hn
  | cons a L ih =>
    rw [List.foldl_cons]
    rcases List.mem_cons.1 hn with e | hn'
    · subst e
      refine Int.le_trans ?_ (fold_maxsi_init_le g v i L _)
      rw [step_hit _ g v r n i h]; exact le_maxsi_right _ _
    · exact ih hn' _

/-- Under the signed maximum a cell ends as its first content or as one of the updates that land on it. -/
private theorem fold_maxsi_mem (g : Fin N → Option ι) (v : Fin N → BitVec 32) (i : ι) (L : List (Fin N))
    (r : ι → BitVec 32) :
    L.foldl (step IntOp.maxsi g v) r i = r i
      ∨ ∃ n ∈ L, g n = some i ∧ L.foldl (step IntOp.maxsi g v) r i = v n := by
  induction L generalizing r with
  | nil => exact Or.inl rfl
  | cons a L ih =>
    rw [List.foldl_cons]
    rcases ih (step IntOp.maxsi g v r a) with h | ⟨n, hn, hg, h⟩
    · by_cases hk : g a = some i
      · rw [step_hit _ g v r a i hk] at h
        rcases maxsi_eq_or (r i) (v a) with e | e
        · left; rw [h, e]
        · right; exact ⟨a, by simp, hk, by rw [h, e]⟩
      · rw [step_miss _ g v r a i hk] at h
        left; exact h
    · right; exact ⟨n, List.mem_cons_of_mem _ hn, hg, h⟩

end FoldMax

/-! ### The host scatter is that fold over all positions in increasing order -/

private theorem scatter_eq (d : ScatterDims s si u) (f : α → α → α) (x : s.Idx → α) (idx : IVec si w)
    (upd : u.Idx → α) :
    Host.scatter d f x idx upd
      = (List.finRange u.numel).foldl
          (step f (fun n => d.resultIdx? (u.rowMajor.symm n) idx) (fun n => upd (u.rowMajor.symm n))) x := by
  unfold Host.scatter
  congr 1
  funext r n
  unfold step
  beta_reduce
  cases d.resultIdx? (u.rowMajor.symm n) idx <;> rfl

/-- A cell no update lands on keeps the operand's content, whatever the combining function. -/
theorem scatter_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [scatter_eq]
  exact fold_miss f _ _ i _ (fun n _ => h (u.rowMajor.symm n)) x

/-- Under "write", a cell holds the update that lands on it LAST in row-major order of the updates. -/
theorem scatter_set_last (d : ScatterDims s si u) (x : s.Idx → α) (idx : IVec si w) (upd : u.Idx → α)
    (i : s.Idx) (j₀ : u.Idx) (h₀ : d.resultIdx? j₀ idx = some i)
    (hlast : ∀ j : u.Idx, d.resultIdx? j idx = some i → (u.rowMajor j).val ≤ (u.rowMajor j₀).val) :
    Host.scatter d (fun _ b => b) x idx upd i = upd j₀ := by
  rw [scatter_eq]
  obtain ⟨l₁, l₂, hL⟩ := List.append_of_mem (List.mem_finRange (u.rowMajor j₀))
  have hp : (List.finRange u.numel).Pairwise (· < ·) := (List.sortedLT_finRange _).pairwise
  rw [hL] at hp ⊢
  have hgt : ∀ n ∈ l₂, u.rowMajor j₀ < n := (List.pairwise_cons.1 (List.pairwise_append.1 hp).2.1).1
  have e := fold_set_last (fun n => d.resultIdx? (u.rowMajor.symm n) idx) (fun n => upd (u.rowMajor.symm n)) i l₁ l₂
    (u.rowMajor j₀) (by simpa using h₀)
    (fun n hn hg => by
      have hle := hlast (u.rowMajor.symm n) hg
      rw [Equiv.apply_symm_apply] at hle
      have hlt := hgt n hn
      rw [Fin.lt_def] at hlt
      omega) x
  rw [e, Equiv.symm_apply_apply]

/-- Under "write", every cell holds an operand entry or an update entry: a property of all of those holds of it. -/
theorem scatter_set_all (d : ScatterDims s si u) (x : s.Idx → α) (idx : IVec si w) (upd : u.Idx → α) (P : α → Prop)
    (hx : ∀ i, P (x i)) (hu : ∀ j, P (upd j)) (i : s.Idx) : P (Host.scatter d (fun _ b => b) x idx upd i) := by
  rw [scatter_eq]
  exact fold_set_all _ _ P (fun n => hu _) _ x hx i

/-- Under the signed maximum, a cell is at least every update that lands on it, -/
theorem scatter_maxsi_ge (d : ScatterDims s si u) (x : s.Idx → BitVec 32) (idx : IVec si w) (upd : u.Idx → BitVec 32)
    (i : s.Idx) (j : u.Idx) (h : d.resultIdx? j idx = some i) :
    (upd j).toInt ≤ (Host.scatter d IntOp.maxsi x idx upd i).toInt := by
  rw [scatter_eq]
  have e := fold_maxsi_ge (fun n => d.resultIdx? (u.rowMajor.symm n) idx) (fun n => upd (u.rowMajor.symm n)) i
    (List.finRange u.numel) (u.rowMajor j) (List.mem_finRange _) (by simpa using h) x
  simpa using e

/-- at least its first content, -/
theorem scatter_maxsi_init_le (d : ScatterDims s si u) (x : s.Idx → BitVec 32) (idx : IVec si w) (upd : u.Idx → BitVec 32)
    (i : s.Idx) : (x i).toInt ≤ (Host.scatter d IntOp.maxsi x idx upd i).toInt := by
  rw [scatter_eq]
  exact fold_maxsi_init_le _ _ i _ x

/-- and one of them. -/
theorem scatter_maxsi_mem (d : ScatterDims s si u) (x : s.Idx → BitVec 32) (idx : IVec si w) (upd : u.Idx → BitVec 32)
    (i : s.Idx) :
    Host.scatter d IntOp.maxsi x idx upd i = x i
      ∨ ∃ j : u.Idx, d.resultIdx? j idx = some i ∧ Host.scatter d IntOp.maxsi x idx upd i = upd j := by
  rw [scatter_eq]
  rcases fold_maxsi_mem (fun n => d.resultIdx? (u.rowMajor.symm n) idx) (fun n => upd (u.rowMajor.symm n)) i
    (List.finRange u.numel) x with h | ⟨n, _, hg, h⟩
  · exact Or.inl h
  · exact Or.inr ⟨u.rowMajor.symm n, hg, h⟩

end Cert.ScatterFold
-- ==== Proof.PrefixRange.lean ====
/-
  Two facts about what the host lines before the region leave, as the kernel program's region finds them. A
  point's group is an entry of a scatter-write of (running count of marks) - 1 into zeros; a running count of at
  most 500000 marks, each 0 or 1, lies in [0, 500000], so a group lies in [-1, 500000) and in particular in
  [-500000, 500000). A point's slot is 4a + 2b + c of the three remainders modulo 2 of its coordinates, each
  0 or 1 (the remainder takes the divisor's sign), so it lies in [0, 8).
-/
import proofs.«420124_j8804682957047_3_alg».proof.Proof.Gen.KernelIdeal.Frame
import proofs.«420124_j8804682957047_3_alg».proof.Proof.ScatterFold
import Idealize.ShloMosaic.PureOps.Ideal
import Idealize.ShloMosaic.Lib.WordArith

noncomputable section

namespace Cert.Prefix

open Idealize.ShloMosaic Idealize.ShloMosaic.TcCoe Idealize.SL.Sem

/-! ### Words -/

/-- A one-bit word, zero-extended to 32 bits, reads signed as 0 or 1. -/
private theorem ext_range (x : BitVec 1) : 0 ≤ (x.setWidth 32).toInt ∧ (x.setWidth 32).toInt ≤ 1 := by
  have h : x.toNat < 2 := x.isLt
  have e : (x.setWidth 32).toNat = x.toNat := by
    rw [BitVec.toNat_setWidth]; omega
  rw [BitVec.toInt_eq_toNat_of_lt (by omega), e]
  omega

/-- A left fold of word addition over terms each 0 or 1, from a value in [0, a], stays in [0, a + length]
    while that is below 2^31: no step wraps. -/
private theorem foldl_addi_range {ι : Type} (t : ι → BitVec 32) (ht : ∀ n, 0 ≤ (t n).toInt ∧ (t n).toInt ≤ 1) :
    ∀ (L : List ι) (r : BitVec 32) (a : Nat), 0 ≤ r.toInt → r.toInt ≤ a → a + L.length < 2 ^ 31 →
      0 ≤ (L.foldl (fun r n => IntOp.addi r (t n)) r).toInt
        ∧ (L.foldl (fun r n => IntOp.addi r (t n)) r).toInt ≤ a + L.length
  | [], r, a, h0, h1, _ => by simpa using ⟨h0, h1⟩
  | n :: L, r, a, h0, h1, hb => by
    rw [List.foldl_cons]
    have hn := ht n
    rw [List.length_cons] at hb
    have e : (IntOp.addi r (t n)).toInt = r.toInt + (t n).toInt := by
      unfold IntOp.addi
      exact WordArith.toInt_add_of_bounds _ _ (by omega) (by omega)
    have := foldl_addi_range t ht L (IntOp.addi r (t n)) (a + 1) (by omega) (by push_cast; omega) (by omega)
    rw [List.length_cons]
    push_cast at this ⊢
    omega

/-- A windowed sum of words each 0 or 1, from the initial value 0, over a window of at most N < 2^31 positions,
    reads signed in [0, N]: a position inside the operand adds an operand word, a position in the padding adds 0. -/
private theorem reduceWindow_addi_range {s t u : Shape} (window strides lo hi : Fin s.rank → Nat) (x : IVec s 32)
    (init : u.Idx → BitVec 32) (h : s.ReduceWindows window strides lo hi t) (hu : 0 < u.numel)
    (hx : ∀ k, 0 ≤ (x k).toInt ∧ (x k).toInt ≤ 1) (hinit : init (Shape.Idx.first hu) = 0#32)
    (N : Nat) (hN : (⟨s.rank, window⟩ : Shape).numel ≤ N) (hN' : N < 2 ^ 31) (j : t.Idx) :
    0 ≤ (Host.reduceWindow IntOp.addi window strides lo hi x init h hu j).toInt
      ∧ (Host.reduceWindow IntOp.addi window strides lo hi x init h hu j).toInt ≤ N := by
  unfold Host.reduceWindow
  simp only [hinit]
  have := foldl_addi_range
    (fun n : Fin (⟨s.rank, window⟩ : Shape).numel =>
      if hin : ∀ a, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a
      then x (fun a => ⟨(j (a.cast h.1.symm)).val * strides a + ((⟨s.rank, window⟩ : Shape).rowMajor.symm n a).val - lo a, (hin a).2⟩)
      else 0#32)
    (fun n => by
      dsimp only
      split
      · exact hx _
      · exact ⟨by decide, by decide⟩)
    (List.finRange _) 0#32 0 (by decide) (by decide) (by rw [List.length_finRange]; omega)
  rw [List.length_finRange] at this
  refine ⟨this.1, ?_⟩
  have h2 := this.2
  push_cast at h2
  omega

/-- The signed remainder by 2, moved by the divisor where it is not zero and its sign is not the divisor's, is 0 or 1
    (the remainder itself is -1, 0 or 1; -1 becomes 1). -/
private theorem rem2_fix_range (x d : BitVec 32) (hd : d = 2#32) :
    0 ≤ (Scalar.select (IntOp.andi (IntOp.cmpi .ne (IntOp.cmpi .slt (IntOp.remsi .host x d) 0#32) (IntOp.cmpi .slt d 0#32))
            (IntOp.cmpi .ne (IntOp.remsi .host x d) 0#32))
          (IntOp.addi (IntOp.remsi .host x d) d) (IntOp.remsi .host x d)).toInt
    ∧ (Scalar.select (IntOp.andi (IntOp.cmpi .ne (IntOp.cmpi .slt (IntOp.remsi .host x d) 0#32) (IntOp.cmpi .slt d 0#32))
            (IntOp.cmpi .ne (IntOp.remsi .host x d) 0#32))
          (IntOp.addi (IntOp.remsi .host x d) d) (IntOp.remsi .host x d)).toInt ≤ 1 := by
  subst hd
  have hc : ¬ IntOp.SDivCorner x 2#32 := by
    unfold IntOp.SDivCorner
    rintro (h | ⟨_, h⟩)
    · exact absurd h (by decide)
    · exact absurd h (by decide)
  have hr : IntOp.remsi .host x 2#32 = x.srem 2#32 := by
    unfold IntOp.remsi; rw [if_neg hc]
  rw [hr]
  have ht : (x.srem 2#32).toInt = x.toInt.tmod 2 := by rw [BitVec.toInt_srem]; rfl
  have hcases : x.srem 2#32 = 0#32 ∨ x.srem 2#32 = 1#32 ∨ x.srem 2#32 = 4294967295#32 := by
    rcases Int.tmod_two_eq x.toInt with h | h | h
    · right; right; apply BitVec.eq_of_toInt_eq; rw [ht, h]; rfl
    · left; apply BitVec.eq_of_toInt_eq; rw [ht, h]; rfl
    · right; left; apply BitVec.eq_of_toInt_eq; rw [ht, h]; rfl
  rcases hcases with h | h | h <;> rw [h] <;> decide

/-- 4a + 2b + c of words each 0 or 1 reads signed in [0, 8): no step wraps. -/
private theorem slot_range (a b c : BitVec 32) (ha : 0 ≤ a.toInt ∧ a.toInt ≤ 1) (hb : 0 ≤ b.toInt ∧ b.toInt ≤ 1)
    (hc : 0 ≤ c.toInt ∧ c.toInt ≤ 1) :
    0 ≤ (IntOp.addi (IntOp.addi (IntOp.muli a 4#32) (IntOp.muli b 2#32)) c).toInt
      ∧ (IntOp.addi (IntOp.addi (IntOp.muli a 4#32) (IntOp.muli b 2#32)) c).toInt < 8 := by
  unfold IntOp.addi IntOp.muli
  have h4 : (4#32 : BitVec 32).toInt = 4 := by decide
  have h2 : (2#32 : BitVec 32).toInt = 2 := by decide
  have e1 : (a * 4#32).toInt = a.toInt * 4 := by
    rw [WordArith.toInt_mul_of_bounds _ _ (by rw [h4]; omega) (by rw [h4]; omega), h4]
  have e2 : (b * 2#32).toInt = b.toInt * 2 := by
    rw [WordArith.toInt_mul_of_bounds _ _ (by rw [h2]; omega) (by rw [h2]; omega), h2]
  have e3 : (a * 4#32 + b * 2#32).toInt = a.toInt * 4 + b.toInt * 2 := by
    rw [WordArith.toInt_add_of_bounds _ _ (by rw [e1, e2]; omega) (by rw [e1, e2]; omega), e1, e2]
  have e4 : (a * 4#32 + b * 2#32 + c).toInt = a.toInt * 4 + b.toInt * 2 + c.toInt := by
    rw [WordArith.toInt_add_of_bounds _ _ (by rw [e3]; omega) (by rw [e3]; omega), e3]
  rw [e4]; omega

/-! ### Arrays -/

/-- The same over arrays: 4a + 2b + c, the factors read as constant arrays. -/
private theorem slot_range_vec {s : Shape} (a b c f4 f2 : IVec s 32) (h4 : ∀ i, f4 i = 4#32) (h2 : ∀ i, f2 i = 2#32)
    (ha : ∀ i, 0 ≤ (a i).toInt ∧ (a i).toInt ≤ 1) (hb : ∀ i, 0 ≤ (b i).toInt ∧ (b i).toInt ≤ 1)
    (hc : ∀ i, 0 ≤ (c i).toInt ∧ (c i).toInt ≤ 1) (i : s.Idx) :
    0 ≤ (addi (addi (muli a f4) (muli b f2)) c i).toInt ∧ (addi (addi (muli a f4) (muli b f2)) c i).toInt < 8 := by
  show 0 ≤ (IntOp.addi (IntOp.addi (IntOp.muli (a i) (f4 i)) (IntOp.muli (b i) (f2 i))) (c i)).toInt
    ∧ (IntOp.addi (IntOp.addi (IntOp.muli (a i) (f4 i)) (IntOp.muli (b i) (f2 i))) (c i)).toInt < 8
  rw [h4, h2]
  exact slot_range _ _ _ (ha i) (hb i) (hc i)

/-- Every entry of a slice is an entry of the operand. -/
private theorem slice_all {s t : Shape} {α : Type} (P : α → Prop) (off : Fin s.rank → Nat) (x : s.Idx → α) (h : s.Slices off t)
    (hx : ∀ k, P (x k)) (j : t.Idx) : P (extractStridedSlice t off x h j) := by
  unfold extractStridedSlice; exact hx _

/-- Every entry of a reshaped array is an entry of the operand. -/
private theorem shapeCast_all {s t : Shape} {α : Type} (P : α → Prop) (x : s.Idx → α) (h : s.ShapeCasts t)
    (hx : ∀ k, P (x k)) (j : t.Idx) : P (shapeCast t x h j) := by
  unfold shapeCast; exact hx _

/-- Operations run one list after another are the concatenation run as one. -/
private theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A running count in [0, 500000], less one, reads signed in [-1, 500000): no wrap. -/
private theorem sub_one_range_vec {s : Shape} (a f1 : IVec s 32) (h1 : ∀ i, f1 i = 1#32)
    (ha : ∀ i, 0 ≤ (a i).toInt ∧ (a i).toInt ≤ 500000) (i : s.Idx) :
    -500000 ≤ (subi a f1 i).toInt ∧ (subi a f1 i).toInt < 500000 := by
  show -500000 ≤ (IntOp.subi (a i) (f1 i)).toInt ∧ (IntOp.subi (a i) (f1 i)).toInt < 500000
  rw [h1]
  unfold IntOp.subi
  have h := ha i
  have e1 : (1#32 : BitVec 32).toInt = 1 := by decide
  rw [WordArith.toInt_sub_of_bounds _ _ (by rw [e1]; omega) (by rw [e1]; omega), e1]
  omega

/-! ### The two facts -/

open Cert.KernelIdeal Cert.KernelIdeal.Gen in
set_option maxHeartbeats 4000000 in
/-- Every point's group, as the kernel program's region finds it, lies in [-500000, 500000). -/
theorem inv_range
    (m : (ℓ : Loc Cert.KernelIdeal.nD Cert.KernelIdeal.τ Cert.KernelIdeal.sig) → Buf (Elt Ideal) ℓ)
    (c : Dev Cert.KernelIdeal.nD) (i : Cert.KernelIdeal.S500000.Idx) :
    -500000 ≤ ((Cert.KernelIdeal.Gen.V m c Cert.KernelIdeal.main_v53 : IVec Cert.KernelIdeal.S500000 32) i).toInt
    ∧ ((Cert.KernelIdeal.Gen.V m c Cert.KernelIdeal.main_v53 : IVec Cert.KernelIdeal.S500000 32) i).toInt < 500000 := by
  have hsplit : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal)))
      = (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ hostOps0_16))))))))))))))))
          ++ ((hostOps0_17 ++ hostOps0_18) ++ List.flatten [hostOps0_19, hostOps0_20]) := by
    simp only [List.flatten_cons, List.append_assoc]
  dsimp only [Gen.V, Gen.V0]
  rw [hsplit, after_append, after_append]
  rw [StableHlo.after_of_forall_not_mem (b := Proc.devRef .tc main_v53) _ _ (List.forall_iff_forall_mem.mp (by
    simp only [hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  generalize StableHlo.after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ hostOps0_16)))))))))))))))) (fun b => m (c, b)) = A
  simp only [hostOps0_17, hostOps0_18, List.cons_append, List.nil_append]
  after_results_simp
  simp only [StableHlo.TRef.toBuf, StableHlo.TRef.ofBuf, cast_eq, id]
  generalize A (Proc.devRef .tc main_v14_1) = M1
  generalize A (Proc.devRef .tc main_v14_2) = M2
  refine Cert.ScatterFold.scatter_set_all _ _ _ _ (fun w : BitVec 32 => -500000 ≤ w.toInt ∧ w.toInt < 500000)
    (fun k => ?_) (fun j => ?_) i
  · show -500000 ≤ (0#32 : BitVec 32).toInt ∧ (0#32 : BitVec 32).toInt < 500000
    decide
  · refine sub_one_range_vec _ _ (fun _ => rfl) (fun j' => ?_) j
    exact reduceWindow_addi_range _ _ _ _ _ _ _ _ (fun k => ext_range _) rfl 500000 (by simp [Shape.numel]) (by decide) j'

open Cert.KernelIdeal Cert.KernelIdeal.Gen in
set_option maxHeartbeats 4000000 in
/-- Every point's slot, as the kernel program's region finds it, lies in [0, 8). -/
theorem o_range
    (m : (ℓ : Loc Cert.KernelIdeal.nD Cert.KernelIdeal.τ Cert.KernelIdeal.sig) → Buf (Elt Ideal) ℓ)
    (c : Dev Cert.KernelIdeal.nD) (i : Cert.KernelIdeal.S500000.Idx) :
    0 ≤ ((Cert.KernelIdeal.Gen.V m c Cert.KernelIdeal.main_v13 : IVec Cert.KernelIdeal.S500000 32) i).toInt
    ∧ ((Cert.KernelIdeal.Gen.V m c Cert.KernelIdeal.main_v13 : IVec Cert.KernelIdeal.S500000 32) i).toInt < 8 := by
  have hsplit : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal)))
      = (hostOps0 ++ (hostOps0_1 ++ (hostOps0_2 ++ (hostOps0_3 ++ hostOps0_4)))) ++ List.flatten [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] := by
    simp only [List.flatten_cons, List.append_assoc]
  dsimp only [Gen.V, Gen.V0]
  rw [hsplit, after_append]
  rw [StableHlo.after_of_forall_not_mem (b := Proc.devRef .tc main_v13) _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  simp only [hostOps0, hostOps0_1, hostOps0_2, hostOps0_3, hostOps0_4, List.cons_append, List.nil_append]
  after_results_simp
  simp only [StableHlo.TRef.toBuf, StableHlo.TRef.ofBuf, cast_eq, id]
  generalize m (c, Proc.devRef .tc main_arg1) = X
  refine slot_range_vec _ _ _ _ _ (fun _ => rfl) (fun _ => rfl) (fun j => ?_) (fun j => ?_) (fun j => ?_) i
  all_goals
    refine shapeCast_all (fun w : BitVec 32 => 0 ≤ w.toInt ∧ w.toInt ≤ 1) _ _ (fun k => ?_) j
    refine slice_all (fun w : BitVec 32 => 0 ≤ w.toInt ∧ w.toInt ≤ 1) _ _ _ (fun k' => ?_) k
    exact rem2_fix_range _ _ (by
      show Scalar.select (IntOp.cmpi .eq 2#32 0#32) 1#32 2#32 = 2#32
      decide)

end Cert.Prefix

end
-- ==== Proof.CellDefs.lean ====
/-
  One cell of the result, row `r` and lane `l`, and the points that can reach it: those whose group names row `r`
  (a negative group counts from the end) and whose slot is `l / 16`.
-/
import Idealize.ShloMosaic.PureOps.ShapeOps
import Idealize.ShloMosaic.Lib.ValueIdx

namespace Cert.Cell

open Idealize.ShloMosaic Idealize.ShloMosaic.ValueIdx

/-- The row a group word names: the word read signed, plus 500000 when negative. -/
def rowOf (x : BitVec 32) : ℤ := if x.toInt < 0 then x.toInt + 500000 else x.toInt

/-- Point `i` can reach cell `(r, l)`: its group names row `r` and its slot is `l / 16`. -/
def Hit (inv o : IVec ⟨1, ![500000]⟩ 32) (r : Fin 500000) (l : Fin 128) (i : Fin 500000) : Prop :=
  rowOf (inv (ix1 i)) = (r.val : ℤ) ∧ (o (ix1 i)).toInt = ((l.val / 16 : ℕ) : ℤ)

/-- The feature lane `l` shows: `l mod 16`. -/
abbrev chan (l : Fin 128) : Fin 16 := ⟨l.val % 16, Nat.mod_lt _ (by decide)⟩

end Cert.Cell
-- ==== Proof.DimsRead.lean ====
/-
  Where an update lands, for the three scatters of this certificate, read off the dimension numbers: the start
  index is read signed off the index array and is NOT clamped, so an update lands on cell `i` exactly when its
  index word(s), as integers, are `i`'s coordinate(s) — which also says they are inside the array.
-/
import Idealize.ShloMosaic.PureOps.ShapeOps
import Idealize.ShloMosaic.Lib.ValueIdx

namespace Cert.DimsRead

open Idealize.ShloMosaic Idealize.ShloMosaic.ValueIdx

/-- An update lands on cell `i` exactly when, on every operand axis, the start plus the window coordinate is
    `i`'s coordinate: being inside the operand is then `i`'s own bound. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro e a
      have e' := congrFun (Option.some.inj e) a
      have hv := congrArg Fin.val e'
      simp only at hv
      rw [← hv]
      exact (Int.toNat_of_nonneg (h a).1).symm
    · intro e
      congr 1
      funext a
      apply Fin.ext
      show (d.start j idx a + (d.window j a : ℤ)).toNat = (i a).val
      rw [e a]
      exact Int.toNat_natCast _
  · next h =>
    constructor
    · intro e; cases e
    · intro e
      exfalso
      apply h
      intro a
      rw [e a]
      exact ⟨Int.natCast_nonneg _, by exact_mod_cast (i a).isLt⟩

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-! ## A flat array scattered into at a column of positions -/

/-- The dimension numbers of the flat scatter, as a literal record. -/
private abbrev flatDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

private theorem flat_iff {N n w : Nat} (wf : ScatterDims.WF ⟨1, ![N]⟩ ⟨2, ![n, 1]⟩ ⟨1, ![n]⟩ [] [0] [0] 1)
    (idx : IVec ⟨2, ![n, 1]⟩ w) (j : Fin n) (i : Fin N) :
    (flatDims N n wf).resultIdx? (ix1 j) idx = some (ix1 i) ↔ (idx (ix2 j (0 : Fin 1))).toInt = (i.val : ℤ) := by
  rw [resultIdx?_eq_some_iff]
  -- the one operand axis is named by the map, its start read at row `j` of the column
  have hs : (flatDims N n wf).start (ix1 j) idx 0 = (idx (ix2 j (0 : Fin 1))).toInt := by
    unfold ScatterDims.start
    rw [dif_pos (show (0 : Fin 1) ∈ (flatDims N n wf).scatterDimsToOperandDims from List.mem_singleton.mpr rfl)]
    congr 2
    funext b
    refine Fin.ext ?_
    match b with
    | ⟨0, _⟩ => rfl
    | ⟨1, _⟩ => rfl
  -- and it is inserted: no window coordinate
  have hw : (flatDims N n wf).window (ix1 j) 0 = 0 := by
    unfold ScatterDims.window
    exact dif_neg fun h => (mem_kept _ _).1 h (List.mem_singleton.mpr rfl)
  constructor
  · intro h
    have h0 : (flatDims N n wf).start (ix1 j) idx 0 + ((flatDims N n wf).window (ix1 j) 0 : ℤ) = (i.val : ℤ) := h 0
    rw [hs, hw] at h0
    simpa using h0
  · intro h a
    obtain rfl : a = 0 := Subsingleton.elim _ _
    show (flatDims N n wf).start (ix1 j) idx 0 + ((flatDims N n wf).window (ix1 j) 0 : ℤ) = (i.val : ℤ)
    rw [hs, hw]
    simpa using h

/-- A scatter of `n` scalars into a flat array of `N` cells at an `[n, 1]` column of positions (jnp's
    `x.at[idx].set(v)` / `.max(v)` / `.add(v)` on a rank-1 `x`): update `j` lands on cell `i` iff its position
    word, read signed, is `i`. -/
theorem resultIdx_flat_iff {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (j : Fin n) (i : Fin N) :
    d.resultIdx? (ix1 j) idx = some (ix1 i) ↔ (idx (ix2 j (0 : Fin 1))).toInt = (i.val : ℤ) := by
  obtain ⟨uw, iw, sd, iv, wf⟩ := d
  simp only at huw hiw hsd hiv
  subst huw hiw hsd hiv
  exact flat_iff wf idx j i

/-! ## Whole rows scattered into at a column of row numbers -/

/-- The dimension numbers of the row scatter, as a literal record. -/
private abbrev rowsDims (N L n : Nat) (wf : ScatterDims.WF ⟨2, ![N, L]⟩ ⟨2, ![n, 1]⟩ ⟨2, ![n, L]⟩ [1] [0] [0] 1) :
    ScatterDims ⟨2, ![N, L]⟩ ⟨2, ![n, 1]⟩ ⟨2, ![n, L]⟩ where
  updateWindowDims := [1]
  insertedWindowDims := [0]
  scatterDimsToOperandDims := [0]
  indexVectorDim := 1
  wf := wf

private theorem rows_iff {N L n w : Nat} (wf : ScatterDims.WF ⟨2, ![N, L]⟩ ⟨2, ![n, 1]⟩ ⟨2, ![n, L]⟩ [1] [0] [0] 1)
    (idx : IVec ⟨2, ![n, 1]⟩ w) (j : Fin n) (l : Fin L) (i : Fin N) (l' : Fin L) :
    (rowsDims N L n wf).resultIdx? (ix2 j l) idx = some (ix2 i l')
      ↔ (idx (ix2 j (0 : Fin 1))).toInt = (i.val : ℤ) ∧ l = l' := by
  rw [resultIdx?_eq_some_iff]
  -- the row axis is named by the map, its start read at row `j` of the column …
  have hs0 : (rowsDims N L n wf).start (ix2 j l) idx 0 = (idx (ix2 j (0 : Fin 1))).toInt := by
    unfold ScatterDims.start
    rw [dif_pos (show (0 : Fin 2) ∈ (rowsDims N L n wf).scatterDimsToOperandDims from List.mem_singleton.mpr rfl)]
    congr 2
    funext b
    refine Fin.ext ?_
    match b with
    | ⟨0, _⟩ => rfl
    | ⟨1, _⟩ => rfl
  -- … and inserted: no window coordinate
  have hw0 : (rowsDims N L n wf).window (ix2 j l) 0 = 0 := by
    unfold ScatterDims.window
    exact dif_neg fun h => (mem_kept _ _).1 h (List.mem_singleton.mpr rfl)
  -- the lane axis is not named by the map: its start is 0 …
  have hs1 : (rowsDims N L n wf).start (ix2 j l) idx 1 = 0 := by
    unfold ScatterDims.start
    exact dif_neg (show (1 : Fin 2) ∉ [(0 : Fin 2)] by decide)
  -- … and it is the one kept axis: its window coordinate is the update's lane
  have hw1 : (rowsDims N L n wf).window (ix2 j l) 1 = l.val := by
    unfold ScatterDims.window
    rw [dif_pos ((mem_kept _ _).2 (show (1 : Fin 2) ∉ [(0 : Fin 2)] by decide))]
    rfl
  constructor
  · intro h
    have h0 : (rowsDims N L n wf).start (ix2 j l) idx 0 + ((rowsDims N L n wf).window (ix2 j l) 0 : ℤ) = (i.val : ℤ) := h 0
    have h1 : (rowsDims N L n wf).start (ix2 j l) idx 1 + ((rowsDims N L n wf).window (ix2 j l) 1 : ℤ) = (l'.val : ℤ) := h 1
    rw [hs0, hw0] at h0
    rw [hs1, hw1] at h1
    refine ⟨by simpa using h0, Fin.ext ?_⟩
    omega
  · rintro ⟨h0, h1⟩ a
    match a with
    | ⟨0, _⟩ =>
      show (rowsDims N L n wf).start (ix2 j l) idx 0 + ((rowsDims N L n wf).window (ix2 j l) 0 : ℤ) = (i.val : ℤ)
      rw [hs0, hw0]
      simpa using h0
    | ⟨1, _⟩ =>
      show (rowsDims N L n wf).start (ix2 j l) idx 1 + ((rowsDims N L n wf).window (ix2 j l) 1 : ℤ) = (l'.val : ℤ)
      rw [hs1, hw1, h1]
      simp

/-- A scatter of `n` whole rows of `L` lanes into an `[N, L]` array at an `[n, 1]` column of row numbers (jnp's
    `x.at[rows].add(v)` on a rank-2 `x`): element `(j, l)` of the updates lands on cell `(i, l')` iff `l = l'`
    and row `j`'s position word, read signed, is `i`. -/
theorem resultIdx_rows_iff {N L n w : Nat} (d : ScatterDims ⟨2, ![N, L]⟩ ⟨2, ![n, 1]⟩ ⟨2, ![n, L]⟩)
    (huw : d.updateWindowDims = [1]) (hiw : d.insertedWindowDims = [0]) (hsd : d.scatterDimsToOperandDims = [0])
    (hiv : d.indexVectorDim = 1) (idx : IVec ⟨2, ![n, 1]⟩ w) (j : Fin n) (l : Fin L) (i : Fin N) (l' : Fin L) :
    d.resultIdx? (ix2 j l) idx = some (ix2 i l') ↔ (idx (ix2 j (0 : Fin 1))).toInt = (i.val : ℤ) ∧ l = l' := by
  obtain ⟨uw, iw, sd, iv, wf⟩ := d
  simp only at huw hiw hsd hiv
  subst huw hiw hsd hiv
  exact rows_iff wf idx j l i l'

/-! ## Scalars scattered into a rank-2 array at (row, column) pairs -/

/-- The dimension numbers of the pair scatter, as a literal record. -/
private abbrev pairsDims (N L n C : Nat)
    (wf : ScatterDims.WF ⟨2, ![N, L]⟩ ⟨3, ![n, C, 2]⟩ ⟨2, ![n, C]⟩ [] [0, 1] [0, 1] 2) :
    ScatterDims ⟨2, ![N, L]⟩ ⟨3, ![n, C, 2]⟩ ⟨2, ![n, C]⟩ where
  updateWindowDims := []
  insertedWindowDims := [0, 1]
  scatterDimsToOperandDims := [0, 1]
  indexVectorDim := 2
  wf := wf

private theorem pairs_iff {N L n C w : Nat}
    (wf : ScatterDims.WF ⟨2, ![N, L]⟩ ⟨3, ![n, C, 2]⟩ ⟨2, ![n, C]⟩ [] [0, 1] [0, 1] 2)
    (idx : IVec ⟨3, ![n, C, 2]⟩ w) (j : Fin n) (c : Fin C) (i : Fin N) (l : Fin L) :
    (pairsDims N L n C wf).resultIdx? (ix2 j c) idx = some (ix2 i l)
      ↔ (idx (ix3 j c (0 : Fin 2))).toInt = (i.val : ℤ) ∧ (idx (ix3 j c (1 : Fin 2))).toInt = (l.val : ℤ) := by
  rw [resultIdx?_eq_some_iff]
  -- both operand axes are named by the map: axis 0 reads component 0 of pair `(j, c)`, axis 1 component 1 …
  have hs0 : (pairsDims N L n C wf).start (ix2 j c) idx 0 = (idx (ix3 j c (0 : Fin 2))).toInt := by
    unfold ScatterDims.start
    rw [dif_pos (show (0 : Fin 2) ∈ (pairsDims N L n C wf).scatterDimsToOperandDims from
      (show (0 : Fin 2) ∈ [(0 : Fin 2), 1] by decide))]
    congr 2
    funext b
    refine Fin.ext ?_
    match b with
    | ⟨0, _⟩ => rfl
    | ⟨1, _⟩ => rfl
    | ⟨2, _⟩ => rfl
  have hs1 : (pairsDims N L n C wf).start (ix2 j c) idx 1 = (idx (ix3 j c (1 : Fin 2))).toInt := by
    unfold ScatterDims.start
    rw [dif_pos (show (1 : Fin 2) ∈ (pairsDims N L n C wf).scatterDimsToOperandDims from
      (show (1 : Fin 2) ∈ [(0 : Fin 2), 1] by decide))]
    congr 2
    funext b
    refine Fin.ext ?_
    match b with
    | ⟨0, _⟩ => rfl
    | ⟨1, _⟩ => rfl
    | ⟨2, _⟩ => rfl
  -- … and both are inserted: no window coordinates
  have hw0 : (pairsDims N L n C wf).window (ix2 j c) 0 = 0 := by
    unfold ScatterDims.window
    exact dif_neg fun h => (mem_kept _ _).1 h (show (0 : Fin 2) ∈ [(0 : Fin 2), 1] by decide)
  have hw1 : (pairsDims N L n C wf).window (ix2 j c) 1 = 0 := by
    unfold ScatterDims.window
    exact dif_neg fun h => (mem_kept _ _).1 h (show (1 : Fin 2) ∈ [(0 : Fin 2), 1] by decide)
  constructor
  · intro h
    have h0 : (pairsDims N L n C wf).start (ix2 j c) idx 0 + ((pairsDims N L n C wf).window (ix2 j c) 0 : ℤ) = (i.val : ℤ) := h 0
    have h1 : (pairsDims N L n C wf).start (ix2 j c) idx 1 + ((pairsDims N L n C wf).window (ix2 j c) 1 : ℤ) = (l.val : ℤ) := h 1
    rw [hs0, hw0] at h0
    rw [hs1, hw1] at h1
    exact ⟨by simpa using h0, by simpa using h1⟩
  · rintro ⟨h0, h1⟩ a
    match a with
    | ⟨0, _⟩ =>
      show (pairsDims N L n C wf).start (ix2 j c) idx 0 + ((pairsDims N L n C wf).window (ix2 j c) 0 : ℤ) = (i.val : ℤ)
      rw [hs0, hw0]
      simpa using h0
    | ⟨1, _⟩ =>
      show (pairsDims N L n C wf).start (ix2 j c) idx 1 + ((pairsDims N L n C wf).window (ix2 j c) 1 : ℤ) = (l.val : ℤ)
      rw [hs1, hw1]
      simpa using h1

/-- A scatter of an `[n, C]` array of scalars into an `[N, L]` array at an `[n, C, 2]` array of (row, column)
    pairs (jnp's `x.at[rows[:, None], cols].set(v)`): update `(j, c)` lands on cell `(i, l)` iff its two index
    words, read signed, are `i` and `l`. -/
theorem resultIdx_pairs_iff {N L n C w : Nat} (d : ScatterDims ⟨2, ![N, L]⟩ ⟨3, ![n, C, 2]⟩ ⟨2, ![n, C]⟩)
    (huw : d.updateWindowDims = []) (hiw : d.insertedWindowDims = [0, 1]) (hsd : d.scatterDimsToOperandDims = [0, 1])
    (hiv : d.indexVectorDim = 2) (idx : IVec ⟨3, ![n, C, 2]⟩ w) (j : Fin n) (c : Fin C) (i : Fin N) (l : Fin L) :
    d.resultIdx? (ix2 j c) idx = some (ix2 i l)
      ↔ (idx (ix3 j c (0 : Fin 2))).toInt = (i.val : ℤ) ∧ (idx (ix3 j c (1 : Fin 2))).toInt = (l.val : ℤ) := by
  obtain ⟨uw, iw, sd, iv, wf⟩ := d
  simp only at huw hiw hsd hiv
  subst huw hiw hsd hiv
  exact pairs_iff wf idx j c i l

end Cert.DimsRead
-- ==== Proof.KCell.lean ====
/-
  One cell of the kernel program's result. The cell (r, l) is zero plus the sum, over the points whose group names
  row r, of the padded row's lane l; that lane is feature l mod 16 of the point when l / 16 is the slot the point
  carries, and zero otherwise; a point carries its own slot exactly when it is the largest point number with its
  flat key 8·row + slot (the scatter under max leaves that number in the key's cell, the gather reads it back), and
  -1 otherwise. So every point that cannot reach the cell, and every point that can but is not the largest such,
  adds zero; the largest adds its feature.
-/
import proofs.«420124_j8804682957047_3_alg».proof.Proof.KTail
import proofs.«420124_j8804682957047_3_alg».proof.Proof.CellDefs
import proofs.«420124_j8804682957047_3_alg».proof.Proof.ScatterFold
import proofs.«420124_j8804682957047_3_alg».proof.Proof.DimsRead
import Idealize.ShloMosaic.Lib.StableHlo.Predicate
import Idealize.ShloMosaic.Lib.Pipeline.Value
import Idealize.ShloMosaic.PureOps.Ideal
import Idealize.ShloMosaic.PureOps.Ideal.Laws

noncomputable section

namespace Cert.Cell

open Idealize.ShloMosaic Idealize.ShloMosaic.ValueIdx
open Cert.KernelIdeal Cert.KernelIdeal.Tail Cert.KernelIdeal.Facts₀
open Idealize.ShloMosaic.StableHlo.Predicate (ixP gather_take bcast_col1)

/-! ### Words -/

private theorem lit1 : (500000#32).toInt = 500000 := by decide
private theorem lit2 : (4000000#32).toInt = 4000000 := by decide
private theorem lit3 : (8#32).toInt = 8 := by decide
private theorem lit4 : (4294967295#32).toInt = -1 := by decide
private theorem lit0 : (0#32).toInt = 0 := by decide

/-- A word in [-N, N), counted from the end when negative. -/
private theorem wrap_word (x c : BitVec 32) (N : ℤ) (hc : c.toInt = N) (hN : 0 ≤ N ∧ N ≤ 1000000000)
    (h1 : -N ≤ x.toInt) (h2 : x.toInt < N) :
    (Scalar.select (IntOp.cmpi .slt x 0#32) (IntOp.addi x c) x).toInt
      = if x.toInt < 0 then x.toInt + N else x.toInt := by
  unfold Scalar.select IntOp.cmpi IntOp.addi
  by_cases hx : x.toInt < 0
  · have hs : x.slt 0#32 = true := by rw [BitVec.slt_iff_toInt_lt, lit0]; exact hx
    simp only [hs, BitVec.ofBool_true, if_true, if_pos hx]
    rw [BitVec.toInt_add, hc]
    rw [Int.bmod_eq_of_le] <;> omega
  · have hs : x.slt 0#32 = false := by
      rw [Bool.eq_false_iff]; intro h; rw [BitVec.slt_iff_toInt_lt, lit0] at h; exact hx h
    simp only [hs, BitVec.ofBool_false, if_neg hx]
    rfl

/-- A number below 2^31 as a 32-bit word reads back signed as itself. -/
private theorem toInt_ofNat_small (n : Nat) (h : n < 2147483648) : (BitVec.ofNat 32 n).toInt = (n : ℤ) := by
  rw [BitVec.toInt_ofNat', Int.bmod_eq_of_le] <;> omega

private theorem wrapRows_apply (inv : IVec S500000 32) (i : S500000.Idx) :
    wrapRows inv i = Scalar.select (IntOp.cmpi .slt (inv i) 0#32) (IntOp.addi (inv i) 500000#32) (inv i) := rfl

private theorem key_apply (inv o : IVec S500000 32) (i : S500000.Idx) :
    key inv o i = IntOp.addi (IntOp.muli (inv i) 8#32) (o i) := rfl

private theorem wrapKey_apply (k : IVec S500000 32) (i : S500000.Idx) :
    wrapKey k i = Scalar.select (IntOp.cmpi .slt (k i) 0#32) (IntOp.addi (k i) 4000000#32) (k i) := rfl

private theorem rowOf_range (x : BitVec 32) (h : -500000 ≤ x.toInt ∧ x.toInt < 500000) : 0 ≤ rowOf x ∧ rowOf x < 500000 := by
  unfold rowOf; split <;> omega

/-- The wrapped group word reads as the row it names. -/
private theorem wrapRows_toInt (inv : IVec S500000 32) (hinv : ∀ i, -500000 ≤ (inv i).toInt ∧ (inv i).toInt < 500000)
    (i : S500000.Idx) : (wrapRows inv i).toInt = rowOf (inv i) := by
  rw [wrapRows_apply, wrap_word _ _ 500000 lit1 (by omega) (hinv i).1 (hinv i).2]
  rfl

/-- The flat key does not wrap. -/
private theorem key_toInt (inv o : IVec S500000 32) (hinv : ∀ i, -500000 ≤ (inv i).toInt ∧ (inv i).toInt < 500000)
    (ho : ∀ i, 0 ≤ (o i).toInt ∧ (o i).toInt < 8) (i : S500000.Idx) :
    (key inv o i).toInt = 8 * (inv i).toInt + (o i).toInt := by
  have h1 := hinv i
  have h2 := ho i
  rw [key_apply]
  unfold IntOp.addi IntOp.muli
  rw [BitVec.toInt_add, BitVec.toInt_mul, lit3]
  rw [Int.bmod_eq_of_le (n := (inv i).toInt * 8) (by omega) (by omega)]
  rw [Int.bmod_eq_of_le] <;> omega

/-- The flat key of a point as an integer: eight times its row plus its slot. -/
private def kint (inv o : IVec S500000 32) (p : Fin 500000) : ℤ := 8 * rowOf (inv (ix1 p)) + (o (ix1 p)).toInt

/-- The wrapped key reads as eight times the row plus the slot. -/
private theorem wrapKey_toInt (inv o : IVec S500000 32) (hinv : ∀ i, -500000 ≤ (inv i).toInt ∧ (inv i).toInt < 500000)
    (ho : ∀ i, 0 ≤ (o i).toInt ∧ (o i).toInt < 8) (p : Fin 500000) :
    (wrapKey (key inv o) (ix1 p)).toInt = kint inv o p := by
  have h1 := hinv (ix1 p)
  have h2 := ho (ix1 p)
  have hk := key_toInt inv o hinv ho (ix1 p)
  rw [wrapKey_apply, wrap_word _ _ 4000000 lit2 (by omega) (by omega) (by omega), hk]
  unfold kint rowOf
  split <;> split <;> omega

private theorem kint_range (inv o : IVec S500000 32) (hinv : ∀ i, -500000 ≤ (inv i).toInt ∧ (inv i).toInt < 500000)
    (ho : ∀ i, 0 ≤ (o i).toInt ∧ (o i).toInt < 8) (p : Fin 500000) : 0 ≤ kint inv o p ∧ kint inv o p < 4000000 := by
  have h1 := rowOf_range _ (hinv (ix1 p))
  have h2 := ho (ix1 p)
  unfold kint; omega

/-! ### Reading the packed operand -/

private theorem ofFin_eq_ix1 {n : Nat} (p : Fin n) : Shape.Idx.ofFin p = ix1 p := by
  funext a; match a with | ⟨0, _⟩ => rfl

private theorem ixP_eq_ix2 {n : Nat} (p : Fin n) : ixP p = ix2 p (0 : Fin 1) := by
  funext a; match a with | ⟨0, _⟩ => rfl | ⟨1, _⟩ => rfl

/-- A vector kept as a column reads, at row p, the vector at p. -/
private theorem col_apply {α : Type} (v : S500000.Idx → α) (p : Fin 500000) :
    broadcastInDim S500000x1 ![0] bcast_S500000_S500000x1_0 v (ix2 p (0 : Fin 1)) = v (ix1 p) := by
  rw [← ixP_eq_ix2, ← ofFin_eq_ix1]
  exact bcast_col1 _ v p

/-- A select on the equality of two words is the `if` on it. -/
private theorem select_cmpi_eq {α : Type} {w : Nat} (x y : BitVec w) (a b : α) :
    Scalar.select (IntOp.cmpi .eq x y) a b = if x = y then a else b := by
  unfold Scalar.select IntOp.cmpi
  by_cases h : x = y
  · subst h; simp
  · have : (x == y) = false := by simpa using h
    simp [this, h]

/-- Converting a 32-bit word to an extended real and back gives the word. -/
private theorem fptosi_sitofp (w : BitVec 32) : Ideal.fptosi 32 (((w.toInt : ℝ)) : EReal) = w := by
  unfold Ideal.fptosi
  rw [Ideal.toIntClamped_coe]
  have h1 := BitVec.toInt_lt (x := w)
  have h2 := BitVec.le_toInt (x := w)
  have e : (if (0:ℝ) ≤ (w.toInt : ℝ) then ⌊(w.toInt : ℝ)⌋ else ⌈(w.toInt : ℝ)⌉) = w.toInt := by
    split
    · exact Int.floor_intCast _
    · exact Int.ceil_intCast _
  rw [e]
  have e2 : max (-((2 ^ (32 - 1) : ℕ) : ℤ)) (min (((2 ^ (32 - 1) : ℕ) : ℤ) - 1) w.toInt) = w.toInt := by
    norm_num at h1 h2 ⊢
    omega
  rw [e2, BitVec.ofInt_toInt]

private theorem packed_feat (feats : FVec Ideal S500000x16 .f32) (inv o : IVec S500000 32) (p : Fin 500000) (c : Fin 16) :
    packed feats inv o (ix2 p (⟨c.val, by omega⟩ : Fin 17)) = feats (ix2 p c) := by
  unfold packed
  refine concatenate_pair_apply_left (t := S500000x17) (s₁ := S500000x16) (s₂ := S500000x1) (1 : Fin 2) _ _ _ _ rfl (ix2 p c) ?_
  intro b
  match b with
  | ⟨0, _⟩ => rfl
  | ⟨1, _⟩ => rfl

private theorem packed_slot (feats : FVec Ideal S500000x16 .f32) (inv o : IVec S500000 32) (p : Fin 500000) :
    packed feats inv o (ix2 p (⟨16, by decide⟩ : Fin 17)) = ((((slotOrNeg inv o (ix1 p)).toInt : ℝ)) : EReal) := by
  unfold packed
  refine (concatenate_pair_apply_right (t := S500000x17) (s₁ := S500000x16) (s₂ := S500000x1) (1 : Fin 2) _ _ _ _ rfl rfl (ix2 p (0 : Fin 1)) ?_ ?_).trans ?_
  · intro b hb
    match b with
    | ⟨0, _⟩ => rfl
    | ⟨1, _⟩ => exact absurd rfl hb
  · rfl
  · rw [col_apply]
    rfl

/-! ### The winner of a key -/

/-- A point's number lands on the cell of its key. -/
private theorem lands_iff (inv o : IVec S500000 32) (hinv : ∀ i, -500000 ≤ (inv i).toInt ∧ (inv i).toInt < 500000)
    (ho : ∀ i, 0 ≤ (o i).toInt ∧ (o i).toInt < 8) (p : Fin 500000) (κ : Fin 4000000) :
    scatter_S4000000_S500000x1_S500000_n_0_0_1.resultIdx? (ix1 p)
        (broadcastInDim S500000x1 ![0] bcast_S500000_S500000x1_0 (wrapKey (key inv o))) = some (ix1 κ)
      ↔ kint inv o p = (κ.val : ℤ) := by
  rw [Cert.DimsRead.resultIdx_flat_iff _ rfl rfl rfl rfl, col_apply, wrapKey_toInt inv o hinv ho]

/-- The table at a key is at least every point number with that key, -/
private theorem table_ge (inv o : IVec S500000 32) (hinv : ∀ i, -500000 ≤ (inv i).toInt ∧ (inv i).toInt < 500000)
    (ho : ∀ i, 0 ≤ (o i).toInt ∧ (o i).toInt < 8) (κ : Fin 4000000) (p : Fin 500000)
    (h : kint inv o p = (κ.val : ℤ)) : (p.val : ℤ) ≤ (winnerTable inv o (ix1 κ)).toInt := by
  have hl := (lands_iff inv o hinv ho p κ).2 h
  have e : (iotaInDim S500000 32 0 (ix1 p)).toInt = (p.val : ℤ) := toInt_ofNat_small p.val (by omega)
  rw [← e]
  unfold winnerTable
  exact Cert.ScatterFold.scatter_maxsi_ge _ _ _ _ _ _ hl

/-- and is -1 or one of them. -/
private theorem table_mem (inv o : IVec S500000 32) (hinv : ∀ i, -500000 ≤ (inv i).toInt ∧ (inv i).toInt < 500000)
    (ho : ∀ i, 0 ≤ (o i).toInt ∧ (o i).toInt < 8) (κ : Fin 4000000) :
    winnerTable inv o (ix1 κ) = 4294967295#32
      ∨ ∃ p : Fin 500000, kint inv o p = (κ.val : ℤ) ∧ winnerTable inv o (ix1 κ) = BitVec.ofNat 32 p.val := by
  rcases Cert.ScatterFold.scatter_maxsi_mem scatter_S4000000_S500000x1_S500000_n_0_0_1
    (broadcastInDim S4000000 ![] bcast_S_S4000000 (constantI S_ 32 4294967295#32))
    (broadcastInDim S500000x1 ![0] bcast_S500000_S500000x1_0 (wrapKey (key inv o)))
    (iotaInDim S500000 32 0) (ix1 κ) with h | ⟨j, hj, h⟩
  · exact Or.inl h
  · right
    obtain ⟨p, rfl⟩ : ∃ p : Fin 500000, j = ix1 p := ⟨j 0, eq_ix1 j⟩
    exact ⟨p, (lands_iff inv o hinv ho p κ).1 hj, h⟩

/-- A point reads back the table at its key. -/
private theorem winnerOf_apply (inv o : IVec S500000 32) (hinv : ∀ i, -500000 ≤ (inv i).toInt ∧ (inv i).toInt < 500000)
    (ho : ∀ i, 0 ≤ (o i).toInt ∧ (o i).toInt < 8) (p : Fin 500000) (κ : Fin 4000000)
    (h : kint inv o p = (κ.val : ℤ)) : winnerOf inv o (ix1 p) = winnerTable inv o (ix1 κ) := by
  unfold winnerOf
  rw [← ofFin_eq_ix1 p, gather_take _ rfl rfl rfl rfl _ _ p (by decide), ofFin_eq_ix1]
  congr 2
  apply Fin.ext
  show min _ (4000000 - 1) = κ.val
  rw [ixP_eq_ix2, col_apply, wrapKey_toInt inv o hinv ho, h]
  have := κ.isLt
  simp only [Int.toNat_natCast]
  omega

/-- The largest point with its key reads back its own number, -/
private theorem winner_of_max (inv o : IVec S500000 32) (hinv : ∀ i, -500000 ≤ (inv i).toInt ∧ (inv i).toInt < 500000)
    (ho : ∀ i, 0 ≤ (o i).toInt ∧ (o i).toInt < 8) (p : Fin 500000)
    (hmax : ∀ p', kint inv o p' = kint inv o p → p' ≤ p) : winnerOf inv o (ix1 p) = BitVec.ofNat 32 p.val := by
  have hr := kint_range inv o hinv ho p
  obtain ⟨κ, hκ⟩ : ∃ κ : Fin 4000000, kint inv o p = (κ.val : ℤ) :=
    ⟨⟨(kint inv o p).toNat, by omega⟩, by simp only [Int.toNat_of_nonneg hr.1]⟩
  rw [winnerOf_apply inv o hinv ho p κ hκ]
  have hge := table_ge inv o hinv ho κ p hκ
  rcases table_mem inv o hinv ho κ with h | ⟨p', hp', h⟩
  · rw [h, lit4] at hge; omega
  · have hle := Fin.le_def.1 (hmax p' (hp'.trans hκ.symm))
    rw [h, toInt_ofNat_small _ (by omega)] at hge
    have e : p' = p := Fin.ext (by omega)
    rw [h, e]

/-- and only it does. -/
private theorem max_of_winner (inv o : IVec S500000 32) (hinv : ∀ i, -500000 ≤ (inv i).toInt ∧ (inv i).toInt < 500000)
    (ho : ∀ i, 0 ≤ (o i).toInt ∧ (o i).toInt < 8) (p : Fin 500000)
    (hw : winnerOf inv o (ix1 p) = BitVec.ofNat 32 p.val) (p' : Fin 500000)
    (h : kint inv o p' = kint inv o p) : p' ≤ p := by
  have hr := kint_range inv o hinv ho p
  obtain ⟨κ, hκ⟩ : ∃ κ : Fin 4000000, kint inv o p = (κ.val : ℤ) :=
    ⟨⟨(kint inv o p).toNat, by omega⟩, by simp only [Int.toNat_of_nonneg hr.1]⟩
  rw [winnerOf_apply inv o hinv ho p κ hκ] at hw
  have hge := table_ge inv o hinv ho κ p' (h.trans hκ)
  rw [hw, toInt_ofNat_small _ (by omega)] at hge
  exact Fin.le_def.2 (by omega)

/-! ### One lane of a padded row -/

private theorem slotOrNeg_apply (inv o : IVec S500000 32) (p : Fin 500000) :
    slotOrNeg inv o (ix1 p)
      = if winnerOf inv o (ix1 p) = BitVec.ofNat 32 p.val then o (ix1 p) else 4294967295#32 := by
  unfold slotOrNeg
  rw [select_apply]
  have e1 : cmpi .eq (winnerOf inv o) (iotaInDim S500000 32 0) (ix1 p)
      = IntOp.cmpi .eq (winnerOf inv o (ix1 p)) (BitVec.ofNat 32 p.val) := rfl
  have e2 : broadcastInDim S500000 ![] bcast_S_S500000 (id (constantI S_ 32 4294967295#32)) (ix1 p)
      = 4294967295#32 := rfl
  rw [e1, e2, select_cmpi_eq]

/-- Lane `l` of a point's padded row: its feature `l mod 16` when `l / 16` is the slot it carries, else zero. -/
private theorem pad_apply (feats : FVec Ideal S500000x16 .f32) (inv o : IVec S500000 32) (p : Fin 500000) (l : Fin 128) :
    pad (packed feats inv o) (ix2 p l)
      = if BitVec.ofNat 32 (l.val / 16) = slotOrNeg inv o (ix1 p) then feats (ix2 p (chan l)) else (0 : EReal) := by
  have e1 := packed_slot feats inv o p
  have e2 : packed feats inv o (ix2 p (⟨l.val % 16, by omega⟩ : Fin 17)) = feats (ix2 p (chan l)) :=
    packed_feat feats inv o p (chan l)
  show Scalar.select (IntOp.cmpi .eq (BitVec.ofNat 32 (l.val / 16))
      (Ideal.fptosi 32 (packed feats inv o (ix2 p (⟨16, by decide⟩ : Fin 17)))))
      (packed feats inv o (ix2 p (⟨l.val % 16, by omega⟩ : Fin 17))) (Ideal.ofBits .f32 0x00000000#32) = _
  rw [select_cmpi_eq, e1, fptosi_sitofp, Ideal.ofBits_zero_f32, e2]

/-- A slot word is `l / 16` exactly when it reads so. -/
private theorem slot_eq_iff (x : BitVec 32) (l : Fin 128) :
    BitVec.ofNat 32 (l.val / 16) = x ↔ x.toInt = ((l.val / 16 : ℕ) : ℤ) := by
  have hl : l.val / 16 < 2147483648 := by have := l.isLt; omega
  constructor
  · intro h; rw [← h]; exact toInt_ofNat_small _ hl
  · intro h; apply BitVec.eq_of_toInt_eq; rw [toInt_ofNat_small _ hl, h]

/-- A point whose slot is not `l / 16`, or that is not the largest point with its key, shows zero on lane `l`. -/
private theorem lane_zero (feats : FVec Ideal S500000x16 .f32) (inv o : IVec S500000 32)
    (hinv : ∀ i, -500000 ≤ (inv i).toInt ∧ (inv i).toInt < 500000)
    (ho : ∀ i, 0 ≤ (o i).toInt ∧ (o i).toInt < 8) (p : Fin 500000) (l : Fin 128)
    (h : ¬ ((o (ix1 p)).toInt = ((l.val / 16 : ℕ) : ℤ) ∧ ∀ p', kint inv o p' = kint inv o p → p' ≤ p)) :
    pad (packed feats inv o) (ix2 p l) = (0 : EReal) := by
  rw [pad_apply]
  apply if_neg
  intro hs
  rw [slotOrNeg_apply] at hs
  by_cases hw : winnerOf inv o (ix1 p) = BitVec.ofNat 32 p.val
  · rw [if_pos hw] at hs
    exact h ⟨(slot_eq_iff _ l).1 hs, max_of_winner inv o hinv ho p hw⟩
  · rw [if_neg hw] at hs
    have e := (slot_eq_iff _ l).1 hs
    rw [lit4] at e
    omega

/-- The largest point with its key, its slot `l / 16`, shows its feature `l mod 16` on lane `l`. -/
private theorem lane_feat (feats : FVec Ideal S500000x16 .f32) (inv o : IVec S500000 32)
    (hinv : ∀ i, -500000 ≤ (inv i).toInt ∧ (inv i).toInt < 500000)
    (ho : ∀ i, 0 ≤ (o i).toInt ∧ (o i).toInt < 8) (p : Fin 500000) (l : Fin 128)
    (hs : (o (ix1 p)).toInt = ((l.val / 16 : ℕ) : ℤ)) (hmax : ∀ p', kint inv o p' = kint inv o p → p' ≤ p) :
    pad (packed feats inv o) (ix2 p l) = feats (ix2 p (chan l)) := by
  rw [pad_apply, slotOrNeg_apply, if_pos (winner_of_max inv o hinv ho p hmax), if_pos ((slot_eq_iff _ l).2 hs)]

/-! ### Keys and cells -/

/-- Two points that reach one cell have one key. -/
private theorem kint_eq_of_hit (inv o : IVec S500000 32) (r : Fin 500000) (l : Fin 128) (p p' : Fin 500000)
    (hp : Hit inv o r l p) (hp' : Hit inv o r l p') : kint inv o p' = kint inv o p := by
  unfold kint
  rw [hp.1, hp.2, hp'.1, hp'.2]

/-- A point with the key of a point that reaches a cell reaches it. -/
private theorem hit_of_kint_eq (inv o : IVec S500000 32) (ho : ∀ i, 0 ≤ (o i).toInt ∧ (o i).toInt < 8)
    (r : Fin 500000) (l : Fin 128) (p p' : Fin 500000)
    (h : kint inv o p' = kint inv o p) (hp : Hit inv o r l p) : Hit inv o r l p' := by
  have h1 := ho (ix1 p)
  have h2 := ho (ix1 p')
  unfold kint at h
  obtain ⟨ha, hb⟩ := hp
  constructor <;> omega

/-- The updates that land on cell `(r, l)`: lane `l` of the points whose group names row `r`. -/
private theorem lands_cell_iff (inv : IVec S500000 32) (hinv : ∀ i, -500000 ≤ (inv i).toInt ∧ (inv i).toInt < 500000)
    (p : Fin 500000) (q : Fin 128) (r : Fin 500000) (l : Fin 128) :
    scatter_S500000x128_S500000x1_S500000x128_1_0_0_1.resultIdx? (ix2 p q)
        (broadcastInDim S500000x1 ![0] bcast_S500000_S500000x1_0 (wrapRows inv)) = some (ix2 r l)
      ↔ rowOf (inv (ix1 p)) = (r.val : ℤ) ∧ q = l := by
  rw [Cert.DimsRead.resultIdx_rows_iff _ rfl rfl rfl rfl, col_apply, wrapRows_toInt inv hinv]

/-! ### The cell -/

/-- The result at a cell: the zero constant plus the sum of the updates that land on it. -/
private theorem out_apply (inv : IVec S500000 32) (padded : FVec Ideal S500000x128 .f32) (i : S500000x128.Idx) :
    out (F := Ideal) inv padded i
      = Ideal.hostScatterAdd scatter_S500000x128_S500000x1_S500000x128_1_0_0_1
          (broadcastInDim S500000x128 ![] bcast_S_S500000x128 (constant (F := Ideal) S_ .f32 0x00000000#32))
          (broadcastInDim S500000x1 ![0] bcast_S500000_S500000x1_0 (wrapRows inv)) padded i := by
  have e : out (F := Ideal) inv padded
      = Ideal.hostScatterAdd scatter_S500000x128_S500000x1_S500000x128_1_0_0_1
          (broadcastInDim S500000x128 ![] bcast_S_S500000x128 (constant (F := Ideal) S_ .f32 0x00000000#32))
          (broadcastInDim S500000x1 ![0] bcast_S500000_S500000x1_0 (wrapRows inv)) padded :=
    Ideal.hostScatterAdd_def _ .single _ _ _
  exact congrFun e i

private theorem zero_apply (i : S500000x128.Idx) :
    broadcastInDim S500000x128 ![] bcast_S_S500000x128 (constant (F := Ideal) S_ .f32 0x00000000#32) i = (0 : EReal) :=
  Ideal.ofBits_zero_f32

/-- No point can reach the cell: it is zero. -/
theorem kernel_cell_none (feats : FVec Ideal Cert.KernelIdeal.S500000x16 .f32) (inv o : IVec Cert.KernelIdeal.S500000 32)
    (hinv : ∀ i, -500000 ≤ (inv i).toInt ∧ (inv i).toInt < 500000)
    (ho : ∀ i, 0 ≤ (o i).toInt ∧ (o i).toInt < 8)
    (r : Fin 500000) (l : Fin 128)
    (h : ∀ i, ¬ Hit inv o r l i) :
    Cert.KernelIdeal.Tail.out (F := Ideal) inv (Cert.KernelIdeal.Tail.pad (Cert.KernelIdeal.Tail.packed feats inv o)) (ix2 r l)
      = (0 : EReal) := by
  rw [out_apply]
  unfold Ideal.hostScatterAdd
  rw [Finset.sum_eq_zero, add_zero]
  · exact zero_apply _
  · intro j hj
    obtain ⟨p, q, rfl⟩ : ∃ p q, j = ix2 p q := ⟨j 0, j 1, eq_ix2 j⟩
    obtain ⟨hrow, hq⟩ := (lands_cell_iff inv hinv p q r l).1 (Finset.mem_filter.1 hj).2
    subst q
    apply lane_zero feats inv o hinv ho
    rintro ⟨hs, _⟩
    exact h p ⟨hrow, hs⟩

/-- Some point can: the cell is the feature of the largest one. -/
theorem kernel_cell_some (feats : FVec Ideal Cert.KernelIdeal.S500000x16 .f32) (inv o : IVec Cert.KernelIdeal.S500000 32)
    (hinv : ∀ i, -500000 ≤ (inv i).toInt ∧ (inv i).toInt < 500000)
    (ho : ∀ i, 0 ≤ (o i).toInt ∧ (o i).toInt < 8)
    (r : Fin 500000) (l : Fin 128)
    (i₀ : Fin 500000) (h₀ : Hit inv o r l i₀) (hmax : ∀ i, Hit inv o r l i → i ≤ i₀) :
    Cert.KernelIdeal.Tail.out (F := Ideal) inv (Cert.KernelIdeal.Tail.pad (Cert.KernelIdeal.Tail.packed feats inv o)) (ix2 r l)
      = feats (ix2 i₀ (chan l)) := by
  rw [out_apply]
  unfold Ideal.hostScatterAdd
  rw [Finset.sum_eq_single (ix2 i₀ l)]
  · rw [lane_feat feats inv o hinv ho i₀ l h₀.2
      (fun p' hk => hmax p' (hit_of_kint_eq inv o ho r l i₀ p' hk h₀))]
    rw [zero_apply, zero_add]
  · intro j hj hne
    obtain ⟨p, q, rfl⟩ : ∃ p q, j = ix2 p q := ⟨j 0, j 1, eq_ix2 j⟩
    obtain ⟨hrow, hq⟩ := (lands_cell_iff inv hinv p q r l).1 (Finset.mem_filter.1 hj).2
    subst q
    apply lane_zero feats inv o hinv ho
    rintro ⟨hs, hmaxp⟩
    have hp : Hit inv o r l p := ⟨hrow, hs⟩
    have h1 : p ≤ i₀ := hmax p hp
    have h2 : i₀ ≤ p := hmaxp i₀ (kint_eq_of_hit inv o r l p i₀ hp h₀)
    exact hne (by rw [le_antisymm h1 h2])
  · intro hnot
    exfalso
    apply hnot
    exact Finset.mem_filter.2 ⟨Finset.mem_univ _, (lands_cell_iff inv hinv i₀ l r l).2 ⟨h₀.1, rfl⟩⟩

end Cert.Cell

end
-- ==== Proof.RCell.lean ====
/-
  One cell of the reference's result. Feature (i, ch) is written at row = the row point i's group names and column
  16·slot + ch; it lands on the cell (r, l) exactly when point i can reach the cell and ch = l mod 16. The writes
  go in row-major order of (i, ch), so the cell ends at the write of the largest such point, and stays zero when
  there is none.
-/
import proofs.«420124_j8804682957047_3_alg».proof.Proof.RTail
import proofs.«420124_j8804682957047_3_alg».proof.Proof.CellDefs
import proofs.«420124_j8804682957047_3_alg».proof.Proof.ScatterFold
import proofs.«420124_j8804682957047_3_alg».proof.Proof.DimsRead
import Idealize.ShloMosaic.Lib.StableHlo.Predicate
import Idealize.ShloMosaic.Lib.Pipeline.Value
import Idealize.ShloMosaic.PureOps.Ideal

noncomputable section

namespace Cert.Cell

open Idealize.ShloMosaic Idealize.ShloMosaic.ValueIdx
open Cert.ReferenceIdeal

/-! ### Words: sums and products that stay inside the signed range -/

private theorem toInt_add_small (a b : BitVec 32) (h1 : -2147483648 ≤ a.toInt + b.toInt)
    (h2 : a.toInt + b.toInt < 2147483648) : (a + b).toInt = a.toInt + b.toInt := by
  rw [BitVec.toInt_add]
  exact Int.bmod_eq_of_le (by omega) (by omega)

private theorem toInt_mul_small (a b : BitVec 32) (h1 : -2147483648 ≤ a.toInt * b.toInt)
    (h2 : a.toInt * b.toInt < 2147483648) : (a * b).toInt = a.toInt * b.toInt := by
  rw [BitVec.toInt_mul]
  exact Int.bmod_eq_of_le (by omega) (by omega)

private theorem toInt_lit_500000 : (500000#32 : BitVec 32).toInt = 500000 := by decide
private theorem toInt_lit_128 : (128#32 : BitVec 32).toInt = 128 := by decide
private theorem toInt_lit_16 : (16#32 : BitVec 32).toInt = 16 := by decide
private theorem toInt_lit_0 : (0#32 : BitVec 32).toInt = 0 := by decide

/-- A word counted from the end of `n` when negative. -/
private theorem wrap_word (x : BitVec 32) (n : BitVec 32) :
    Scalar.select (IntOp.cmpi .slt x 0#32) (IntOp.addi x n) x = if x.toInt < 0 then x + n else x := by
  unfold Scalar.select IntOp.cmpi IntOp.addi
  by_cases h : x.toInt < 0
  · have hs : x.slt 0#32 = true := BitVec.slt_iff_toInt_lt.2 (by rw [toInt_lit_0]; exact h)
    simp [hs, h]
  · have hs : x.slt 0#32 = false := by
      rw [Bool.eq_false_iff]
      intro hs
      exact h (by have := BitVec.slt_iff_toInt_lt.1 hs; rwa [toInt_lit_0] at this)
    simp [hs, h]

/-- The first component of the index pair of feature (p, ch) is the wrapped group word of point p. -/
theorem index_row (inv o : IVec S500000 32) (p : Fin 500000) (ch : Fin 16) :
    Tail.index inv o (ix3 p ch (0 : Fin 2)) = Tail.wrapRows inv (ix2 p (0 : Fin 1)) := by
  unfold Tail.index
  refine (concatenate_pair_apply_left (t := S500000x16x2) (s₁ := S500000x16x1) (s₂ := S500000x16x1) (2 : Fin 3) _ _ _ (ix3 p ch (0 : Fin 2)) rfl (ix3 p ch (0 : Fin 1)) ?_).trans ?_
  · intro b
    match b with
    | ⟨0, _⟩ => rfl
    | ⟨1, _⟩ => rfl
    | ⟨2, _⟩ => rfl
  · refine (broadcastInDim_apply _ _ _ (ix3 p ch (0 : Fin 1)) (ix2 p ch) ?_).trans ?_
    · intro a
      match a with
      | ⟨0, _⟩ => rfl
      | ⟨1, _⟩ => rfl
    · refine broadcastInDim_apply _ _ _ (ix2 p ch) (ix2 p (0 : Fin 1)) ?_
      intro a
      match a with
      | ⟨0, _⟩ => rfl
      | ⟨1, _⟩ => rfl

theorem index_col (inv o : IVec S500000 32) (p : Fin 500000) (ch : Fin 16) :
    Tail.index inv o (ix3 p ch (1 : Fin 2)) = Tail.wrapCols (Tail.col o) (ix2 p ch) := by
  unfold Tail.index
  refine (concatenate_pair_apply_right (t := S500000x16x2) (s₁ := S500000x16x1) (s₂ := S500000x16x1) (2 : Fin 3) _ _ _ (ix3 p ch (1 : Fin 2)) rfl rfl (ix3 p ch (0 : Fin 1)) ?_ ?_).trans ?_
  · intro b hb
    match b with
    | ⟨0, _⟩ => rfl
    | ⟨1, _⟩ => rfl
    | ⟨2, _⟩ => exact absurd rfl hb
  · rfl
  · refine broadcastInDim_apply _ _ _ (ix3 p ch (0 : Fin 1)) (ix2 p ch) ?_
    intro a
    match a with
    | ⟨0, _⟩ => rfl
    | ⟨1, _⟩ => rfl

/-! ### The two index words of a feature -/

/-- The wrapped group word of point `p`: its group, plus 500000 when negative. -/
theorem wrapRows_apply (inv : IVec S500000 32) (p : Fin 500000) :
    Tail.wrapRows inv (ix2 p (0 : Fin 1))
      = if (inv (ix1 p)).toInt < 0 then inv (ix1 p) + 500000#32 else inv (ix1 p) := by
  have hb : broadcastInDim S500000x1 ![0] Facts₀.bcast_S500000_S500000x1_0 inv (ix2 p (0 : Fin 1)) = inv (ix1 p) := by
    refine broadcastInDim_apply _ _ _ (ix2 p (0 : Fin 1)) (ix1 p) ?_
    intro a
    match a with
    | ⟨0, _⟩ => rfl
  unfold Tail.wrapRows
  rw [select_apply]
  show Scalar.select (IntOp.cmpi .slt (broadcastInDim S500000x1 ![0] _ inv (ix2 p (0 : Fin 1))) 0#32)
      (IntOp.addi (broadcastInDim S500000x1 ![0] _ inv (ix2 p (0 : Fin 1))) 500000#32)
      (broadcastInDim S500000x1 ![0] _ inv (ix2 p (0 : Fin 1))) = _
  rw [hb]
  exact wrap_word _ _

/-- As an integer it is the row the group names, inside the array. -/
theorem wrapRows_toInt (inv : IVec S500000 32) (p : Fin 500000)
    (hp : -500000 ≤ (inv (ix1 p)).toInt ∧ (inv (ix1 p)).toInt < 500000) :
    (Tail.wrapRows inv (ix2 p (0 : Fin 1))).toInt = rowOf (inv (ix1 p)) := by
  rw [wrapRows_apply]
  unfold rowOf
  split
  · rw [toInt_add_small _ _ (by rw [toInt_lit_500000]; omega) (by rw [toInt_lit_500000]; omega), toInt_lit_500000]
  · rfl

/-- The column word of feature `(p, ch)`: the slot times 16, plus the channel. -/
theorem col_apply (o : IVec S500000 32) (p : Fin 500000) (ch : Fin 16) :
    Tail.col o (ix2 p ch) = o (ix1 p) * 16#32 + BitVec.ofNat 32 ch.val := by
  have hb : broadcastInDim S500000x16 ![0, 1] Facts₀.bcast_S500000x1_S500000x16_0_1
      (muli (broadcastInDim S500000x1 ![0] Facts₀.bcast_S500000_S500000x1_0 o)
        (broadcastInDim S500000x1 ![] Facts₀.bcast_S_S500000x1 (constantI S_ 32 16#32))) (ix2 p ch)
      = o (ix1 p) * 16#32 := by
    refine (broadcastInDim_apply _ _ _ (ix2 p ch) (ix2 p (0 : Fin 1)) ?_).trans ?_
    · intro a
      match a with
      | ⟨0, _⟩ => rfl
      | ⟨1, _⟩ => rfl
    · show IntOp.muli (broadcastInDim S500000x1 ![0] _ o (ix2 p (0 : Fin 1))) 16#32 = _
      have : broadcastInDim S500000x1 ![0] Facts₀.bcast_S500000_S500000x1_0 o (ix2 p (0 : Fin 1)) = o (ix1 p) := by
        refine broadcastInDim_apply _ _ _ (ix2 p (0 : Fin 1)) (ix1 p) ?_
        intro a
        match a with
        | ⟨0, _⟩ => rfl
      rw [this]
      rfl
  have hi : broadcastInDim S500000x16 ![0, 1] Facts₀.bcast_S1x16_S500000x16_0_1
      (broadcastInDim S1x16 ![1] Facts₀.bcast_S16_S1x16_1 (iotaInDim S16 32 0)) (ix2 p ch)
      = BitVec.ofNat 32 ch.val := by
    refine (broadcastInDim_apply _ _ _ (ix2 p ch) (ix2 (0 : Fin 1) ch) ?_).trans ?_
    · intro a
      match a with
      | ⟨0, _⟩ => rfl
      | ⟨1, _⟩ => rfl
    · refine (broadcastInDim_apply _ _ _ (ix2 (0 : Fin 1) ch) (ix1 ch) ?_).trans ?_
      · intro a
        match a with
        | ⟨0, _⟩ => rfl
      · rfl
  unfold Tail.col
  show IntOp.addi _ _ = _
  rw [hb, hi]
  rfl

/-- As an integer: 16 · slot + channel, a lane of the row. -/
theorem col_toInt (o : IVec S500000 32) (p : Fin 500000) (ch : Fin 16)
    (hp : 0 ≤ (o (ix1 p)).toInt ∧ (o (ix1 p)).toInt < 8) :
    (Tail.col o (ix2 p ch)).toInt = 16 * (o (ix1 p)).toInt + (ch.val : ℤ) := by
  have hch : (BitVec.ofNat 32 ch.val).toInt = (ch.val : ℤ) :=
    StableHlo.Predicate.toInt_ofNat_small ch.val (by have := ch.isLt; omega)
  have hm : (o (ix1 p) * 16#32).toInt = (o (ix1 p)).toInt * 16 := by
    rw [toInt_mul_small _ _ (by rw [toInt_lit_16]; omega) (by rw [toInt_lit_16]; omega), toInt_lit_16]
  have hc := ch.isLt
  rw [col_apply, toInt_add_small _ _ (by rw [hm, hch]; omega) (by rw [hm, hch]; omega), hm, hch]
  omega

/-- The column is never negative, so counting from the end does nothing to it. -/
theorem wrapCols_toInt (o : IVec S500000 32) (p : Fin 500000) (ch : Fin 16)
    (hp : 0 ≤ (o (ix1 p)).toInt ∧ (o (ix1 p)).toInt < 8) :
    (Tail.wrapCols (Tail.col o) (ix2 p ch)).toInt = 16 * (o (ix1 p)).toInt + (ch.val : ℤ) := by
  have hc := col_toInt o p ch hp
  unfold Tail.wrapCols
  rw [select_apply]
  show (Scalar.select (IntOp.cmpi .slt (Tail.col o (ix2 p ch)) 0#32)
      (IntOp.addi (Tail.col o (ix2 p ch)) 128#32) (Tail.col o (ix2 p ch))).toInt = _
  rw [wrap_word, if_neg (by rw [hc]; omega), hc]

/-! ### Where a feature lands -/

/-- Feature `(p, ch)` is written to cell `(r, l)` exactly when point `p` can reach the cell and `ch` is the
    channel lane `l` shows. -/
theorem lands_iff (inv o : IVec S500000 32)
    (hinv : ∀ i, -500000 ≤ (inv i).toInt ∧ (inv i).toInt < 500000)
    (ho : ∀ i, 0 ≤ (o i).toInt ∧ (o i).toInt < 8)
    (r : Fin 500000) (l : Fin 128) (p : Fin 500000) (ch : Fin 16) :
    scatter_S500000x128_S500000x16x2_S500000x16_n_01_01_2.resultIdx? (ix2 p ch) (Tail.index inv o) = some (ix2 r l)
      ↔ Hit inv o r l p ∧ ch = chan l := by
  rw [DimsRead.resultIdx_pairs_iff _ rfl rfl rfl rfl, index_row, index_col, wrapRows_toInt inv p (hinv _),
    wrapCols_toInt o p ch (ho _)]
  unfold Hit
  have ho' := ho (ix1 p)
  have hc := ch.isLt
  have hl := l.isLt
  constructor
  · rintro ⟨h1, h2⟩
    refine ⟨⟨h1, ?_⟩, Fin.ext ?_⟩
    · omega
    · show ch.val = l.val % 16
      omega
  · rintro ⟨⟨h1, h2⟩, h3⟩
    have h3' : ch.val = l.val % 16 := congrArg Fin.val h3
    refine ⟨h1, ?_⟩
    omega

/-! ### The array written into -/

/-- Every cell of the array the features are written into is zero. -/
theorem zeros_apply (r : Fin 500000) (l : Fin 128) :
    broadcastInDim S500000x128 ![] Facts₀.bcast_S_S500000x128 (constant (F := Ideal) S_ .f32 0x00000000#32) (ix2 r l)
      = (0 : EReal) := by
  show Ideal.ofBits .f32 0x00000000#32 = 0
  simp [Ideal.ofBits, Ideal.ieee]

/-! ### The cell -/

/-- No point can reach the cell: it is zero. -/
theorem reference_cell_none (feats : FVec Ideal Cert.ReferenceIdeal.S500000x16 .f32) (inv o : IVec Cert.ReferenceIdeal.S500000 32)
    (hinv : ∀ i, -500000 ≤ (inv i).toInt ∧ (inv i).toInt < 500000)
    (ho : ∀ i, 0 ≤ (o i).toInt ∧ (o i).toInt < 8)
    (r : Fin 500000) (l : Fin 128)
    (h : ∀ i, ¬ Hit inv o r l i) :
    Cert.ReferenceIdeal.Tail.out (F := Ideal) feats inv o (ix2 r l) = (0 : EReal) := by
  unfold Tail.out
  rw [ScatterFold.scatter_miss _ _ _ _ _ (ix2 r l) (fun j hj => by
    rw [eq_ix2 j] at hj
    exact h _ ((lands_iff inv o hinv ho r l _ _).1 hj).1)]
  exact zeros_apply r l

/-- Some point can: the cell is the feature of the largest one. -/
theorem reference_cell_some (feats : FVec Ideal Cert.ReferenceIdeal.S500000x16 .f32) (inv o : IVec Cert.ReferenceIdeal.S500000 32)
    (hinv : ∀ i, -500000 ≤ (inv i).toInt ∧ (inv i).toInt < 500000)
    (ho : ∀ i, 0 ≤ (o i).toInt ∧ (o i).toInt < 8)
    (r : Fin 500000) (l : Fin 128)
    (i₀ : Fin 500000) (h₀ : Hit inv o r l i₀) (hmax : ∀ i, Hit inv o r l i → i ≤ i₀) :
    Cert.ReferenceIdeal.Tail.out (F := Ideal) feats inv o (ix2 r l) = feats (ix2 i₀ (chan l)) := by
  unfold Tail.out
  refine ScatterFold.scatter_set_last _ _ _ _ (ix2 r l) (ix2 i₀ (chan l))
    ((lands_iff inv o hinv ho r l i₀ (chan l)).2 ⟨h₀, rfl⟩) ?_
  intro j hj
  rw [eq_ix2 j] at hj
  obtain ⟨hH, hch⟩ := (lands_iff inv o hinv ho r l _ _).1 hj
  have hle : (j 0).val ≤ i₀.val := hmax _ hH
  have hc : (j 1).val = (chan l).val := congrArg Fin.val hch
  rw [Shape.rowMajor_val_two, Shape.rowMajor_val_two]
  show (j 0).val * 16 + (j 1).val ≤ i₀.val * 16 + (chan l).val
  rw [hc]
  omega

end Cert.Cell

end
-- ==== Proof.Core.lean ====
/-
  The two tails compute one array. Fix a cell (row r, lane l) of the result and write a = l / 16, ch = l mod 16.
  The points that matter are those whose group is r and whose slot is a: exactly the points with the flat key
  8 r + a. The reference writes feature ch of each of them into the cell in order of the point numbers, so the
  cell ends at the feature of the LARGEST such point, or stays zero when there is none. The kernel's program keeps,
  per key, the largest point number (a scatter under max, read back); only that point keeps its slot, every other
  point of the key gets slot -1 and so contributes zeros on every lane; adding the rows of the group up, the cell
  is zero plus zeros plus feature ch of that same largest point. Adding zero changes no extended real.
-/
import proofs.«420124_j8804682957047_3_alg».proof.Proof.KTail
import proofs.«420124_j8804682957047_3_alg».proof.Proof.RTail
import proofs.«420124_j8804682957047_3_alg».proof.Proof.KCell
import proofs.«420124_j8804682957047_3_alg».proof.Proof.RCell
import Mathlib.Data.Finset.Max

noncomputable section

namespace Cert.Core

open Idealize.ShloMosaic Idealize.ShloMosaic.ValueIdx

/-- With every group in [-500000, 500000) and every slot in [0, 8), the kernel program's tail and the reference's
    give the same array at the ideal instance. -/
theorem tails_eq (feats : FVec Ideal Cert.KernelIdeal.S500000x16 .f32) (inv o : IVec Cert.KernelIdeal.S500000 32)
    (hinv : ∀ i, -500000 ≤ (inv i).toInt ∧ (inv i).toInt < 500000)
    (ho : ∀ i, 0 ≤ (o i).toInt ∧ (o i).toInt < 8) :
    Cert.KernelIdeal.Tail.out (F := Ideal) inv (Cert.KernelIdeal.Tail.pad (Cert.KernelIdeal.Tail.packed feats inv o))
      = Cert.ReferenceIdeal.Tail.out (F := Ideal) feats inv o := by
  funext j
  obtain ⟨r, l, rfl⟩ : ∃ (r : Fin 500000) (l : Fin 128), j = ix2 r l := ⟨j 0, j 1, eq_ix2 j⟩
  classical
  by_cases hex : ∃ i, Cert.Cell.Hit inv o r l i
  · -- the largest point that can reach the cell
    obtain ⟨i₀, h₀, hmax⟩ : ∃ i₀, Cert.Cell.Hit inv o r l i₀ ∧ ∀ i, Cert.Cell.Hit inv o r l i → i ≤ i₀ := by
      have hS : (Finset.univ.filter fun i => Cert.Cell.Hit inv o r l i).Nonempty := by
        obtain ⟨i, hi⟩ := hex
        exact ⟨i, Finset.mem_filter.mpr ⟨Finset.mem_univ i, hi⟩⟩
      refine ⟨(Finset.univ.filter fun i => Cert.Cell.Hit inv o r l i).max' hS, ?_, ?_⟩
      · exact (Finset.mem_filter.mp (Finset.max'_mem _ hS)).2
      · intro i hi
        exact Finset.le_max' _ i (Finset.mem_filter.mpr ⟨Finset.mem_univ i, hi⟩)
    exact (Cert.Cell.kernel_cell_some feats inv o hinv ho r l i₀ h₀ hmax).trans
      (Cert.Cell.reference_cell_some feats inv o hinv ho r l i₀ h₀ hmax).symm
  · have h : ∀ i, ¬ Cert.Cell.Hit inv o r l i := fun i hi => hex ⟨i, hi⟩
    exact (Cert.Cell.kernel_cell_none feats inv o hinv ho r l h).trans
      (Cert.Cell.reference_cell_none feats inv o hinv ho r l h).symm

end Cert.Core

end
-- ==== Proof.lean ====
/-
  The kernel's program against its reference, over the extended reals.

  Both programs open with the same host operations: every point's coarse voxel, the sort that numbers the distinct
  voxels (the first result, and every point's GROUP), and the point's SLOT among the eight fine positions of its
  voxel. The reference then writes feature `ch` of point `i` at row group(i), column 16·slot(i) + ch of an array
  of zeros, in order of the points, a later write replacing an earlier one. The kernel's program instead finds,
  per (group, slot), the largest point number (a scatter under max, read back by a gather), lets only that point
  keep its slot, has a grid of kernel launches spread every point's sixteen features over the lanes of its slot
  (zeros elsewhere; all zeros for a point that lost), and adds the rows up by group.
  The two arrays agree cell by cell: both hold the feature of the largest point that reaches the cell, or zero
  (`Cert.Core.tails_eq`, over `Cert.Cell`); the groups and slots are the same values in both programs
  (`Cert.Prefix.agree`) and lie in the ranges that argument needs (`Cert.Prefix.inv_range`, `o_range`).
  The kernel program's frames are the generated ones; its two results are read off the generated frame run
  (`Cert.KernelIdeal.Tail.run`); the reference's run is the fold of its host operations
  (`Cert.ReferenceIdeal.Tail.run`), which also gives its frame. The idealization rewrote nothing.
-/
import proofs.«420124_j8804682957047_3_alg».proof.Defs
import proofs.«420124_j8804682957047_3_alg».proof.Proof.Gen.Kernel
import proofs.«420124_j8804682957047_3_alg».proof.Proof.Gen.Kernel.Frame
import proofs.«420124_j8804682957047_3_alg».proof.Proof.Gen.KernelIdeal
import proofs.«420124_j8804682957047_3_alg».proof.Proof.Gen.KernelIdeal.Frame
import proofs.«420124_j8804682957047_3_alg».proof.Proof.Gen.ReferenceIdeal
import proofs.«420124_j8804682957047_3_alg».proof.Proof.Gen.Pre_finite_inputs
import proofs.«420124_j8804682957047_3_alg».proof.Proof.KVal
import proofs.«420124_j8804682957047_3_alg».proof.Proof.RRun
import proofs.«420124_j8804682957047_3_alg».proof.Proof.PrefixAgree
import proofs.«420124_j8804682957047_3_alg».proof.Proof.PrefixRange
import proofs.«420124_j8804682957047_3_alg».proof.Proof.Core
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Tail.run (F := Ideal) m ρ)

/-- From memories that agree on the arguments both programs end with the distinct voxels as the shared opening
    leaves them and with the one array both tails compute. -/
theorem algebraic : Cert.algebraic_KernelIdeal_ReferenceIdeal := by
  intro m ρ m' ρ' _ hagree
  refine ⟨fun c => Cert.KernelIdeal.Gen.V m c Cert.KernelIdeal.main_v42,
    fun c => Cert.KernelIdeal.Tail.out (F := Ideal) (Cert.KernelIdeal.Gen.V m c Cert.KernelIdeal.main_v53)
      (Cert.KernelIdeal.Tail.pad (Cert.KernelIdeal.Tail.packed
        (m ((c.tc : Thread Cert.KernelIdeal.nD Cert.KernelIdeal.τ).loc Cert.KernelIdeal.main_arg0))
        (Cert.KernelIdeal.Gen.V m c Cert.KernelIdeal.main_v53) (Cert.KernelIdeal.Gen.V m c Cert.KernelIdeal.main_v13))),
    Cert.KernelIdeal.Tail.run (F := Ideal) m ρ, ?_⟩
  refine (θ_run Cert.ReferenceIdeal.defs _ _).mono (fun r h c => ?_) (Cert.ReferenceIdeal.Tail.run (F := Ideal) m' ρ')
  obtain ⟨h42, h78, h0, h1⟩ := h c
  obtain ⟨a42, a53, a13⟩ := Cert.Prefix.agree m m' c (hagree c).2
  refine ⟨h42.trans a42, ?_, h0, h1⟩
  rw [h78, (hagree c).1, a53, a13]
  exact (Cert.Core.tails_eq _ _ _ (Cert.Prefix.inv_range m c) (Cert.Prefix.o_range m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
